-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S8388608 : Shape := ⟨1, ![8388608]⟩
abbrev S2048 : Shape := ⟨1, ![2048]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  reducesTo_S_S_d : S_.ReducesTo [] S_

variable [Facts]

def fn {F : FTy → Type} [FloatOps F] (main_arg0 : FVec F S4x2048x4096 .f32) (main_arg1 : IVec S8388608 32) (main_arg2 : IVec S2048 32) (main_arg3 : FVec F S_ .f32) (main_arg4 : FVec F S_ .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S_ .f32 := Host.absf main_arg3
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S_ .f32 := Host.absf main_arg4
  let main_cst_2 : FVec F S_ .f32 := constant S_ .f32 0x7F800000#32
  let main_v9 : IVec S_ 1 := cmpf .olt main_v8 main_cst_2
  let main_c_3 : IVec S_ 1 := constantI S_ 1 1#1
  let main_v10 : IVec S_ 1 := (fun x v => Host.reduce IntOp.andi x v reducesTo_S_S_d h_S_) main_v9 main_c_3
  let main_v11 : IVec S_ 1 := andi main_v7 main_v10
  main_v11
-- ==== Kernel.lean ====
abbrev S4x2048x4096 : Shape := ⟨3, ![4, 2048, 4096]⟩
abbrev S8388608 : Shape := ⟨1, ![8388608]⟩
abbrev S2048 : Shape := ⟨1, ![2048]⟩
abbrev S_ : Shape := ⟨0, ![]⟩
abbrev S8192x4096 : Shape := ⟨2, ![8192, 4096]⟩
abbrev S8388608x1 : Shape := ⟨2, ![8388608, 1]⟩
abbrev S8388608x2 : Shape := ⟨2, ![8388608, 2]⟩
abbrev S16777216 : Shape := ⟨1, ![16777216]⟩
abbrev S4096x4096 : Shape := ⟨2, ![4096, 4096]⟩
abbrev S4096x8x512 : Shape := ⟨3, ![4096, 8, 512]⟩
abbrev S4096x8x256 : Shape := ⟨3, ![4096, 8, 256]⟩
abbrev S4096x2048 : Shape := ⟨2, ![4096, 2048]⟩
abbrev S2048x1 : Shape := ⟨2, ![2048, 1]⟩
abbrev S2048x2 : Shape := ⟨2, ![2048, 2]⟩
abbrev S4096 : Shape := ⟨1, ![4096]⟩
abbrev S1x4096 : Shape := ⟨2, ![1, 4096]⟩
abbrev S1x1 : Shape := ⟨2, ![1, 1]⟩
abbrev S1024x512 : Shape := ⟨2, ![1024, 512]⟩
abbrev S1024x256 : Shape := ⟨2, ![1024, 256]⟩
abbrev S1x1024 : Shape := ⟨2, ![1, 1024]⟩
abbrev S1024x1024 : Shape := ⟨2, ![1024, 1024]⟩
abbrev S1024x4096 : Shape := ⟨2, ![1024, 4096]⟩

abbrev nBuf : Space → Nat
  | .hbm => 52
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S8388608, .i32⟩
  | .hbm, ⟨2, _⟩ => ⟨S2048, .i32⟩
  | .hbm, ⟨3, _⟩ => ⟨S_, .f32⟩
  | .hbm, ⟨4, _⟩ => ⟨S_, .f32⟩
  | .hbm, ⟨5, _⟩ => ⟨S8192x4096, .f32⟩
  | .hbm, ⟨6, _⟩ => ⟨S8192x4096, .bf16⟩
  | .hbm, ⟨7, _⟩ => ⟨S_, .i32⟩
  | .hbm, ⟨8, _⟩ => ⟨S8388608, .i32⟩
  | .hbm, ⟨9, _⟩ => ⟨S8388608, .i32⟩
  | .hbm, ⟨10, _⟩ => ⟨S_, .i32⟩
  | .hbm, ⟨11, _⟩ => ⟨S8388608, .i32⟩
  | .hbm, ⟨12, _⟩ => ⟨S8388608, .i32⟩
  | .hbm, ⟨13, _⟩ => ⟨S_, .i32⟩
  | .hbm, ⟨14, _⟩ => ⟨S8388608, .i32⟩
  | .hbm, ⟨15, _⟩ => ⟨S8388608, .i32⟩
  | .hbm, ⟨16, _⟩ => ⟨S8388608x1, .i32⟩
  | .hbm, ⟨17, _⟩ => ⟨S8388608x1, .i32⟩
  | .hbm, ⟨18, _⟩ => ⟨S8388608x2, .i32⟩
  | .hbm, ⟨19, _⟩ => ⟨S16777216, .i32⟩
  | .hbm, ⟨20, _⟩ => ⟨S4096x4096, .i32⟩
  | .hbm, ⟨21, _⟩ => ⟨S4096x8x512, .i32⟩
  | .hbm, ⟨22, _⟩ => ⟨S4096x8x256, .i32⟩
  | .hbm, ⟨23, _⟩ => ⟨S4096x8x256, .i32⟩
  | .hbm, ⟨24, _⟩ => ⟨S_, .i32⟩
  | .hbm, ⟨25, _⟩ => ⟨S4096x8x256, .i32⟩
  | .hbm, ⟨26, _⟩ => ⟨S4096x8x256, .i32⟩
  | .hbm, ⟨27, _⟩ => ⟨S4096x8x256, .i32⟩
  | .hbm, ⟨28, _⟩ => ⟨S4096x2048, .i32⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S_, .i32⟩
  | .hbm, ⟨36, _⟩ => ⟨S2048, .i32⟩
  | .hbm, ⟨37, _⟩ => ⟨S2048, .i32⟩
  | .hbm, ⟨38, _⟩ => ⟨S2048x1, .i32⟩
  | .hbm, ⟨39, _⟩ => ⟨S2048x1, .i32⟩
  | .hbm, ⟨40, _⟩ => ⟨S2048x2, .i32⟩
  | .hbm, ⟨41, _⟩ => ⟨S4096, .i32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S4096, .f32⟩
  | .hbm, ⟨47, _⟩ => ⟨S4096, .f32⟩
  | .hbm, ⟨48, _⟩ => ⟨S1x4096, .f32⟩
  | .hbm, ⟨49, _⟩ => ⟨S1x1, .f32⟩
  | .hbm, ⟨50, _⟩ => ⟨S8192x4096, .f32⟩
  | .hbm, ⟨51, _⟩ => ⟨S4x2048x4096, .f32⟩
  | .local _ .vmem, ⟨0, _⟩ => ⟨S1024x512, .bf16⟩
  | .local _ .vmem, ⟨1, _⟩ => ⟨S1024x512, .bf16⟩
  | .local _ .vmem, ⟨2, _⟩ => ⟨S1024x256, .i32⟩
  | .local _ .vmem, ⟨3, _⟩ => ⟨S1024x256, .i32⟩
  | .local _ .vmem, ⟨4, _⟩ => ⟨S1x1024, .f32⟩
  | .local _ .vmem, ⟨5, _⟩ => ⟨S1x1024, .f32⟩
  | .local _ .vmem, ⟨6, _⟩ => ⟨S1x1, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_mult1 (i : grid0.Coords) : BitVec 32 :=
  let arg2 : BitVec 32 := BitVec.ofNat 32 (i 2).val
  let c512_i32_14 : BitVec 32 := 512#32
  let v33 : BitVec 32 := Scalar.muli arg2 c512_i32_14
  v33
def k0_off1 (i : grid0.Coords) : Fin 2 → Nat :=
  let c0_15 : Index := 0#32
  let arg2 : BitVec 32 := BitVec.ofNat 32 (i 2).val
  let c512_i32_14 : BitVec 32 := 512#32
  let v33 : BitVec 32 := Scalar.muli arg2 c512_i32_14
  let v34 : BitVec 32 := v33
  let v36 : Index := Scalar.indexCast v34
  ![0, v36.toNat]
def k0_mult2 (i : grid0.Coords) : BitVec 32 :=
  let arg2 : BitVec 32 := BitVec.ofNat 32 (i 2).val
  let c512_i32 : BitVec 32 := 512#32
  let v6 : BitVec 32 := Scalar.muli arg2 c512_i32
  v6
def k0_off2 (i : grid0.Coords) : Fin 2 → Nat :=
  let c0 : Index := 0#32
  let arg2 : BitVec 32 := BitVec.ofNat 32 (i 2).val
  let c512_i32 : BitVec 32 := 512#32
  let v6 : BitVec 32 := Scalar.muli arg2 c512_i32
  let v7 : BitVec 32 := v6
  let v8 : Index := Scalar.indexCast v7
  ![0, v8.toNat]
def k0_cond3 (i : grid0.Coords) : BitVec 1 :=
  let arg2 : BitVec 32 := BitVec.ofNat 32 (i 2).val
  let c7_i32 : BitVec 32 := 7#32
  let v18 : BitVec 1 := Scalar.cmpi .eq arg2 c7_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  bitsLt_bf16_f32 : FTy.bits .bf16 < FTy.bits .f32
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  shapeCasts_S8388608x2_S16777216 : S8388608x2.ShapeCasts S16777216
  shapeCasts_S16777216_S4096x4096 : S16777216.ShapeCasts S4096x4096
  shapeCasts_S4096x4096_S4096x8x512 : S4096x4096.ShapeCasts S4096x8x512
  slices_S4096x8x512_S4096x8x256_0_0_0 : S4096x8x512.Slices ![0, 0, 0] S4096x8x256
  slices_S4096x8x512_S4096x8x256_0_0_256 : S4096x8x512.Slices ![0, 0, 256] S4096x8x256
  bcast_S_S4096x8x256 : S_.BroadcastsInDim S4096x8x256 (![] : Fin 0 → Fin S4096x8x256.rank)
  shapeCasts_S4096x8x256_S4096x2048 : S4096x8x256.ShapeCasts S4096x2048
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  shapeCasts_S2048x2_S4096 : S2048x2.ShapeCasts S4096
  bcast_S_S4096 : S_.BroadcastsInDim S4096 (![] : Fin 0 → Fin S4096.rank)
  shapeCasts_S4096_S1x4096 : S4096.ShapeCasts S1x4096
  shapeCasts_S_S1x1 : S_.ShapeCasts S1x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  concatenates_S1024x256_S1024x256_S1024x512_d1 : Shape.Concatenates [S1024x256, S1024x256] S1024x512 1
  h_S1024x512 : 0 < S1024x512.numel
  shapeCasts_S1024x512_S1024x512 : S1024x512.ShapeCasts S1024x512
  inb_S1024x512_S1024x512_0_0 : ∀ a, (![0, 0] : Fin 2 → Nat) a + S1024x512.size a ≤ S1024x512.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1024 : S1x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x512_S1024x512_S1024x1024_1_1_0_0_n_n_wf : DotDims.WF S1024x512 S1024x512 S1024x1024 [1] [1] [0] [0] [] []
  hrank0 : 0 < grid0.rank
  k0_mult1_dvd : ∀ i : grid0.Coords, ∀ (k0_h2 : k0_cond2 i = 1#1), 512 ∣ (k0_mult1 i).toNat
  k0_off1_inb : ∀ i : grid0.Coords, ∀ (k0_h2 : k0_cond2 i = 1#1), ∀ a, (k0_off1 i) a + S1024x512.size a ≤ S1024x4096.size a
  k0_off1_packedbf16 : ∀ i : grid0.Coords, ∀ (k0_h2 : k0_cond2 i = 1#1), (Rect.unit (s := S1024x4096) (k0_off1 i) S1024x512.size (k0_off1_inb i k0_h2)).PackedRows (EltTy.packing .bf16)
  k0_mult2_dvd : ∀ i : grid0.Coords, 512 ∣ (k0_mult2 i).toNat
  k0_off2_inb : ∀ i : grid0.Coords, ∀ a, (k0_off2 i) a + S1024x512.size a ≤ S1024x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x2048.size a
  hwx0_1 : ∀ i : grid0.Coords, EltTy.bits .i32 = 32 ∨ (Rect.block (s := S4096x2048) S1024x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S8388608 : Shape := ⟨1, ![8388608]⟩
abbrev S2048 : Shape := ⟨1, ![2048]⟩
abbrev S_ : Shape := ⟨0, ![]⟩
abbrev S8388608x1 : Shape := ⟨2, ![8388608, 1]⟩
abbrev S8388608x2 : Shape := ⟨2, ![8388608, 2]⟩
abbrev S16777216 : Shape := ⟨1, ![16777216]⟩
abbrev S4096x4096 : Shape := ⟨2, ![4096, 4096]⟩
abbrev S2048x1 : Shape := ⟨2, ![2048, 1]⟩
abbrev S2048x2 : Shape := ⟨2, ![2048, 2]⟩
abbrev S4096 : Shape := ⟨1, ![4096]⟩
abbrev S1x1x4096 : Shape := ⟨3, ![1, 1, 4096]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8388608, .i32⟩
  | .hbm, ⟨2, _⟩ => ⟨S2048, .i32⟩
  | .hbm, ⟨3, _⟩ => ⟨S_, .f32⟩
  | .hbm, ⟨4, _⟩ => ⟨S_, .f32⟩
  | .hbm, ⟨5, _⟩ => ⟨S_, .i32⟩
  | .hbm, ⟨6, _⟩ => ⟨S8388608, .i32⟩
  | .hbm, ⟨7, _⟩ => ⟨S8388608, .i32⟩
  | .hbm, ⟨8, _⟩ => ⟨S_, .i32⟩
  | .hbm, ⟨9, _⟩ => ⟨S8388608, .i32⟩
  | .hbm, ⟨10, _⟩ => ⟨S8388608, .i32⟩
  | .hbm, ⟨11, _⟩ => ⟨S_, .i32⟩
  | .hbm, ⟨12, _⟩ => ⟨S8388608, .i32⟩
  | .hbm, ⟨13, _⟩ => ⟨S8388608, .i32⟩
  | .hbm, ⟨14, _⟩ => ⟨S8388608x1, .i32⟩
  | .hbm, ⟨15, _⟩ => ⟨S8388608x1, .i32⟩
  | .hbm, ⟨16, _⟩ => ⟨S8388608x2, .i32⟩
  | .hbm, ⟨17, _⟩ => ⟨S16777216, .i32⟩
  | .hbm, ⟨18, _⟩ => ⟨S16777216, .f32⟩
  | .hbm, ⟨19, _⟩ => ⟨S_, .f32⟩
  | .hbm, ⟨20, _⟩ => ⟨S16777216, .f32⟩
  | .hbm, ⟨21, _⟩ => ⟨S16777216, .f32⟩
  | .hbm, ⟨22, _⟩ => ⟨S16777216, .f32⟩
  | .hbm, ⟨23, _⟩ => ⟨S16777216, .f32⟩
  | .hbm, ⟨24, _⟩ => ⟨S4096x4096, .f32⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048x1, .i32⟩
  | .hbm, ⟨35, _⟩ => ⟨S2048x1, .i32⟩
  | .hbm, ⟨36, _⟩ => ⟨S2048x2, .i32⟩
  | .hbm, ⟨37, _⟩ => ⟨S4096, .i32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096, .f32⟩
  | .hbm, ⟨43, _⟩ => ⟨S4096, .f32⟩
  | .hbm, ⟨44, _⟩ => ⟨S4x2048x4096, .f32⟩
  | .hbm, ⟨45, _⟩ => ⟨S1x1x4096, .f32⟩
  | .hbm, ⟨46, _⟩ => ⟨S4x2048x4096, .f32⟩
  | .hbm, ⟨47, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  shapeCasts_S8388608x2_S16777216 : S8388608x2.ShapeCasts S16777216
  bcast_S_S16777216 : S_.BroadcastsInDim S16777216 (![] : Fin 0 → Fin S16777216.rank)
  shapeCasts_S16777216_S4096x4096 : S16777216.ShapeCasts S4096x4096
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  shapeCasts_S2048x2_S4096 : S2048x2.ShapeCasts S4096
  bcast_S_S4096 : S_.BroadcastsInDim S4096 (![] : Fin 0 → Fin S4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KBody.lean ====
/-
  The kernel body at a symbolic grid point (j, i, k) of the (4, 8, 8) grid, at any float instance.

  The body keeps two scratch buffers between points: an accumulator block and a strip of unpacked weights for the
  current column block j.  At a point it (1) zeroes the accumulator if k = 0; (2) if i = 0, unpacks the point's block
  of packed weights and stores it into columns 512k … 512k+511 of the strip; (3) reads those columns of the strip back
  (the tile `wt`), reads the activations' block and adds their product to the accumulator; (4) if k = 7, stores the
  accumulator, scaled and with the bias row added, into the output's block.  Six runs, by the kind of point: k first,
  middle or last, and the strip filled (i = 0) or only read.  In each the tile is named `wt`: where the strip is only
  read it is what the strip holds in those columns (`hw`), where it is filled it is the block just stored.
-/
import proofs.«419171_j38482906972513_3_alg».proof.Proof.Gen.Kernel
import proofs.«419171_j38482906972513_3_alg».proof.Proof.Gen.Kernel.Skeleton
import proofs.«419171_j38482906972513_3_alg».proof.Proof.Gen.Kernel.Launch
import Idealize.ShloMosaic.Lib.Writes
import Idealize.ShloMosaic.Lib.Pipeline.FrameBody
import Idealize.ShloMosaic.Lib.Pipeline.Value
import Idealize.ShloMosaic.Lib.Tactic

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The accumulator and the weight strip: the kernel's two scratch buffers, whole. -/
abbrev accM : Memref sig .tc .vmem S1024x1024 .f32 := Memref.whole cc0_scratch0
abbrev stripM : Memref sig .tc .vmem S1024x4096 .bf16 := Memref.whole cc0_scratch1

/-- The three branch conditions at point `t`: k = 0 (as the body computes it), i = 0 and k = 7 (as the printer names them). -/
abbrev IsK0 (t : Fin cfg0.N) : Prop := Scalar.cmpi .ne (Scalar.extui (Scalar.cmpi .eq (BitVec.ofNat 32 ((grid0.coords t) 2).val) 0#32)) 0#32 = 1#1
abbrev IsI0 (t : Fin cfg0.N) : Prop := k0_cond2 (grid0.coords t) = 1#1
abbrev IsK7 (t : Fin cfg0.N) : Prop := k0_cond3 (grid0.coords t) = 1#1

/-- The whole-block rectangles the body's accesses go through, and the strip's columns 512k … 512k+511 at point `t`
    (as the load names them, `rK`, and as the store under i = 0 names them, `rK1`: the same columns). -/
abbrev rA : Rect S1024x1024 := Rect.unit (s := S1024x1024) ![0, 0] S1024x1024.size inb_S1024x1024_S1024x1024_0_0
abbrev rX : Rect S1024x512 := Rect.unit (s := S1024x512) ![0, 0] S1024x512.size inb_S1024x512_S1024x512_0_0
abbrev rW : Rect S1024x256 := Rect.unit (s := S1024x256) ![0, 0] S1024x256.size inb_S1024x256_S1024x256_0_0
abbrev rB : Rect S1x1024 := Rect.unit (s := S1x1024) ![0, 0] S1x1024.size inb_S1x1024_S1x1024_0_0
abbrev rS : Rect S1x1 := Rect.unit (s := S1x1) ![0, 0] S1x1.size inb_S1x1_S1x1_0_0
abbrev rK (t : Fin cfg0.N) : Rect S1024x4096 := Rect.unit (s := S1024x4096) (k0_off2 (grid0.coords t)) S1024x512.size (k0_off2_inb (grid0.coords t))
abbrev rK1 (t : Fin cfg0.N) (h : IsI0 t) : Rect S1024x4096 := Rect.unit (s := S1024x4096) (k0_off1 (grid0.coords t)) S1024x512.size (k0_off1_inb (grid0.coords t) h)

theorem hz2 : (![0, 0] : Fin 2 → Nat) = fun _ => 0 := by funext a; match a with | ⟨0, _⟩ => rfl | ⟨1, _⟩ => rfl

omit [FloatOps F] in
theorem coverA (L : List (View.Piece (Elt F) S1024x1024 .f32)) (p : Vec F S1024x1024 .f32) (y : S1024x1024.Idx) :
    ∃ pc ∈ ((⟨rA, p⟩ : View.Piece (Elt F) S1024x1024 .f32) :: L), y ∈ pc.1.set :=
  ⟨⟨rA, p⟩, List.mem_cons_self, View.mem_set_unit_zero hz2 inb_S1024x1024_S1024x1024_0_0 y⟩

/-- A load of the strip's columns right after the store that filled them reads the stored block. -/
theorem tileFill_eq (t : Fin cfg0.N) (h : IsI0 t) (p : Vec F S1024x512 .bf16) :
    (stripM.view.readCov [(⟨rK1 t h, p⟩ : View.Piece (Elt F) S1024x4096 .bf16)] (rK t).toLoadRect : Vec F S1024x512 .bf16) = p :=
  View.readCov_cons_toLoadRect stripM.view (rK t) p []

/-- What a fill leaves in the strip: the point's columns hold `wt`, every other entry is unchanged. -/
def StripStep (t : Fin cfg0.N) (wt : Vec F S1024x512 .bf16) (s s' : Vec F S1024x4096 .bf16) : Prop :=
  View.ld s' (rK t) = wt ∧ ∀ y, y ∉ (rK t).set → s' y = s y

section Runs

variable (c : Dev nD) (t : Fin cfg0.N)
  (M0 : Memref sig .tc .vmem S1024x512 .bf16) (h0 : M0.IsWhole) (M1 : Memref sig .tc .vmem S1024x256 .i32) (h1 : M1.IsWhole)
  (M2 : Memref sig .tc .vmem S1x1024 .f32) (h2 : M2.IsWhole) (M3 : Memref sig .tc .vmem S1x1 .f32) (h3 : M3.IsWhole)
  (M4 : Memref sig .tc .vmem S1024x1024 .f32) (h4 : M4.IsWhole)
  (x0 wt : Vec F S1024x512 .bf16) (w1 : Vec F S1024x256 .i32) (b2 : Vec F S1x1024 .f32) (s3 : Vec F S1x1 .f32) (a : Vec F S1024x1024 .f32)
  (s : Vec F S1024x4096 .bf16)

local notation "BODY" => cc0__matmul_kernel (grid0.coords t) M0 h0 M1 h1 M2 h2 M3 h3 M4 h4 (Memref.whole cc0_scratch0) (Memref.isWhole_whole _) (Memref.whole cc0_scratch1) (Memref.isWhole_whole _)

/-- A first step (k = 0): the accumulator, whatever it held, ends at the product over zero; the strip has the point's columns filled with the unpacked block. -/
theorem run_first_fill (hA : IsK0 t) (hB : IsI0 t) (hC : ¬ IsK7 t) (hw : k0_pay2 w1 = wt) (O : sProp 𝕄) (Q : PUnit → sProp 𝕄) :
    iprop(owns (c : Thread nD τ) M0 fullShare x0 ∗ owns (c : Thread nD τ) M1 fullShare w1 ∗ owns (c : Thread nD τ) M2 fullShare b2
      ∗ owns (c : Thread nD τ) M3 fullShare s3 ∗ O ∗ (∃ a, owns (c : Thread nD τ) accM fullShare a) ∗ owns (c : Thread nD τ) stripM fullShare s
      ∗ (iprop(owns (c : Thread nD τ) M0 fullShare x0 ∗ owns (c : Thread nD τ) M1 fullShare w1 ∗ owns (c : Thread nD τ) M2 fullShare b2
      ∗ owns (c : Thread nD τ) M3 fullShare s3 ∗ O ∗ owns (c : Thread nD τ) accM fullShare (k0_pay3 wt x0 k0_pay1) ∗ (∃ s', owns (c : Thread nD τ) stripM fullShare s' ∗ ⌜StripStep t wt s s'⌝)) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, HO, ⟨%a', %fa, %hfa, Ha⟩, ⟨%fs, %hfs, Hs⟩, Hk⟩
  subst hf0 hf1 hf2 hf3 hfs hw
  sl_exec! (disch := assumption)
  sl_step
  sl_unfold_run_names
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HO]; · iexact HO
  isplitl [Ha]
  · iexists _; isplitr; swap; (· iexact Ha); ipureintro
    rw [View.read_writes_eq_canon _ _ _ (coverA _ _), View.canon_cons_unit_zero hz2]
    simp only [tileFill_eq t hB, View.readAt_eq_ld, View.ld_unit_zero (S := S1024x512) hz2, View.ld_unit_zero (S := S1024x1024) hz2, View.ld_unit_zero (S := S1024x256) hz2, View.ld_unit_zero (S := S1x1) hz2, View.ld_unit_zero (S := S1x1024) hz2, View.readCov_unit_zero (S := S1024x1024) _ hz2]
  · iexists _; isplitl [Hs]
    · iexists _; isplitr; swap; (· iexact Hs); ipureintro; rfl
    · ipureintro
      simp only [View.readAt_eq_ld, View.ld_unit_zero (S := S1024x256) hz2]
      refine ⟨?_, ?_⟩
      · funext x; exact View.read_writes_cons_emb stripM.view fs (rK t) _ [] x
      · intro y hy
        exact View.read_writes_apply_of_forall_not_mem stripM.view fs y _ (by intro p hp; rw [List.mem_singleton] at hp; subst hp; exact hy)

/-- A first step (k = 0): the accumulator, whatever it held, ends at the product over zero; the strip is only read. -/
theorem run_first_read (hA : IsK0 t) (hB : ¬ IsI0 t) (hC : ¬ IsK7 t) (hw : View.ld s (rK t) = wt) (O : sProp 𝕄) (Q : PUnit → sProp 𝕄) :
    iprop(owns (c : Thread nD τ) M0 fullShare x0 ∗ owns (c : Thread nD τ) M1 fullShare w1 ∗ owns (c : Thread nD τ) M2 fullShare b2
      ∗ owns (c : Thread nD τ) M3 fullShare s3 ∗ O ∗ (∃ a, owns (c : Thread nD τ) accM fullShare a) ∗ owns (c : Thread nD τ) stripM fullShare s
      ∗ (iprop(owns (c : Thread nD τ) M0 fullShare x0 ∗ owns (c : Thread nD τ) M1 fullShare w1 ∗ owns (c : Thread nD τ) M2 fullShare b2
      ∗ owns (c : Thread nD τ) M3 fullShare s3 ∗ O ∗ owns (c : Thread nD τ) accM fullShare (k0_pay3 wt x0 k0_pay1) ∗ owns (c : Thread nD τ) stripM fullShare s) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, HO, ⟨%a', %fa, %hfa, Ha⟩, ⟨%fs, %hfs, Hs⟩, Hk⟩
  subst hf0 hf1 hf2 hf3 hfs hw
  sl_exec! (disch := assumption)
  sl_step
  sl_unfold_run_names
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HO]; · iexact HO
  isplitl [Ha]
  · iexists _; isplitr; swap; (· iexact Ha); ipureintro
    rw [View.read_writes_eq_canon _ _ _ (coverA _ _), View.canon_cons_unit_zero hz2]
    simp only [View.readAt_eq_ld, View.ld_unit_zero (S := S1024x512) hz2, View.ld_unit_zero (S := S1024x1024) hz2, View.ld_unit_zero (S := S1024x256) hz2, View.ld_unit_zero (S := S1x1) hz2, View.ld_unit_zero (S := S1x1024) hz2, View.readCov_unit_zero (S := S1024x1024) _ hz2]
  · iexists fs; isplitr; (· ipureintro; rfl); iexact Hs

/-- A middle step: the accumulator gains the product; the strip has the point's columns filled with the unpacked block. -/
theorem run_mid_fill (hA : ¬ IsK0 t) (hB : IsI0 t) (hC : ¬ IsK7 t) (hw : k0_pay2 w1 = wt) (O : sProp 𝕄) (Q : PUnit → sProp 𝕄) :
    iprop(owns (c : Thread nD τ) M0 fullShare x0 ∗ owns (c : Thread nD τ) M1 fullShare w1 ∗ owns (c : Thread nD τ) M2 fullShare b2
      ∗ owns (c : Thread nD τ) M3 fullShare s3 ∗ O ∗ owns (c : Thread nD τ) accM fullShare a ∗ owns (c : Thread nD τ) stripM fullShare s
      ∗ (iprop(owns (c : Thread nD τ) M0 fullShare x0 ∗ owns (c : Thread nD τ) M1 fullShare w1 ∗ owns (c : Thread nD τ) M2 fullShare b2
      ∗ owns (c : Thread nD τ) M3 fullShare s3 ∗ O ∗ owns (c : Thread nD τ) accM fullShare (k0_pay3 wt x0 a) ∗ (∃ s', owns (c : Thread nD τ) stripM fullShare s' ∗ ⌜StripStep t wt s s'⌝)) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, HO, ⟨%fa, %hfa, Ha⟩, ⟨%fs, %hfs, Hs⟩, Hk⟩
  subst hf0 hf1 hf2 hf3 hfa hfs hw
  sl_exec! (disch := assumption)
  sl_step
  sl_unfold_run_names
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HO]; · iexact HO
  isplitl [Ha]
  · iexists _; isplitr; swap; (· iexact Ha); ipureintro
    rw [View.read_writes_eq_canon _ _ _ (coverA _ _), View.canon_cons_unit_zero hz2]
    simp only [tileFill_eq t hB, View.readAt_eq_ld, View.ld_unit_zero (S := S1024x512) hz2, View.ld_unit_zero (S := S1024x1024) hz2, View.ld_unit_zero (S := S1024x256) hz2, View.ld_unit_zero (S := S1x1) hz2, View.ld_unit_zero (S := S1x1024) hz2, View.readCov_unit_zero (S := S1024x1024) _ hz2]
  · iexists _; isplitl [Hs]
    · iexists _; isplitr; swap; (· iexact Hs); ipureintro; rfl
    · ipureintro
      simp only [View.readAt_eq_ld, View.ld_unit_zero (S := S1024x256) hz2]
      refine ⟨?_, ?_⟩
      · funext x; exact View.read_writes_cons_emb stripM.view fs (rK t) _ [] x
      · intro y hy
        exact View.read_writes_apply_of_forall_not_mem stripM.view fs y _ (by intro p hp; rw [List.mem_singleton] at hp; subst hp; exact hy)

/-- A middle step: the accumulator gains the product; the strip is only read. -/
theorem run_mid_read (hA : ¬ IsK0 t) (hB : ¬ IsI0 t) (hC : ¬ IsK7 t) (hw : View.ld s (rK t) = wt) (O : sProp 𝕄) (Q : PUnit → sProp 𝕄) :
    iprop(owns (c : Thread nD τ) M0 fullShare x0 ∗ owns (c : Thread nD τ) M1 fullShare w1 ∗ owns (c : Thread nD τ) M2 fullShare b2
      ∗ owns (c : Thread nD τ) M3 fullShare s3 ∗ O ∗ owns (c : Thread nD τ) accM fullShare a ∗ owns (c : Thread nD τ) stripM fullShare s
      ∗ (iprop(owns (c : Thread nD τ) M0 fullShare x0 ∗ owns (c : Thread nD τ) M1 fullShare w1 ∗ owns (c : Thread nD τ) M2 fullShare b2
      ∗ owns (c : Thread nD τ) M3 fullShare s3 ∗ O ∗ owns (c : Thread nD τ) accM fullShare (k0_pay3 wt x0 a) ∗ owns (c : Thread nD τ) stripM fullShare s) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, HO, ⟨%fa, %hfa, Ha⟩, ⟨%fs, %hfs, Hs⟩, Hk⟩
  subst hf0 hf1 hf2 hf3 hfa hfs hw
  sl_exec! (disch := assumption)
  sl_step
  sl_unfold_run_names
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HO]; · iexact HO
  isplitl [Ha]
  · iexists _; isplitr; swap; (· iexact Ha); ipureintro
    rw [View.read_writes_eq_canon _ _ _ (coverA _ _), View.canon_cons_unit_zero hz2]
    simp only [View.readAt_eq_ld, View.ld_unit_zero (S := S1024x512) hz2, View.ld_unit_zero (S := S1024x1024) hz2, View.ld_unit_zero (S := S1024x256) hz2, View.ld_unit_zero (S := S1x1) hz2, View.ld_unit_zero (S := S1x1024) hz2, View.readCov_unit_zero (S := S1024x1024) _ hz2]
  · iexists fs; isplitr; (· ipureintro; rfl); iexact Hs

/-- A last step (k = 7): the accumulator gains the product and the output's buffer takes it scaled, plus the bias; the strip has the point's columns filled with the unpacked block. -/
theorem run_last_fill (hA : ¬ IsK0 t) (hB : IsI0 t) (hC : IsK7 t) (hw : k0_pay2 w1 = wt) (Q : PUnit → sProp 𝕄) :
    iprop(owns (c : Thread nD τ) M0 fullShare x0 ∗ owns (c : Thread nD τ) M1 fullShare w1 ∗ owns (c : Thread nD τ) M2 fullShare b2
      ∗ owns (c : Thread nD τ) M3 fullShare s3 ∗ (∃ d, owns (c : Thread nD τ) M4 fullShare d) ∗ owns (c : Thread nD τ) accM fullShare a ∗ owns (c : Thread nD τ) stripM fullShare s
      ∗ (iprop(owns (c : Thread nD τ) M0 fullShare x0 ∗ owns (c : Thread nD τ) M1 fullShare w1 ∗ owns (c : Thread nD τ) M2 fullShare b2
      ∗ owns (c : Thread nD τ) M3 fullShare s3 ∗ owns (c : Thread nD τ) M4 fullShare (k0_pay4 (k0_pay3 wt x0 a) s3 b2) ∗ owns (c : Thread nD τ) accM fullShare (k0_pay3 wt x0 a) ∗ (∃ s', owns (c : Thread nD τ) stripM fullShare s' ∗ ⌜StripStep t wt s s'⌝)) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, ⟨%d4, %f4, %hf4, H4⟩, ⟨%fa, %hfa, Ha⟩, ⟨%fs, %hfs, Hs⟩, Hk⟩
  subst hf0 hf1 hf2 hf3 hfa hfs hw
  sl_exec! (disch := assumption)
  sl_step
  sl_unfold_run_names
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]
  · iexists _; isplitr; swap; (· iexact H4); ipureintro
    rw [View.read_writes_eq_canon _ _ _ (coverA _ _), View.canon_cons_unit_zero hz2]
    simp only [tileFill_eq t hB, View.readAt_eq_ld, View.ld_unit_zero (S := S1024x512) hz2, View.ld_unit_zero (S := S1024x1024) hz2, View.ld_unit_zero (S := S1024x256) hz2, View.ld_unit_zero (S := S1x1) hz2, View.ld_unit_zero (S := S1x1024) hz2, View.readCov_unit_zero (S := S1024x1024) _ hz2]
  isplitl [Ha]
  · iexists _; isplitr; swap; (· iexact Ha); ipureintro
    rw [View.read_writes_eq_canon _ _ _ (coverA _ _), View.canon_cons_unit_zero hz2]
    simp only [tileFill_eq t hB, View.readAt_eq_ld, View.ld_unit_zero (S := S1024x512) hz2, View.ld_unit_zero (S := S1024x1024) hz2, View.ld_unit_zero (S := S1024x256) hz2, View.ld_unit_zero (S := S1x1) hz2, View.ld_unit_zero (S := S1x1024) hz2, View.readCov_unit_zero (S := S1024x1024) _ hz2]
  · iexists _; isplitl [Hs]
    · iexists _; isplitr; swap; (· iexact Hs); ipureintro; rfl
    · ipureintro
      simp only [View.readAt_eq_ld, View.ld_unit_zero (S := S1024x256) hz2]
      refine ⟨?_, ?_⟩
      · funext x; exact View.read_writes_cons_emb stripM.view fs (rK t) _ [] x
      · intro y hy
        exact View.read_writes_apply_of_forall_not_mem stripM.view fs y _ (by intro p hp; rw [List.mem_singleton] at hp; subst hp; exact hy)

/-- A last step (k = 7): the accumulator gains the product and the output's buffer takes it scaled, plus the bias; the strip is only read. -/
theorem run_last_read (hA : ¬ IsK0 t) (hB : ¬ IsI0 t) (hC : IsK7 t) (hw : View.ld s (rK t) = wt) (Q : PUnit → sProp 𝕄) :
    iprop(owns (c : Thread nD τ) M0 fullShare x0 ∗ owns (c : Thread nD τ) M1 fullShare w1 ∗ owns (c : Thread nD τ) M2 fullShare b2
      ∗ owns (c : Thread nD τ) M3 fullShare s3 ∗ (∃ d, owns (c : Thread nD τ) M4 fullShare d) ∗ owns (c : Thread nD τ) accM fullShare a ∗ owns (c : Thread nD τ) stripM fullShare s
      ∗ (iprop(owns (c : Thread nD τ) M0 fullShare x0 ∗ owns (c : Thread nD τ) M1 fullShare w1 ∗ owns (c : Thread nD τ) M2 fullShare b2
      ∗ owns (c : Thread nD τ) M3 fullShare s3 ∗ owns (c : Thread nD τ) M4 fullShare (k0_pay4 (k0_pay3 wt x0 a) s3 b2) ∗ owns (c : Thread nD τ) accM fullShare (k0_pay3 wt x0 a) ∗ owns (c : Thread nD τ) stripM fullShare s) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, ⟨%d4, %f4, %hf4, H4⟩, ⟨%fa, %hfa, Ha⟩, ⟨%fs, %hfs, Hs⟩, Hk⟩
  subst hf0 hf1 hf2 hf3 hfa hfs hw
  sl_exec! (disch := assumption)
  sl_step
  sl_unfold_run_names
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]
  · iexists _; isplitr; swap; (· iexact H4); ipureintro
    rw [View.read_writes_eq_canon _ _ _ (coverA _ _), View.canon_cons_unit_zero hz2]
    simp only [View.readAt_eq_ld, View.ld_unit_zero (S := S1024x512) hz2, View.ld_unit_zero (S := S1024x1024) hz2, View.ld_unit_zero (S := S1024x256) hz2, View.ld_unit_zero (S := S1x1) hz2, View.ld_unit_zero (S := S1x1024) hz2, View.readCov_unit_zero (S := S1024x1024) _ hz2]
  isplitl [Ha]
  · iexists _; isplitr; swap; (· iexact Ha); ipureintro
    rw [View.read_writes_eq_canon _ _ _ (coverA _ _), View.canon_cons_unit_zero hz2]
    simp only [View.readAt_eq_ld, View.ld_unit_zero (S := S1024x512) hz2, View.ld_unit_zero (S := S1024x1024) hz2, View.ld_unit_zero (S := S1024x256) hz2, View.ld_unit_zero (S := S1x1) hz2, View.ld_unit_zero (S := S1x1024) hz2, View.readCov_unit_zero (S := S1024x1024) _ hz2]
  · iexists fs; isplitr; (· ipureintro; rfl); iexact Hs

end Runs

end Cert.Proof.KB

end
-- ==== Proof.KGrid.lean ====
/-
  The grid's 256 points t = 64·j + 8·i + k (k fastest) and what depends on them: which branches the body takes at a
  point, the strip's columns 512k … 512k+511 a point addresses, and the point (j, 0, k) that fills those columns for
  the column block j.
-/
import proofs.«419171_j38482906972513_3_alg».proof.Proof.KBody
import proofs.«419171_j38482906972513_3_alg».proof.Proof.Gen.Kernel.Points
import proofs.«419171_j38482906972513_3_alg».proof.Proof.Gen.Kernel.Frame
import Idealize.ShloMosaic.Lib.ValueIdx

noncomputable section

namespace Cert.Proof.KB

open Cert.Kernel Cert.Kernel.Gen
open Idealize.ShloMosaic Idealize.ShloMosaic.TcCoe Idealize.ShloMosaic.ValueIdx
open Idealize.SL Idealize.SL.Sem

variable {F : FTy → Type} [FloatOps F]

theorem N_256 : cfg0.N = 256 := N_0

/-- k = 0, i = 0 and k = 7 in terms of the point's number. -/
theorem isK0_iff : ∀ t : Fin cfg0.N, IsK0 t ↔ t.val % 8 = 0 :=
  (by decide +kernel : ∀ t : Fin grid0.N,
    Scalar.cmpi .ne (Scalar.extui (Scalar.cmpi .eq (BitVec.ofNat 32 ((grid0.coords t) 2).val) 0#32)) 0#32 = 1#1 ↔ t.val % 8 = 0)
theorem isI0_iff : ∀ t : Fin cfg0.N, IsI0 t ↔ t.val % 64 < 8 :=
  (by decide +kernel : ∀ t : Fin grid0.N, k0_cond2 (grid0.coords t) = 1#1 ↔ t.val % 64 < 8)
theorem isK7_iff : ∀ t : Fin cfg0.N, IsK7 t ↔ t.val % 8 = 7 :=
  (by decide +kernel : ∀ t : Fin grid0.N, k0_cond3 (grid0.coords t) = 1#1 ↔ t.val % 8 = 7)

/-- The point (j, 0, k) of `t = (j, i, k)`: where the strip's columns for k are filled for the column block j. -/
def fillPt (t : Fin cfg0.N) : Fin cfg0.N := ⟨64 * (t.val / 64) + t.val % 8, by have := t.isLt; have := N_256; omega⟩

/-- The last coordinate of point `t` is `t mod 8` (k runs fastest). -/
private theorem coord2 : ∀ t : Fin cfg0.N, ((grid0.coords t) 2).val = t.val % 8 :=
  (by decide +kernel : ∀ t : Fin grid0.N, ((grid0.coords t) 2).val = t.val % 8)

/-- The strip's columns at point `t` start at `512 · (t mod 8)`. -/
private theorem off2_closed (t : Fin cfg0.N) : k0_off2 (grid0.coords t) = ![0, 512 * (t.val % 8)] := by
  rw [k0_off2_eq, coord2 t]

/-- The point (j, 0, k) has the same k. -/
private theorem fillPt_mod8 (t : Fin cfg0.N) : (fillPt t).val % 8 = t.val % 8 := by
  show (64 * (t.val / 64) + t.val % 8) % 8 = t.val % 8
  omega

/-- A unit-stride rectangle is determined by its offsets and sizes. -/
private theorem unit_congr {s : Shape} {off off' size : Fin s.rank → Nat} (h : off = off')
    (inb : ∀ a, off a + size a ≤ s.size a) (inb' : ∀ a, off' a + size a ≤ s.size a) :
    Rect.unit off size inb = Rect.unit off' size inb' := by
  subst h; rfl

/-- It addresses the same columns of the strip … -/
theorem rK_fillPt (t : Fin cfg0.N) : rK (fillPt t) = rK t :=
  unit_congr (by rw [off2_closed, off2_closed, fillPt_mod8]) _ _

/-- The weights' block index, (j, k), is the same at (j, 0, k) as at (j, i, k). -/
private theorem win1_index_fillPt : ∀ t : Fin cfg0.N,
    win0_1.index (fillPt t) (0 : Fin 2) = win0_1.index t (0 : Fin 2) ∧ win0_1.index (fillPt t) (1 : Fin 2) = win0_1.index t (1 : Fin 2) :=
  (by decide +kernel : ∀ t : Fin grid0.N,
    win0_1.index (fillPt t) (0 : Fin 2) = win0_1.index t (0 : Fin 2) ∧ win0_1.index (fillPt t) (1 : Fin 2) = win0_1.index t (1 : Fin 2))

/-- … and is handed the same block of packed weights (the weights' index map reads j and k only). -/
theorem wblk_fillPt (m : (ℓ : Loc nD τ sig) → Buf (Elt F) ℓ) (c : Dev nD) (t : Fin cfg0.N) :
    (iblk m c 1 (fillPt t) : Vec F S1024x256 .i32) = iblk m c 1 t := by
  funext y
  -- The block index of the weights' window is (j, k) at both points, so an element of the block sits at the same
  -- place of the array.
  have he : ((cfg0.win 1).blk (fillPt t)).view.emb y = ((cfg0.win 1).blk t).view.emb y := by
    funext a; apply Fin.ext
    obtain ⟨i0, i1⟩ := win1_index_fillPt t
    match a with
    | ⟨0, _⟩ =>
      show win0_1.index (fillPt t) (0 : Fin 2) * 1024 + 1 * (y 0).val = win0_1.index t (0 : Fin 2) * 1024 + 1 * (y 0).val
      rw [i0]
    | ⟨1, _⟩ =>
      show win0_1.index (fillPt t) (1 : Fin 2) * 256 + 1 * (y 1).val = win0_1.index t (1 : Fin 2) * 256 + 1 * (y 1).val
      rw [i1]
  show ((cfg0.win 1).blk (fillPt t)).view.read (Elt F) (V m c (Pipeline.arrRef spec0 1)) y
    = ((cfg0.win 1).blk t).view.read (Elt F) (V m c (Pipeline.arrRef spec0 1)) y
  rw [View.read_apply, View.read_apply, he]

/-- Points of different k address disjoint columns of the strip. -/
theorem rK_disjoint (t t' : Fin cfg0.N) (h : t.val % 8 ≠ t'.val % 8) (x : S1024x512.Idx) : (rK t').idx x ∉ (rK t).set := by
  -- On the column axis the element sits at 512·k' + x₁ with x₁ < 512, outside 512·k … 512·k + 511 when k ≠ k'.
  intro hmem
  have h1 := (Rect.mem_set_unit.mp hmem) 1
  have hx : (x 1).val < 512 := (x 1).isLt
  have hv : (((rK t').idx x) 1 : Nat) = k0_off2 (grid0.coords t') 1 + 1 * (x 1).val := rfl
  rw [hv, off2_closed t, off2_closed t'] at h1
  have h1' : 512 * (t.val % 8) ≤ 512 * (t'.val % 8) + 1 * (x 1).val
      ∧ 512 * (t'.val % 8) + 1 * (x 1).val < 512 * (t.val % 8) + 512 := h1
  omega

end Cert.Proof.KB

end
-- ==== Proof.KRun.lean ====
/-
  The pipeline's proof data for the kernel's one region, the body obligation at every grid point and the launch, at any
  float instance.

  Between points the body keeps an accumulator block and a strip of unpacked weights.  The invariant before point
  t = 64·j + 8·i + k: the accumulator holds anything when k = 0 and otherwise what point t − 1 left (`accA`, by recursion
  on the point: the block products of the activations' blocks and the unpacked weight tiles added up since the last
  reset); the strip holds, for every point (j, 0, k′) of the current column block that has already run, that point's
  unpacked tile in columns 512k′ … (`StripInv`) — so at a point with i ≥ 1 the columns it reads hold the tile of its
  own block of packed weights, which is the block the point (j, 0, k) was handed (`strip_read`).  The output's staging
  buffer is idle except at k = 7, where it takes the epilogue's block (`outAt`).
-/
import proofs.«419171_j38482906972513_3_alg».proof.Proof.KBody
import proofs.«419171_j38482906972513_3_alg».proof.Proof.KGrid
import proofs.«419171_j38482906972513_3_alg».proof.Proof.Gen.Kernel.Frame
import proofs.«419171_j38482906972513_3_alg».proof.Proof.Gen.Kernel.Points
import Idealize.ShloMosaic.Lib.Pipeline.FrameSuffix

set_option maxRecDepth 16384

noncomputable section

namespace Cert.Proof.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## Which windows are idle or written back at a point -/

theorem idle_in0 (t : Fin cfg0.N) : idle0 0 (grid0.coords t) = false := rfl
theorem idle_in1 (t : Fin cfg0.N) : idle0 1 (grid0.coords t) = false := rfl
theorem idle_in2 (t : Fin cfg0.N) : idle0 2 (grid0.coords t) = false := rfl
theorem idle_in3 (t : Fin cfg0.N) : idle0 3 (grid0.coords t) = false := rfl
theorem idle4_of_last (t : Fin cfg0.N) (h : IsK7 t) : idle0 4 (grid0.coords t) = false := by
  show (!(k0_cond3 (grid0.coords t) == 1#1)) = false; rw [show (k0_cond3 (grid0.coords t) == 1#1) = true from beq_iff_eq.mpr h]; rfl
theorem idle4_of_not_last (t : Fin cfg0.N) (h : ¬ IsK7 t) : idle0 4 (grid0.coords t) = true := by
  show (!(k0_cond3 (grid0.coords t) == 1#1)) = true; rw [show (k0_cond3 (grid0.coords t) == 1#1) = false from beq_eq_false_iff_ne.mpr h]; rfl
theorem flush4_of_last (t : Fin cfg0.N) (h : IsK7 t) : (cfg0.win 4).flush t = true := (flush0_4 t).mpr ((isK7_iff t).mp h)
theorem flush4_of_not_last (t : Fin cfg0.N) (h : ¬ IsK7 t) : (cfg0.win 4).flush t = false :=
  Bool.eq_false_iff.mpr fun hf => h ((isK7_iff t).mpr ((flush0_4 t).mp hf))

variable (m : (ℓ : Loc nD τ sig) → Buf (Elt F) ℓ) (ρ : Dev nD → PrngReg)

/-! ## The blocks a point is handed, and what the scratch buffers hold -/

abbrev xblk (c : Dev nD) (t : Fin cfg0.N) : Vec F S1024x512 .bf16 := iblk m c 0 t
abbrev wblk (c : Dev nD) (t : Fin cfg0.N) : Vec F S1024x256 .i32 := iblk m c 1 t
abbrev bblk (c : Dev nD) (t : Fin cfg0.N) : Vec F S1x1024 .f32 := iblk m c 2 t
abbrev sblk (c : Dev nD) (t : Fin cfg0.N) : Vec F S1x1 .f32 := iblk m c 3 t
/-- The unpacked weight tile of point `t`'s block of packed weights. -/
abbrev tile (c : Dev nD) (t : Fin cfg0.N) : Vec F S1024x512 .bf16 := k0_pay2 (wblk m c t)

/-- The accumulator after point `k`: the point's block product added to zero at k ≡ 0 (mod 8), else to what the point before left. -/
def accA (c : Dev nD) : (k : ℕ) → k < cfg0.N → Vec F S1024x1024 .f32
  | 0, hk => k0_pay3 (tile m c ⟨0, hk⟩) (xblk m c ⟨0, hk⟩) k0_pay1
  | k + 1, hk => if (k + 1) % 8 = 0 then k0_pay3 (tile m c ⟨k + 1, hk⟩) (xblk m c ⟨k + 1, hk⟩) k0_pay1
      else k0_pay3 (tile m c ⟨k + 1, hk⟩) (xblk m c ⟨k + 1, hk⟩) (accA c k (Nat.lt_of_succ_lt hk))

theorem accA_first (c : Dev nD) (t : Fin cfg0.N) (h : t.val % 8 = 0) :
    accA m c t.val t.isLt = k0_pay3 (tile m c t) (xblk m c t) k0_pay1 := by
  obtain ⟨k, hk⟩ := t
  cases k with
  | zero => rfl
  | succ k => show (if (k + 1) % 8 = 0 then _ else _) = _; rw [if_pos h]

/-- The accumulator BEFORE a point with k ≠ 0: what the point before left. -/
abbrev accB (c : Dev nD) (t : Fin cfg0.N) (h : t.val % 8 ≠ 0) : Vec F S1024x1024 .f32 :=
  accA m c (t.val - 1) (by have := t.isLt; omega)

theorem accA_step (c : Dev nD) (t : Fin cfg0.N) (h : t.val % 8 ≠ 0) :
    accA m c t.val t.isLt = k0_pay3 (tile m c t) (xblk m c t) (accB m c t h) := by
  obtain ⟨k, hk⟩ := t
  cases k with
  | zero => exact absurd rfl h
  | succ k => show (if (k + 1) % 8 = 0 then _ else _) = _; rw [if_neg h]; rfl

/-- The block a point leaves in the output's staging buffer (read only at k = 7): the accumulator scaled, plus the bias row. -/
def outAt (c : Dev nD) (t : Fin cfg0.N) : Vec F S1024x1024 .f32 := k0_pay4 (accA m c t.val t.isLt) (sblk m c t) (bblk m c t)

theorem outAt_last (c : Dev nD) (t : Fin cfg0.N) (h : t.val % 8 ≠ 0) :
    outAt m c t = k0_pay4 (k0_pay3 (tile m c t) (xblk m c t) (accB m c t h)) (sblk m c t) (bblk m c t) := by
  unfold outAt; rw [accA_step m c t h]

/-- The strip before point number `n`: every point (j, 0, k′) of the current column block that has run already has its tile in
    its columns. -/
def StripInv (c : Dev nD) (n : ℕ) (s : Vec F S1024x4096 .bf16) : Prop :=
  ∀ t' : Fin cfg0.N, t'.val / 64 = n / 64 → t'.val % 64 < 8 → t'.val < n → View.ld s (rK t') = tile m c t'

omit [FloatOps F] in
/-- Reading the strip through two rectangles of equal offsets is the same. -/
theorem ld_off_congr (s : Vec F S1024x4096 .bf16) (off off' : Fin 2 → ℕ) (inb : ∀ a, off a + S1024x512.size a ≤ S1024x4096.size a)
    (inb' : ∀ a, off' a + S1024x512.size a ≤ S1024x4096.size a) (h : off = off') :
    (View.ld s (Rect.unit (s := S1024x4096) off S1024x512.size inb) : Vec F S1024x512 .bf16)
      = View.ld s (Rect.unit (s := S1024x4096) off' S1024x512.size inb') := by subst h; rfl

/-- At a point with i ≥ 1 the columns it reads hold the tile of its own block of packed weights. -/
theorem strip_read (c : Dev nD) (t : Fin cfg0.N) (s : Vec F S1024x4096 .bf16) (hI : StripInv m c t.val s) (hB : ¬ IsI0 t) :
    View.ld s (rK t) = tile m c t := by
  have h64 : ¬ t.val % 64 < 8 := fun h => hB ((isI0_iff t).mpr h)
  have e := hI (fillPt t) (by show (64 * (t.val / 64) + t.val % 8) / 64 = t.val / 64; omega)
    (by show (64 * (t.val / 64) + t.val % 8) % 64 < 8; omega) (by show 64 * (t.val / 64) + t.val % 8 < t.val; omega)
  have hoff : k0_off2 (grid0.coords (fillPt t)) = k0_off2 (grid0.coords t) :=
    congrArg (fun r : Rect S1024x4096 => r.off) (rK_fillPt t)
  have e2 : (View.ld s (rK (fillPt t)) : Vec F S1024x512 .bf16) = View.ld s (rK t) := ld_off_congr s _ _ _ _ hoff
  rw [← e2, e]
  show k0_pay2 (iblk m c 1 (fillPt t) : Vec F S1024x256 .i32) = k0_pay2 (iblk m c 1 t : Vec F S1024x256 .i32)
  rw [wblk_fillPt]

/-- A fill keeps the invariant: the new tile is in place and the tiles of the other k′ are in other columns. -/
theorem strip_fill (c : Dev nD) (t : Fin cfg0.N) (s s' : Vec F S1024x4096 .bf16) (hI : StripInv m c t.val s) (hB : IsI0 t)
    (hS : StripStep t (tile m c t) s s') : StripInv m c (t.val + 1) s' := by
  intro t' hj hi hlt
  have h64 : t.val % 64 < 8 := (isI0_iff t).mp hB
  by_cases e : t' = t
  · subst e; exact hS.1
  · have hne : t'.val ≠ t.val := fun h => e (Fin.ext h)
    have hk : t.val % 8 ≠ t'.val % 8 := by omega
    have e' : View.ld s' (rK t') = View.ld s (rK t') := funext fun x => hS.2 _ (rK_disjoint t t' hk x)
    rw [e']
    exact hI t' (by omega) hi (by omega)

/-- A point that only reads the strip keeps the invariant (and a new column block starts with nothing asked). -/
theorem strip_keep (c : Dev nD) (t : Fin cfg0.N) (s : Vec F S1024x4096 .bf16) (hI : StripInv m c t.val s) (hB : ¬ IsI0 t) :
    StripInv m c (t.val + 1) s := by
  intro t' hj hi hlt
  have h64 : ¬ t.val % 64 < 8 := fun h => hB ((isI0_iff t).mpr h)
  exact hI t' (by omega) hi (by omega)

/-! ## The proof data -/

/-- The accumulator's part of the invariant before point `k` (k = 0 … 256). -/
def accPart (c : Dev nD) (k : Fin (cfg0.N + 1)) : sProp 𝕄 :=
  if h : k.val % 8 = 0 then iprop(∃ a, owns (c : Thread nD τ) accM fullShare a)
  else iprop(owns (c : Thread nD τ) accM fullShare (accA m c (k.val - 1) (by have := k.isLt; omega)))
/-- The invariant: the accumulator, the strip under `StripInv`, the generator register at anything. -/
def Φv (c : Dev nD) (k : Fin (cfg0.N + 1)) : sProp 𝕄 :=
  iprop(accPart m c k ∗ (∃ s, owns (c : Thread nD τ) stripM fullShare s ∗ ⌜StripInv m c k.val s⌝) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ k := Φv m c k
  q _ := fullShare
  owed _ := 0

abbrev 𝒱₀ : Variants := Variants.none

theorem before_0 (c : Dev nD) (t : Fin cfg0.N) (d) : (dats m 0 c).before 0 t d = iblk m c 0 t := before0_0_of m (dats m 0 c) rfl (fun _ => rfl) t d
theorem before_1 (c : Dev nD) (t : Fin cfg0.N) (d) : (dats m 0 c).before 1 t d = iblk m c 1 t := before0_1_of m (dats m 0 c) rfl (fun _ => rfl) t d
theorem before_2 (c : Dev nD) (t : Fin cfg0.N) (d) : (dats m 0 c).before 2 t d = iblk m c 2 t := before0_2_of m (dats m 0 c) rfl (fun _ => rfl) t d
theorem before_3 (c : Dev nD) (t : Fin cfg0.N) (d) : (dats m 0 c).before 3 t d = iblk m c 3 t := before0_3_of m (dats m 0 c) rfl (fun _ => rfl) t d
theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = outAt m c t := rfl

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-- The invariant before and after point `t`, by k. -/
theorem Φ_pre_k0 (c : Dev nD) (t : Fin cfg0.N) (h : t.val % 8 = 0) :
    (dats m 0 c).Φ t.castSucc = iprop((∃ a, owns (c : Thread nD τ) accM fullShare a)
      ∗ (∃ s, owns (c : Thread nD τ) stripM fullShare s ∗ ⌜StripInv m c t.val s⌝) ∗ ∃ r, prngReg c r) := by
  show Φv m c _ = _; unfold Φv accPart; rw [dif_pos (by exact h)]; rfl
theorem Φ_pre_kpos (c : Dev nD) (t : Fin cfg0.N) (h : t.val % 8 ≠ 0) :
    (dats m 0 c).Φ t.castSucc = iprop(owns (c : Thread nD τ) accM fullShare (accB m c t h)
      ∗ (∃ s, owns (c : Thread nD τ) stripM fullShare s ∗ ⌜StripInv m c t.val s⌝) ∗ ∃ r, prngReg c r) := by
  show Φv m c _ = _; unfold Φv accPart; rw [dif_neg (by exact h)]; rfl
theorem Φ_post_k7 (c : Dev nD) (t : Fin cfg0.N) (h : t.val % 8 = 7) :
    (dats m 0 c).Φ t.succ = iprop((∃ a, owns (c : Thread nD τ) accM fullShare a)
      ∗ (∃ s, owns (c : Thread nD τ) stripM fullShare s ∗ ⌜StripInv m c (t.val + 1) s⌝) ∗ ∃ r, prngReg c r) := by
  show Φv m c _ = _; unfold Φv accPart; rw [dif_pos (by show (t.val + 1) % 8 = 0; omega)]; rfl
theorem Φ_post_other (c : Dev nD) (t : Fin cfg0.N) (h : t.val % 8 ≠ 7) :
    (dats m 0 c).Φ t.succ = iprop(owns (c : Thread nD τ) accM fullShare (accA m c t.val t.isLt)
      ∗ (∃ s, owns (c : Thread nD τ) stripM fullShare s ∗ ⌜StripInv m c (t.val + 1) s⌝) ∗ ∃ r, prngReg c r) := by
  show Φv m c _ = _; unfold Φv accPart; rw [dif_neg (by show ¬ (t.val + 1) % 8 = 0; omega)]; rfl

/-- The body obligation at every point, by the point's kind: that kind's run between the invariant's two forms. -/
theorem body_obligation (c : Dev nD) : BodyObligation (dats (F := F) m 0 c) (defs₀ (F := F)) 𝒱₀ () Set.univ := fun t => by
  rw [bigSep_W0, bigSep_W0]
  unfold Dat.owesAt Pipeline.owesWithin
  rw [show (dats m 0 c).owed t.castSucc = 0 from rfl]
  by_cases hC : IsK7 t
  · have h7 : t.val % 8 = 7 := (isK7_iff t).mp hC
    have h8 : t.val % 8 ≠ 0 := by omega
    have hA : ¬ IsK0 t := fun h => h8 ((isK0_iff t).mp h)
    simp only [idle_in0, idle_in1, idle_in2, idle_in3, before_0, before_1, before_2, before_3, after_0, after_1, after_2, after_3, after_4, idle4_of_last t hC, flush4_of_last t hC]
    rw [Φ_pre_kpos m c t h8, Φ_post_k7 m c t h7, outAt_last m c t h8]
    by_cases hB : IsI0 t
    ·
      iintro ⟨⟨Ha, ⟨%s, Hs, %hI⟩, Hp⟩, ⟨%Wt, %hW, HO⟩, ⟨%d0, H0⟩, ⟨%d1, H1⟩, ⟨%d2, H2⟩, ⟨%d3, H3⟩, ⟨%d4, H4⟩⟩
      iapply (run_last_fill c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (xblk m c t) (tile m c t) (wblk m c t) (bblk m c t) (sblk m c t) (accB m c t h8) s hA hB hC rfl)
      isplitl [H0]; · iexact H0
      isplitl [H1]; · iexact H1
      isplitl [H2]; · iexact H2
      isplitl [H3]; · iexact H3
      isplitl [H4]; · iexists _; iexact H4
      isplitl [Ha]; · iexact Ha
      isplitl [Hs]; · iexact Hs
      iintro ⟨H0, H1, H2, H3, H4, Ha, ⟨%s', Hs, %hS⟩⟩
      isplitl [Ha Hs Hp]
      · isplitl [Ha]; · iexists _; iexact Ha
        isplitl [Hs]
        · iexists _; isplitl [Hs]; · iexact Hs
          ipureintro; exact strip_fill m c t s s' hI hB hS
        · iexact Hp
      isplitl [HO]; · iapply (owesAt_intro m c); iexact HO
      isplitl [H0]; · iexact H0
      isplitl [H1]; · iexact H1
      isplitl [H2]; · iexact H2
      isplitl [H3]; · iexact H3
      iexact H4
    ·
      iintro ⟨⟨Ha, ⟨%s, Hs, %hI⟩, Hp⟩, ⟨%Wt, %hW, HO⟩, ⟨%d0, H0⟩, ⟨%d1, H1⟩, ⟨%d2, H2⟩, ⟨%d3, H3⟩, ⟨%d4, H4⟩⟩
      iapply (run_last_read c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (xblk m c t) (tile m c t) (wblk m c t) (bblk m c t) (sblk m c t) (accB m c t h8) s hA hB hC (strip_read m c t s hI hB))
      isplitl [H0]; · iexact H0
      isplitl [H1]; · iexact H1
      isplitl [H2]; · iexact H2
      isplitl [H3]; · iexact H3
      isplitl [H4]; · iexists _; iexact H4
      isplitl [Ha]; · iexact Ha
      isplitl [Hs]; · iexact Hs
      iintro ⟨H0, H1, H2, H3, H4, Ha, Hs⟩
      isplitl [Ha Hs Hp]
      · isplitl [Ha]; · iexists _; iexact Ha
        isplitl [Hs]
        · iexists _; isplitl [Hs]; · iexact Hs
          ipureintro; exact strip_keep m c t s hI hB
        · iexact Hp
      isplitl [HO]; · iapply (owesAt_intro m c); iexact HO
      isplitl [H0]; · iexact H0
      isplitl [H1]; · iexact H1
      isplitl [H2]; · iexact H2
      isplitl [H3]; · iexact H3
      iexact H4
  · have h7 : t.val % 8 ≠ 7 := fun h => hC ((isK7_iff t).mpr h)
    simp only [idle_in0, idle_in1, idle_in2, idle_in3, before_0, before_1, before_2, before_3, after_0, after_1, after_2, after_3, after_4, idle4_of_not_last t hC, flush4_of_not_last t hC]
    by_cases hA : IsK0 t
    · have h8 : t.val % 8 = 0 := (isK0_iff t).mp hA
      rw [Φ_pre_k0 m c t h8, Φ_post_other m c t h7, accA_first m c t h8]
      by_cases hB : IsI0 t
      ·
        iintro ⟨⟨Ha, ⟨%s, Hs, %hI⟩, Hp⟩, ⟨%Wt, %hW, HO⟩, ⟨%d0, H0⟩, ⟨%d1, H1⟩, ⟨%d2, H2⟩, ⟨%d3, H3⟩, H4⟩
        iapply (run_first_fill c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (xblk m c t) (tile m c t) (wblk m c t) (bblk m c t) (sblk m c t) s hA hB hC rfl _)
        isplitl [H0]; · iexact H0
        isplitl [H1]; · iexact H1
        isplitl [H2]; · iexact H2
        isplitl [H3]; · iexact H3
        isplitl [H4]; · iexact H4
        isplitl [Ha]; · iexact Ha
        isplitl [Hs]; · iexact Hs
        iintro ⟨H0, H1, H2, H3, H4, Ha, ⟨%s', Hs, %hS⟩⟩
        isplitl [Ha Hs Hp]
        · isplitl [Ha]; · iexact Ha
          isplitl [Hs]
          · iexists _; isplitl [Hs]; · iexact Hs
            ipureintro; exact strip_fill m c t s s' hI hB hS
          · iexact Hp
        isplitl [HO]; · iapply (owesAt_intro m c); iexact HO
        isplitl [H0]; · iexact H0
        isplitl [H1]; · iexact H1
        isplitl [H2]; · iexact H2
        isplitl [H3]; · iexact H3
        iexact H4
      ·
        iintro ⟨⟨Ha, ⟨%s, Hs, %hI⟩, Hp⟩, ⟨%Wt, %hW, HO⟩, ⟨%d0, H0⟩, ⟨%d1, H1⟩, ⟨%d2, H2⟩, ⟨%d3, H3⟩, H4⟩
        iapply (run_first_read c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (xblk m c t) (tile m c t) (wblk m c t) (bblk m c t) (sblk m c t) s hA hB hC (strip_read m c t s hI hB) _)
        isplitl [H0]; · iexact H0
        isplitl [H1]; · iexact H1
        isplitl [H2]; · iexact H2
        isplitl [H3]; · iexact H3
        isplitl [H4]; · iexact H4
        isplitl [Ha]; · iexact Ha
        isplitl [Hs]; · iexact Hs
        iintro ⟨H0, H1, H2, H3, H4, Ha, Hs⟩
        isplitl [Ha Hs Hp]
        · isplitl [Ha]; · iexact Ha
          isplitl [Hs]
          · iexists _; isplitl [Hs]; · iexact Hs
            ipureintro; exact strip_keep m c t s hI hB
          · iexact Hp
        isplitl [HO]; · iapply (owesAt_intro m c); iexact HO
        isplitl [H0]; · iexact H0
        isplitl [H1]; · iexact H1
        isplitl [H2]; · iexact H2
        isplitl [H3]; · iexact H3
        iexact H4
    · have h8 : t.val % 8 ≠ 0 := fun h => hA ((isK0_iff t).mpr h)
      rw [Φ_pre_kpos m c t h8, Φ_post_other m c t h7, accA_step m c t h8]
      by_cases hB : IsI0 t
      ·
        iintro ⟨⟨Ha, ⟨%s, Hs, %hI⟩, Hp⟩, ⟨%Wt, %hW, HO⟩, ⟨%d0, H0⟩, ⟨%d1, H1⟩, ⟨%d2, H2⟩, ⟨%d3, H3⟩, H4⟩
        iapply (run_mid_fill c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (xblk m c t) (tile m c t) (wblk m c t) (bblk m c t) (sblk m c t) (accB m c t h8) s hA hB hC rfl _)
        isplitl [H0]; · iexact H0
        isplitl [H1]; · iexact H1
        isplitl [H2]; · iexact H2
        isplitl [H3]; · iexact H3
        isplitl [H4]; · iexact H4
        isplitl [Ha]; · iexact Ha
        isplitl [Hs]; · iexact Hs
        iintro ⟨H0, H1, H2, H3, H4, Ha, ⟨%s', Hs, %hS⟩⟩
        isplitl [Ha Hs Hp]
        · isplitl [Ha]; · iexact Ha
          isplitl [Hs]
          · iexists _; isplitl [Hs]; · iexact Hs
            ipureintro; exact strip_fill m c t s s' hI hB hS
          · iexact Hp
        isplitl [HO]; · iapply (owesAt_intro m c); iexact HO
        isplitl [H0]; · iexact H0
        isplitl [H1]; · iexact H1
        isplitl [H2]; · iexact H2
        isplitl [H3]; · iexact H3
        iexact H4
      ·
        iintro ⟨⟨Ha, ⟨%s, Hs, %hI⟩, Hp⟩, ⟨%Wt, %hW, HO⟩, ⟨%d0, H0⟩, ⟨%d1, H1⟩, ⟨%d2, H2⟩, ⟨%d3, H3⟩, H4⟩
        iapply (run_mid_read c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (xblk m c t) (tile m c t) (wblk m c t) (bblk m c t) (sblk m c t) (accB m c t h8) s hA hB hC (strip_read m c t s hI hB) _)
        isplitl [H0]; · iexact H0
        isplitl [H1]; · iexact H1
        isplitl [H2]; · iexact H2
        isplitl [H3]; · iexact H3
        isplitl [H4]; · iexact H4
        isplitl [Ha]; · iexact Ha
        isplitl [Hs]; · iexact Hs
        iintro ⟨H0, H1, H2, H3, H4, Ha, Hs⟩
        isplitl [Ha Hs Hp]
        · isplitl [Ha]; · iexact Ha
          isplitl [Hs]
          · iexists _; isplitl [Hs]; · iexact Hs
            ipureintro; exact strip_keep m c t s hI hB
          · iexact Hp
        isplitl [HO]; · iapply (owesAt_intro m c); iexact HO
        isplitl [H0]; · iexact H0
        isplitl [H1]; · iexact H1
        isplitl [H2]; · iexact H2
        isplitl [H3]; · iexact H3
        iexact H4

/-! ## The launch -/

theorem accPart_zero (c : Dev nD) : accPart m c 0 = iprop(∃ a, owns (c : Thread nD τ) accM fullShare a) := by
  unfold accPart; exact dif_pos (by decide)
theorem accPart_last (c : Dev nD) : accPart m c (Fin.last cfg0.N) = iprop(∃ a, owns (c : Thread nD τ) accM fullShare a) := by
  unfold accPart; exact dif_pos (by decide)

/-- What the launch hands the region — the two scratch buffers and the generator register at anything — is the invariant before the first point. -/
theorem hin (c : Dev nD) : (Pipeline.ΦA (U := UR sig nD τ) (Val := Elt F) spec0 c : sProp 𝕄) ⊢ (dats m 0 c).Φ 0 := by
  unfold Pipeline.ΦA
  rw [scopedRest0_eq, show (dats m 0 c).Φ 0 = Φv m c 0 from rfl]
  unfold Φv; rw [accPart_zero]
  iintro ⟨⟨⟨%fa, Hfa⟩, ⟨%fs, Hfs⟩⟩, Hp⟩
  isplitl [Hfa]
  · iexists fa; rw [owns_whole_eq]; iexists fa; isplitr; (· ipureintro; rfl); iexact Hfa
  isplitl [Hfs]
  · iexists fs; isplitl [Hfs]
    · rw [owns_whole_eq]; iexists fs; isplitr; (· ipureintro; rfl); iexact Hfs
    · ipureintro; intro t' _ _ h; exact absurd h (Nat.not_lt_zero _)
  · iexact Hp

/-- And the invariant after the last point gives them back. -/
theorem hout (c : Dev nD) : (dats m 0 c).Φ (Fin.last cfg0.N) ⊢ (Pipeline.ΦA (U := UR sig nD τ) (Val := Elt F) spec0 c : sProp 𝕄) := by
  unfold Pipeline.ΦA
  rw [scopedRest0_eq, show (dats m 0 c).Φ (Fin.last cfg0.N) = Φv m c (Fin.last cfg0.N) from rfl]
  unfold Φv; rw [accPart_last]; simp only [owns_whole_eq]
  iintro ⟨⟨%a, %fa, %hfa, Hfa⟩, ⟨%s, ⟨%fs, %hfs, Hfs⟩, %hI⟩, Hp⟩
  isplitl [Hfa Hfs]
  · isplitl [Hfa]; · iexists fa; iexact Hfa
    iexists fs; iexact Hfs
  · iexact Hp

/-- Every weakly fair execution of @main terminates without a fault; the region's arrays end at the library's account of
    the windows (an input as launched, the result at what the write-backs left) and every other buffer at what the host
    operations around the region make of the launch contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) 0 launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hin := hin m) (hout := hout m)

end Cert.Proof.KB

end
-- ==== Proof.KIBody.lean ====
/-
  The kernel body at a symbolic grid point (j, i, k) of the (4, 8, 8) grid, at any float instance.

  The body keeps two scratch buffers between points: an accumulator block and a strip of unpacked weights for the
  current column block j.  At a point it (1) zeroes the accumulator if k = 0; (2) if i = 0, unpacks the point's block
  of packed weights and stores it into columns 512k … 512k+511 of the strip; (3) reads those columns of the strip back
  (the tile `wt`), reads the activations' block and adds their product to the accumulator; (4) if k = 7, stores the
  accumulator, scaled and with the bias row added, into the output's block.  Six runs, by the kind of point: k first,
  middle or last, and the strip filled (i = 0) or only read.  In each the tile is named `wt`: where the strip is only
  read it is what the strip holds in those columns (`hw`), where it is filled it is the block just stored.
-/
import proofs.«419171_j38482906972513_3_alg».proof.Proof.Gen.KernelIdeal
import proofs.«419171_j38482906972513_3_alg».proof.Proof.Gen.KernelIdeal.Skeleton
import proofs.«419171_j38482906972513_3_alg».proof.Proof.Gen.KernelIdeal.Launch
import Idealize.ShloMosaic.Lib.Writes
import Idealize.ShloMosaic.Lib.Pipeline.FrameBody
import Idealize.ShloMosaic.Lib.Pipeline.Value
import Idealize.ShloMosaic.Lib.Tactic

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The accumulator and the weight strip: the kernel's two scratch buffers, whole. -/
abbrev accM : Memref sig .tc .vmem S1024x1024 .f32 := Memref.whole cc0_scratch0
abbrev stripM : Memref sig .tc .vmem S1024x4096 .bf16 := Memref.whole cc0_scratch1

/-- The three branch conditions at point `t`: k = 0 (as the body computes it), i = 0 and k = 7 (as the printer names them). -/
abbrev IsK0 (t : Fin cfg0.N) : Prop := Scalar.cmpi .ne (Scalar.extui (Scalar.cmpi .eq (BitVec.ofNat 32 ((grid0.coords t) 2).val) 0#32)) 0#32 = 1#1
abbrev IsI0 (t : Fin cfg0.N) : Prop := k0_cond2 (grid0.coords t) = 1#1
abbrev IsK7 (t : Fin cfg0.N) : Prop := k0_cond3 (grid0.coords t) = 1#1

/-- The whole-block rectangles the body's accesses go through, and the strip's columns 512k … 512k+511 at point `t`
    (as the load names them, `rK`, and as the store under i = 0 names them, `rK1`: the same columns). -/
abbrev rA : Rect S1024x1024 := Rect.unit (s := S1024x1024) ![0, 0] S1024x1024.size inb_S1024x1024_S1024x1024_0_0
abbrev rX : Rect S1024x512 := Rect.unit (s := S1024x512) ![0, 0] S1024x512.size inb_S1024x512_S1024x512_0_0
abbrev rW : Rect S1024x256 := Rect.unit (s := S1024x256) ![0, 0] S1024x256.size inb_S1024x256_S1024x256_0_0
abbrev rB : Rect S1x1024 := Rect.unit (s := S1x1024) ![0, 0] S1x1024.size inb_S1x1024_S1x1024_0_0
abbrev rS : Rect S1x1 := Rect.unit (s := S1x1) ![0, 0] S1x1.size inb_S1x1_S1x1_0_0
abbrev rK (t : Fin cfg0.N) : Rect S1024x4096 := Rect.unit (s := S1024x4096) (k0_off2 (grid0.coords t)) S1024x512.size (k0_off2_inb (grid0.coords t))
abbrev rK1 (t : Fin cfg0.N) (h : IsI0 t) : Rect S1024x4096 := Rect.unit (s := S1024x4096) (k0_off1 (grid0.coords t)) S1024x512.size (k0_off1_inb (grid0.coords t) h)

theorem hz2 : (![0, 0] : Fin 2 → Nat) = fun _ => 0 := by funext a; match a with | ⟨0, _⟩ => rfl | ⟨1, _⟩ => rfl

omit [FloatOps F] in
theorem coverA (L : List (View.Piece (Elt F) S1024x1024 .f32)) (p : Vec F S1024x1024 .f32) (y : S1024x1024.Idx) :
    ∃ pc ∈ ((⟨rA, p⟩ : View.Piece (Elt F) S1024x1024 .f32) :: L), y ∈ pc.1.set :=
  ⟨⟨rA, p⟩, List.mem_cons_self, View.mem_set_unit_zero hz2 inb_S1024x1024_S1024x1024_0_0 y⟩

/-- A load of the strip's columns right after the store that filled them reads the stored block. -/
theorem tileFill_eq (t : Fin cfg0.N) (h : IsI0 t) (p : Vec F S1024x512 .bf16) :
    (stripM.view.readCov [(⟨rK1 t h, p⟩ : View.Piece (Elt F) S1024x4096 .bf16)] (rK t).toLoadRect : Vec F S1024x512 .bf16) = p :=
  View.readCov_cons_toLoadRect stripM.view (rK t) p []

/-- What a fill leaves in the strip: the point's columns hold `wt`, every other entry is unchanged. -/
def StripStep (t : Fin cfg0.N) (wt : Vec F S1024x512 .bf16) (s s' : Vec F S1024x4096 .bf16) : Prop :=
  View.ld s' (rK t) = wt ∧ ∀ y, y ∉ (rK t).set → s' y = s y

section Runs

variable (c : Dev nD) (t : Fin cfg0.N)
  (M0 : Memref sig .tc .vmem S1024x512 .bf16) (h0 : M0.IsWhole) (M1 : Memref sig .tc .vmem S1024x256 .i32) (h1 : M1.IsWhole)
  (M2 : Memref sig .tc .vmem S1x1024 .f32) (h2 : M2.IsWhole) (M3 : Memref sig .tc .vmem S1x1 .f32) (h3 : M3.IsWhole)
  (M4 : Memref sig .tc .vmem S1024x1024 .f32) (h4 : M4.IsWhole)
  (x0 wt : Vec F S1024x512 .bf16) (w1 : Vec F S1024x256 .i32) (b2 : Vec F S1x1024 .f32) (s3 : Vec F S1x1 .f32) (a : Vec F S1024x1024 .f32)
  (s : Vec F S1024x4096 .bf16)

local notation "BODY" => cc0__matmul_kernel (grid0.coords t) M0 h0 M1 h1 M2 h2 M3 h3 M4 h4 (Memref.whole cc0_scratch0) (Memref.isWhole_whole _) (Memref.whole cc0_scratch1) (Memref.isWhole_whole _)

/-- A first step (k = 0): the accumulator, whatever it held, ends at the product over zero; the strip has the point's columns filled with the unpacked block. -/
theorem run_first_fill (hA : IsK0 t) (hB : IsI0 t) (hC : ¬ IsK7 t) (hw : k0_pay2 w1 = wt) (O : sProp 𝕄) (Q : PUnit → sProp 𝕄) :
    iprop(owns (c : Thread nD τ) M0 fullShare x0 ∗ owns (c : Thread nD τ) M1 fullShare w1 ∗ owns (c : Thread nD τ) M2 fullShare b2
      ∗ owns (c : Thread nD τ) M3 fullShare s3 ∗ O ∗ (∃ a, owns (c : Thread nD τ) accM fullShare a) ∗ owns (c : Thread nD τ) stripM fullShare s
      ∗ (iprop(owns (c : Thread nD τ) M0 fullShare x0 ∗ owns (c : Thread nD τ) M1 fullShare w1 ∗ owns (c : Thread nD τ) M2 fullShare b2
      ∗ owns (c : Thread nD τ) M3 fullShare s3 ∗ O ∗ owns (c : Thread nD τ) accM fullShare (k0_pay3 wt x0 k0_pay1) ∗ (∃ s', owns (c : Thread nD τ) stripM fullShare s' ∗ ⌜StripStep t wt s s'⌝)) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, HO, ⟨%a', %fa, %hfa, Ha⟩, ⟨%fs, %hfs, Hs⟩, Hk⟩
  subst hf0 hf1 hf2 hf3 hfs hw
  sl_exec! (disch := assumption)
  sl_step
  sl_unfold_run_names
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HO]; · iexact HO
  isplitl [Ha]
  · iexists _; isplitr; swap; (· iexact Ha); ipureintro
    rw [View.read_writes_eq_canon _ _ _ (coverA _ _), View.canon_cons_unit_zero hz2]
    simp only [tileFill_eq t hB, View.readAt_eq_ld, View.ld_unit_zero (S := S1024x512) hz2, View.ld_unit_zero (S := S1024x1024) hz2, View.ld_unit_zero (S := S1024x256) hz2, View.ld_unit_zero (S := S1x1) hz2, View.ld_unit_zero (S := S1x1024) hz2, View.readCov_unit_zero (S := S1024x1024) _ hz2]
  · iexists _; isplitl [Hs]
    · iexists _; isplitr; swap; (· iexact Hs); ipureintro; rfl
    · ipureintro
      simp only [View.readAt_eq_ld, View.ld_unit_zero (S := S1024x256) hz2]
      refine ⟨?_, ?_⟩
      · funext x; exact View.read_writes_cons_emb stripM.view fs (rK t) _ [] x
      · intro y hy
        exact View.read_writes_apply_of_forall_not_mem stripM.view fs y _ (by intro p hp; rw [List.mem_singleton] at hp; subst hp; exact hy)

/-- A first step (k = 0): the accumulator, whatever it held, ends at the product over zero; the strip is only read. -/
theorem run_first_read (hA : IsK0 t) (hB : ¬ IsI0 t) (hC : ¬ IsK7 t) (hw : View.ld s (rK t) = wt) (O : sProp 𝕄) (Q : PUnit → sProp 𝕄) :
    iprop(owns (c : Thread nD τ) M0 fullShare x0 ∗ owns (c : Thread nD τ) M1 fullShare w1 ∗ owns (c : Thread nD τ) M2 fullShare b2
      ∗ owns (c : Thread nD τ) M3 fullShare s3 ∗ O ∗ (∃ a, owns (c : Thread nD τ) accM fullShare a) ∗ owns (c : Thread nD τ) stripM fullShare s
      ∗ (iprop(owns (c : Thread nD τ) M0 fullShare x0 ∗ owns (c : Thread nD τ) M1 fullShare w1 ∗ owns (c : Thread nD τ) M2 fullShare b2
      ∗ owns (c : Thread nD τ) M3 fullShare s3 ∗ O ∗ owns (c : Thread nD τ) accM fullShare (k0_pay3 wt x0 k0_pay1) ∗ owns (c : Thread nD τ) stripM fullShare s) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, HO, ⟨%a', %fa, %hfa, Ha⟩, ⟨%fs, %hfs, Hs⟩, Hk⟩
  subst hf0 hf1 hf2 hf3 hfs hw
  sl_exec! (disch := assumption)
  sl_step
  sl_unfold_run_names
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HO]; · iexact HO
  isplitl [Ha]
  · iexists _; isplitr; swap; (· iexact Ha); ipureintro
    rw [View.read_writes_eq_canon _ _ _ (coverA _ _), View.canon_cons_unit_zero hz2]
    simp only [View.readAt_eq_ld, View.ld_unit_zero (S := S1024x512) hz2, View.ld_unit_zero (S := S1024x1024) hz2, View.ld_unit_zero (S := S1024x256) hz2, View.ld_unit_zero (S := S1x1) hz2, View.ld_unit_zero (S := S1x1024) hz2, View.readCov_unit_zero (S := S1024x1024) _ hz2]
  · iexists fs; isplitr; (· ipureintro; rfl); iexact Hs

/-- A middle step: the accumulator gains the product; the strip has the point's columns filled with the unpacked block. -/
theorem run_mid_fill (hA : ¬ IsK0 t) (hB : IsI0 t) (hC : ¬ IsK7 t) (hw : k0_pay2 w1 = wt) (O : sProp 𝕄) (Q : PUnit → sProp 𝕄) :
    iprop(owns (c : Thread nD τ) M0 fullShare x0 ∗ owns (c : Thread nD τ) M1 fullShare w1 ∗ owns (c : Thread nD τ) M2 fullShare b2
      ∗ owns (c : Thread nD τ) M3 fullShare s3 ∗ O ∗ owns (c : Thread nD τ) accM fullShare a ∗ owns (c : Thread nD τ) stripM fullShare s
      ∗ (iprop(owns (c : Thread nD τ) M0 fullShare x0 ∗ owns (c : Thread nD τ) M1 fullShare w1 ∗ owns (c : Thread nD τ) M2 fullShare b2
      ∗ owns (c : Thread nD τ) M3 fullShare s3 ∗ O ∗ owns (c : Thread nD τ) accM fullShare (k0_pay3 wt x0 a) ∗ (∃ s', owns (c : Thread nD τ) stripM fullShare s' ∗ ⌜StripStep t wt s s'⌝)) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, HO, ⟨%fa, %hfa, Ha⟩, ⟨%fs, %hfs, Hs⟩, Hk⟩
  subst hf0 hf1 hf2 hf3 hfa hfs hw
  sl_exec! (disch := assumption)
  sl_step
  sl_unfold_run_names
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HO]; · iexact HO
  isplitl [Ha]
  · iexists _; isplitr; swap; (· iexact Ha); ipureintro
    rw [View.read_writes_eq_canon _ _ _ (coverA _ _), View.canon_cons_unit_zero hz2]
    simp only [tileFill_eq t hB, View.readAt_eq_ld, View.ld_unit_zero (S := S1024x512) hz2, View.ld_unit_zero (S := S1024x1024) hz2, View.ld_unit_zero (S := S1024x256) hz2, View.ld_unit_zero (S := S1x1) hz2, View.ld_unit_zero (S := S1x1024) hz2, View.readCov_unit_zero (S := S1024x1024) _ hz2]
  · iexists _; isplitl [Hs]
    · iexists _; isplitr; swap; (· iexact Hs); ipureintro; rfl
    · ipureintro
      simp only [View.readAt_eq_ld, View.ld_unit_zero (S := S1024x256) hz2]
      refine ⟨?_, ?_⟩
      · funext x; exact View.read_writes_cons_emb stripM.view fs (rK t) _ [] x
      · intro y hy
        exact View.read_writes_apply_of_forall_not_mem stripM.view fs y _ (by intro p hp; rw [List.mem_singleton] at hp; subst hp; exact hy)

/-- A middle step: the accumulator gains the product; the strip is only read. -/
theorem run_mid_read (hA : ¬ IsK0 t) (hB : ¬ IsI0 t) (hC : ¬ IsK7 t) (hw : View.ld s (rK t) = wt) (O : sProp 𝕄) (Q : PUnit → sProp 𝕄) :
    iprop(owns (c : Thread nD τ) M0 fullShare x0 ∗ owns (c : Thread nD τ) M1 fullShare w1 ∗ owns (c : Thread nD τ) M2 fullShare b2
      ∗ owns (c : Thread nD τ) M3 fullShare s3 ∗ O ∗ owns (c : Thread nD τ) accM fullShare a ∗ owns (c : Thread nD τ) stripM fullShare s
      ∗ (iprop(owns (c : Thread nD τ) M0 fullShare x0 ∗ owns (c : Thread nD τ) M1 fullShare w1 ∗ owns (c : Thread nD τ) M2 fullShare b2
      ∗ owns (c : Thread nD τ) M3 fullShare s3 ∗ O ∗ owns (c : Thread nD τ) accM fullShare (k0_pay3 wt x0 a) ∗ owns (c : Thread nD τ) stripM fullShare s) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, HO, ⟨%fa, %hfa, Ha⟩, ⟨%fs, %hfs, Hs⟩, Hk⟩
  subst hf0 hf1 hf2 hf3 hfa hfs hw
  sl_exec! (disch := assumption)
  sl_step
  sl_unfold_run_names
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HO]; · iexact HO
  isplitl [Ha]
  · iexists _; isplitr; swap; (· iexact Ha); ipureintro
    rw [View.read_writes_eq_canon _ _ _ (coverA _ _), View.canon_cons_unit_zero hz2]
    simp only [View.readAt_eq_ld, View.ld_unit_zero (S := S1024x512) hz2, View.ld_unit_zero (S := S1024x1024) hz2, View.ld_unit_zero (S := S1024x256) hz2, View.ld_unit_zero (S := S1x1) hz2, View.ld_unit_zero (S := S1x1024) hz2, View.readCov_unit_zero (S := S1024x1024) _ hz2]
  · iexists fs; isplitr; (· ipureintro; rfl); iexact Hs

/-- A last step (k = 7): the accumulator gains the product and the output's buffer takes it scaled, plus the bias; the strip has the point's columns filled with the unpacked block. -/
theorem run_last_fill (hA : ¬ IsK0 t) (hB : IsI0 t) (hC : IsK7 t) (hw : k0_pay2 w1 = wt) (Q : PUnit → sProp 𝕄) :
    iprop(owns (c : Thread nD τ) M0 fullShare x0 ∗ owns (c : Thread nD τ) M1 fullShare w1 ∗ owns (c : Thread nD τ) M2 fullShare b2
      ∗ owns (c : Thread nD τ) M3 fullShare s3 ∗ (∃ d, owns (c : Thread nD τ) M4 fullShare d) ∗ owns (c : Thread nD τ) accM fullShare a ∗ owns (c : Thread nD τ) stripM fullShare s
      ∗ (iprop(owns (c : Thread nD τ) M0 fullShare x0 ∗ owns (c : Thread nD τ) M1 fullShare w1 ∗ owns (c : Thread nD τ) M2 fullShare b2
      ∗ owns (c : Thread nD τ) M3 fullShare s3 ∗ owns (c : Thread nD τ) M4 fullShare (k0_pay4 (k0_pay3 wt x0 a) s3 b2) ∗ owns (c : Thread nD τ) accM fullShare (k0_pay3 wt x0 a) ∗ (∃ s', owns (c : Thread nD τ) stripM fullShare s' ∗ ⌜StripStep t wt s s'⌝)) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, ⟨%d4, %f4, %hf4, H4⟩, ⟨%fa, %hfa, Ha⟩, ⟨%fs, %hfs, Hs⟩, Hk⟩
  subst hf0 hf1 hf2 hf3 hfa hfs hw
  sl_exec! (disch := assumption)
  sl_step
  sl_unfold_run_names
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]
  · iexists _; isplitr; swap; (· iexact H4); ipureintro
    rw [View.read_writes_eq_canon _ _ _ (coverA _ _), View.canon_cons_unit_zero hz2]
    simp only [tileFill_eq t hB, View.readAt_eq_ld, View.ld_unit_zero (S := S1024x512) hz2, View.ld_unit_zero (S := S1024x1024) hz2, View.ld_unit_zero (S := S1024x256) hz2, View.ld_unit_zero (S := S1x1) hz2, View.ld_unit_zero (S := S1x1024) hz2, View.readCov_unit_zero (S := S1024x1024) _ hz2]
  isplitl [Ha]
  · iexists _; isplitr; swap; (· iexact Ha); ipureintro
    rw [View.read_writes_eq_canon _ _ _ (coverA _ _), View.canon_cons_unit_zero hz2]
    simp only [tileFill_eq t hB, View.readAt_eq_ld, View.ld_unit_zero (S := S1024x512) hz2, View.ld_unit_zero (S := S1024x1024) hz2, View.ld_unit_zero (S := S1024x256) hz2, View.ld_unit_zero (S := S1x1) hz2, View.ld_unit_zero (S := S1x1024) hz2, View.readCov_unit_zero (S := S1024x1024) _ hz2]
  · iexists _; isplitl [Hs]
    · iexists _; isplitr; swap; (· iexact Hs); ipureintro; rfl
    · ipureintro
      simp only [View.readAt_eq_ld, View.ld_unit_zero (S := S1024x256) hz2]
      refine ⟨?_, ?_⟩
      · funext x; exact View.read_writes_cons_emb stripM.view fs (rK t) _ [] x
      · intro y hy
        exact View.read_writes_apply_of_forall_not_mem stripM.view fs y _ (by intro p hp; rw [List.mem_singleton] at hp; subst hp; exact hy)

/-- A last step (k = 7): the accumulator gains the product and the output's buffer takes it scaled, plus the bias; the strip is only read. -/
theorem run_last_read (hA : ¬ IsK0 t) (hB : ¬ IsI0 t) (hC : IsK7 t) (hw : View.ld s (rK t) = wt) (Q : PUnit → sProp 𝕄) :
    iprop(owns (c : Thread nD τ) M0 fullShare x0 ∗ owns (c : Thread nD τ) M1 fullShare w1 ∗ owns (c : Thread nD τ) M2 fullShare b2
      ∗ owns (c : Thread nD τ) M3 fullShare s3 ∗ (∃ d, owns (c : Thread nD τ) M4 fullShare d) ∗ owns (c : Thread nD τ) accM fullShare a ∗ owns (c : Thread nD τ) stripM fullShare s
      ∗ (iprop(owns (c : Thread nD τ) M0 fullShare x0 ∗ owns (c : Thread nD τ) M1 fullShare w1 ∗ owns (c : Thread nD τ) M2 fullShare b2
      ∗ owns (c : Thread nD τ) M3 fullShare s3 ∗ owns (c : Thread nD τ) M4 fullShare (k0_pay4 (k0_pay3 wt x0 a) s3 b2) ∗ owns (c : Thread nD τ) accM fullShare (k0_pay3 wt x0 a) ∗ owns (c : Thread nD τ) stripM fullShare s) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, ⟨%d4, %f4, %hf4, H4⟩, ⟨%fa, %hfa, Ha⟩, ⟨%fs, %hfs, Hs⟩, Hk⟩
  subst hf0 hf1 hf2 hf3 hfa hfs hw
  sl_exec! (disch := assumption)
  sl_step
  sl_unfold_run_names
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]
  · iexists _; isplitr; swap; (· iexact H4); ipureintro
    rw [View.read_writes_eq_canon _ _ _ (coverA _ _), View.canon_cons_unit_zero hz2]
    simp only [View.readAt_eq_ld, View.ld_unit_zero (S := S1024x512) hz2, View.ld_unit_zero (S := S1024x1024) hz2, View.ld_unit_zero (S := S1024x256) hz2, View.ld_unit_zero (S := S1x1) hz2, View.ld_unit_zero (S := S1x1024) hz2, View.readCov_unit_zero (S := S1024x1024) _ hz2]
  isplitl [Ha]
  · iexists _; isplitr; swap; (· iexact Ha); ipureintro
    rw [View.read_writes_eq_canon _ _ _ (coverA _ _), View.canon_cons_unit_zero hz2]
    simp only [View.readAt_eq_ld, View.ld_unit_zero (S := S1024x512) hz2, View.ld_unit_zero (S := S1024x1024) hz2, View.ld_unit_zero (S := S1024x256) hz2, View.ld_unit_zero (S := S1x1) hz2, View.ld_unit_zero (S := S1x1024) hz2, View.readCov_unit_zero (S := S1024x1024) _ hz2]
  · iexists fs; isplitr; (· ipureintro; rfl); iexact Hs

end Runs

end Cert.Proof.KI

end
-- ==== Proof.KIGrid.lean ====
/-
  The grid's 256 points t = 64·j + 8·i + k (k fastest) and what depends on them: which branches the body takes at a
  point, the strip's columns 512k … 512k+511 a point addresses, and the point (j, 0, k) that fills those columns for
  the column block j.
-/
import proofs.«419171_j38482906972513_3_alg».proof.Proof.KIBody
import proofs.«419171_j38482906972513_3_alg».proof.Proof.Gen.KernelIdeal.Points
import proofs.«419171_j38482906972513_3_alg».proof.Proof.Gen.KernelIdeal.Frame
import Idealize.ShloMosaic.Lib.ValueIdx

noncomputable section

namespace Cert.Proof.KI

open Cert.KernelIdeal Cert.KernelIdeal.Gen
open Idealize.ShloMosaic Idealize.ShloMosaic.TcCoe Idealize.ShloMosaic.ValueIdx
open Idealize.SL Idealize.SL.Sem

variable {F : FTy → Type} [FloatOps F]

theorem N_256 : cfg0.N = 256 := N_0

/-- k = 0, i = 0 and k = 7 in terms of the point's number. -/
theorem isK0_iff : ∀ t : Fin cfg0.N, IsK0 t ↔ t.val % 8 = 0 :=
  (by decide +kernel : ∀ t : Fin grid0.N,
    Scalar.cmpi .ne (Scalar.extui (Scalar.cmpi .eq (BitVec.ofNat 32 ((grid0.coords t) 2).val) 0#32)) 0#32 = 1#1 ↔ t.val % 8 = 0)
theorem isI0_iff : ∀ t : Fin cfg0.N, IsI0 t ↔ t.val % 64 < 8 :=
  (by decide +kernel : ∀ t : Fin grid0.N, k0_cond2 (grid0.coords t) = 1#1 ↔ t.val % 64 < 8)
theorem isK7_iff : ∀ t : Fin cfg0.N, IsK7 t ↔ t.val % 8 = 7 :=
  (by decide +kernel : ∀ t : Fin grid0.N, k0_cond3 (grid0.coords t) = 1#1 ↔ t.val % 8 = 7)

/-- The point (j, 0, k) of `t = (j, i, k)`: where the strip's columns for k are filled for the column block j. -/
def fillPt (t : Fin cfg0.N) : Fin cfg0.N := ⟨64 * (t.val / 64) + t.val % 8, by have := t.isLt; have := N_256; omega⟩

/-- The last coordinate of point `t` is `t mod 8` (k runs fastest). -/
private theorem coord2 : ∀ t : Fin cfg0.N, ((grid0.coords t) 2).val = t.val % 8 :=
  (by decide +kernel : ∀ t : Fin grid0.N, ((grid0.coords t) 2).val = t.val % 8)

/-- The strip's columns at point `t` start at `512 · (t mod 8)`. -/
private theorem off2_closed (t : Fin cfg0.N) : k0_off2 (grid0.coords t) = ![0, 512 * (t.val % 8)] := by
  rw [k0_off2_eq, coord2 t]

/-- The point (j, 0, k) has the same k. -/
private theorem fillPt_mod8 (t : Fin cfg0.N) : (fillPt t).val % 8 = t.val % 8 := by
  show (64 * (t.val / 64) + t.val % 8) % 8 = t.val % 8
  omega

/-- A unit-stride rectangle is determined by its offsets and sizes. -/
private theorem unit_congr {s : Shape} {off off' size : Fin s.rank → Nat} (h : off = off')
    (inb : ∀ a, off a + size a ≤ s.size a) (inb' : ∀ a, off' a + size a ≤ s.size a) :
    Rect.unit off size inb = Rect.unit off' size inb' := by
  subst h; rfl

/-- It addresses the same columns of the strip … -/
theorem rK_fillPt (t : Fin cfg0.N) : rK (fillPt t) = rK t :=
  unit_congr (by rw [off2_closed, off2_closed, fillPt_mod8]) _ _

/-- The weights' block index, (j, k), is the same at (j, 0, k) as at (j, i, k). -/
private theorem win1_index_fillPt : ∀ t : Fin cfg0.N,
    win0_1.index (fillPt t) (0 : Fin 2) = win0_1.index t (0 : Fin 2) ∧ win0_1.index (fillPt t) (1 : Fin 2) = win0_1.index t (1 : Fin 2) :=
  (by decide +kernel : ∀ t : Fin grid0.N,
    win0_1.index (fillPt t) (0 : Fin 2) = win0_1.index t (0 : Fin 2) ∧ win0_1.index (fillPt t) (1 : Fin 2) = win0_1.index t (1 : Fin 2))

/-- … and is handed the same block of packed weights (the weights' index map reads j and k only). -/
theorem wblk_fillPt (m : (ℓ : Loc nD τ sig) → Buf (Elt F) ℓ) (c : Dev nD) (t : Fin cfg0.N) :
    (iblk m c 1 (fillPt t) : Vec F S1024x256 .i32) = iblk m c 1 t := by
  funext y
  -- The block index of the weights' window is (j, k) at both points, so an element of the block sits at the same
  -- place of the array.
  have he : ((cfg0.win 1).blk (fillPt t)).view.emb y = ((cfg0.win 1).blk t).view.emb y := by
    funext a; apply Fin.ext
    obtain ⟨i0, i1⟩ := win1_index_fillPt t
    match a with
    | ⟨0, _⟩ =>
      show win0_1.index (fillPt t) (0 : Fin 2) * 1024 + 1 * (y 0).val = win0_1.index t (0 : Fin 2) * 1024 + 1 * (y 0).val
      rw [i0]
    | ⟨1, _⟩ =>
      show win0_1.index (fillPt t) (1 : Fin 2) * 256 + 1 * (y 1).val = win0_1.index t (1 : Fin 2) * 256 + 1 * (y 1).val
      rw [i1]
  show ((cfg0.win 1).blk (fillPt t)).view.read (Elt F) (V m c (Pipeline.arrRef spec0 1)) y
    = ((cfg0.win 1).blk t).view.read (Elt F) (V m c (Pipeline.arrRef spec0 1)) y
  rw [View.read_apply, View.read_apply, he]

/-- Points of different k address disjoint columns of the strip. -/
theorem rK_disjoint (t t' : Fin cfg0.N) (h : t.val % 8 ≠ t'.val % 8) (x : S1024x512.Idx) : (rK t').idx x ∉ (rK t).set := by
  -- On the column axis the element sits at 512·k' + x₁ with x₁ < 512, outside 512·k … 512·k + 511 when k ≠ k'.
  intro hmem
  have h1 := (Rect.mem_set_unit.mp hmem) 1
  have hx : (x 1).val < 512 := (x 1).isLt
  have hv : (((rK t').idx x) 1 : Nat) = k0_off2 (grid0.coords t') 1 + 1 * (x 1).val := rfl
  rw [hv, off2_closed t, off2_closed t'] at h1
  have h1' : 512 * (t.val % 8) ≤ 512 * (t'.val % 8) + 1 * (x 1).val
      ∧ 512 * (t'.val % 8) + 1 * (x 1).val < 512 * (t.val % 8) + 512 := h1
  omega

end Cert.Proof.KI

end
-- ==== Proof.KIRun.lean ====
/-
  The pipeline's proof data for the kernel's one region, the body obligation at every grid point and the launch, at any
  float instance.

  Between points the body keeps an accumulator block and a strip of unpacked weights.  The invariant before point
  t = 64·j + 8·i + k: the accumulator holds anything when k = 0 and otherwise what point t − 1 left (`accA`, by recursion
  on the point: the block products of the activations' blocks and the unpacked weight tiles added up since the last
  reset); the strip holds, for every point (j, 0, k′) of the current column block that has already run, that point's
  unpacked tile in columns 512k′ … (`StripInv`) — so at a point with i ≥ 1 the columns it reads hold the tile of its
  own block of packed weights, which is the block the point (j, 0, k) was handed (`strip_read`).  The output's staging
  buffer is idle except at k = 7, where it takes the epilogue's block (`outAt`).
-/
import proofs.«419171_j38482906972513_3_alg».proof.Proof.KIBody
import proofs.«419171_j38482906972513_3_alg».proof.Proof.KIGrid
import proofs.«419171_j38482906972513_3_alg».proof.Proof.Gen.KernelIdeal.Frame
import proofs.«419171_j38482906972513_3_alg».proof.Proof.Gen.KernelIdeal.Points
import Idealize.ShloMosaic.Lib.Pipeline.FrameSuffix

set_option maxRecDepth 16384

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## Which windows are idle or written back at a point -/

theorem idle_in0 (t : Fin cfg0.N) : idle0 0 (grid0.coords t) = false := rfl
theorem idle_in1 (t : Fin cfg0.N) : idle0 1 (grid0.coords t) = false := rfl
theorem idle_in2 (t : Fin cfg0.N) : idle0 2 (grid0.coords t) = false := rfl
theorem idle_in3 (t : Fin cfg0.N) : idle0 3 (grid0.coords t) = false := rfl
theorem idle4_of_last (t : Fin cfg0.N) (h : IsK7 t) : idle0 4 (grid0.coords t) = false := by
  show (!(k0_cond3 (grid0.coords t) == 1#1)) = false; rw [show (k0_cond3 (grid0.coords t) == 1#1) = true from beq_iff_eq.mpr h]; rfl
theorem idle4_of_not_last (t : Fin cfg0.N) (h : ¬ IsK7 t) : idle0 4 (grid0.coords t) = true := by
  show (!(k0_cond3 (grid0.coords t) == 1#1)) = true; rw [show (k0_cond3 (grid0.coords t) == 1#1) = false from beq_eq_false_iff_ne.mpr h]; rfl
theorem flush4_of_last (t : Fin cfg0.N) (h : IsK7 t) : (cfg0.win 4).flush t = true := (flush0_4 t).mpr ((isK7_iff t).mp h)
theorem flush4_of_not_last (t : Fin cfg0.N) (h : ¬ IsK7 t) : (cfg0.win 4).flush t = false :=
  Bool.eq_false_iff.mpr fun hf => h ((isK7_iff t).mpr ((flush0_4 t).mp hf))

variable (m : (ℓ : Loc nD τ sig) → Buf (Elt F) ℓ) (ρ : Dev nD → PrngReg)

/-! ## The blocks a point is handed, and what the scratch buffers hold -/

abbrev xblk (c : Dev nD) (t : Fin cfg0.N) : Vec F S1024x512 .bf16 := iblk m c 0 t
abbrev wblk (c : Dev nD) (t : Fin cfg0.N) : Vec F S1024x256 .i32 := iblk m c 1 t
abbrev bblk (c : Dev nD) (t : Fin cfg0.N) : Vec F S1x1024 .f32 := iblk m c 2 t
abbrev sblk (c : Dev nD) (t : Fin cfg0.N) : Vec F S1x1 .f32 := iblk m c 3 t
/-- The unpacked weight tile of point `t`'s block of packed weights. -/
abbrev tile (c : Dev nD) (t : Fin cfg0.N) : Vec F S1024x512 .bf16 := k0_pay2 (wblk m c t)

/-- The accumulator after point `k`: the point's block product added to zero at k ≡ 0 (mod 8), else to what the point before left. -/
def accA (c : Dev nD) : (k : ℕ) → k < cfg0.N → Vec F S1024x1024 .f32
  | 0, hk => k0_pay3 (tile m c ⟨0, hk⟩) (xblk m c ⟨0, hk⟩) k0_pay1
  | k + 1, hk => if (k + 1) % 8 = 0 then k0_pay3 (tile m c ⟨k + 1, hk⟩) (xblk m c ⟨k + 1, hk⟩) k0_pay1
      else k0_pay3 (tile m c ⟨k + 1, hk⟩) (xblk m c ⟨k + 1, hk⟩) (accA c k (Nat.lt_of_succ_lt hk))

theorem accA_first (c : Dev nD) (t : Fin cfg0.N) (h : t.val % 8 = 0) :
    accA m c t.val t.isLt = k0_pay3 (tile m c t) (xblk m c t) k0_pay1 := by
  obtain ⟨k, hk⟩ := t
  cases k with
  | zero => rfl
  | succ k => show (if (k + 1) % 8 = 0 then _ else _) = _; rw [if_pos h]

/-- The accumulator BEFORE a point with k ≠ 0: what the point before left. -/
abbrev accB (c : Dev nD) (t : Fin cfg0.N) (h : t.val % 8 ≠ 0) : Vec F S1024x1024 .f32 :=
  accA m c (t.val - 1) (by have := t.isLt; omega)

theorem accA_step (c : Dev nD) (t : Fin cfg0.N) (h : t.val % 8 ≠ 0) :
    accA m c t.val t.isLt = k0_pay3 (tile m c t) (xblk m c t) (accB m c t h) := by
  obtain ⟨k, hk⟩ := t
  cases k with
  | zero => exact absurd rfl h
  | succ k => show (if (k + 1) % 8 = 0 then _ else _) = _; rw [if_neg h]; rfl

/-- The block a point leaves in the output's staging buffer (read only at k = 7): the accumulator scaled, plus the bias row. -/
def outAt (c : Dev nD) (t : Fin cfg0.N) : Vec F S1024x1024 .f32 := k0_pay4 (accA m c t.val t.isLt) (sblk m c t) (bblk m c t)

theorem outAt_last (c : Dev nD) (t : Fin cfg0.N) (h : t.val % 8 ≠ 0) :
    outAt m c t = k0_pay4 (k0_pay3 (tile m c t) (xblk m c t) (accB m c t h)) (sblk m c t) (bblk m c t) := by
  unfold outAt; rw [accA_step m c t h]

/-- The strip before point number `n`: every point (j, 0, k′) of the current column block that has run already has its tile in
    its columns. -/
def StripInv (c : Dev nD) (n : ℕ) (s : Vec F S1024x4096 .bf16) : Prop :=
  ∀ t' : Fin cfg0.N, t'.val / 64 = n / 64 → t'.val % 64 < 8 → t'.val < n → View.ld s (rK t') = tile m c t'

omit [FloatOps F] in
/-- Reading the strip through two rectangles of equal offsets is the same. -/
theorem ld_off_congr (s : Vec F S1024x4096 .bf16) (off off' : Fin 2 → ℕ) (inb : ∀ a, off a + S1024x512.size a ≤ S1024x4096.size a)
    (inb' : ∀ a, off' a + S1024x512.size a ≤ S1024x4096.size a) (h : off = off') :
    (View.ld s (Rect.unit (s := S1024x4096) off S1024x512.size inb) : Vec F S1024x512 .bf16)
      = View.ld s (Rect.unit (s := S1024x4096) off' S1024x512.size inb') := by subst h; rfl

/-- At a point with i ≥ 1 the columns it reads hold the tile of its own block of packed weights. -/
theorem strip_read (c : Dev nD) (t : Fin cfg0.N) (s : Vec F S1024x4096 .bf16) (hI : StripInv m c t.val s) (hB : ¬ IsI0 t) :
    View.ld s (rK t) = tile m c t := by
  have h64 : ¬ t.val % 64 < 8 := fun h => hB ((isI0_iff t).mpr h)
  have e := hI (fillPt t) (by show (64 * (t.val / 64) + t.val % 8) / 64 = t.val / 64; omega)
    (by show (64 * (t.val / 64) + t.val % 8) % 64 < 8; omega) (by show 64 * (t.val / 64) + t.val % 8 < t.val; omega)
  have hoff : k0_off2 (grid0.coords (fillPt t)) = k0_off2 (grid0.coords t) :=
    congrArg (fun r : Rect S1024x4096 => r.off) (rK_fillPt t)
  have e2 : (View.ld s (rK (fillPt t)) : Vec F S1024x512 .bf16) = View.ld s (rK t) := ld_off_congr s _ _ _ _ hoff
  rw [← e2, e]
  show k0_pay2 (iblk m c 1 (fillPt t) : Vec F S1024x256 .i32) = k0_pay2 (iblk m c 1 t : Vec F S1024x256 .i32)
  rw [wblk_fillPt]

/-- A fill keeps the invariant: the new tile is in place and the tiles of the other k′ are in other columns. -/
theorem strip_fill (c : Dev nD) (t : Fin cfg0.N) (s s' : Vec F S1024x4096 .bf16) (hI : StripInv m c t.val s) (hB : IsI0 t)
    (hS : StripStep t (tile m c t) s s') : StripInv m c (t.val + 1) s' := by
  intro t' hj hi hlt
  have h64 : t.val % 64 < 8 := (isI0_iff t).mp hB
  by_cases e : t' = t
  · subst e; exact hS.1
  · have hne : t'.val ≠ t.val := fun h => e (Fin.ext h)
    have hk : t.val % 8 ≠ t'.val % 8 := by omega
    have e' : View.ld s' (rK t') = View.ld s (rK t') := funext fun x => hS.2 _ (rK_disjoint t t' hk x)
    rw [e']
    exact hI t' (by omega) hi (by omega)

/-- A point that only reads the strip keeps the invariant (and a new column block starts with nothing asked). -/
theorem strip_keep (c : Dev nD) (t : Fin cfg0.N) (s : Vec F S1024x4096 .bf16) (hI : StripInv m c t.val s) (hB : ¬ IsI0 t) :
    StripInv m c (t.val + 1) s := by
  intro t' hj hi hlt
  have h64 : ¬ t.val % 64 < 8 := fun h => hB ((isI0_iff t).mpr h)
  exact hI t' (by omega) hi (by omega)

/-! ## The proof data -/

/-- The accumulator's part of the invariant before point `k` (k = 0 … 256). -/
def accPart (c : Dev nD) (k : Fin (cfg0.N + 1)) : sProp 𝕄 :=
  if h : k.val % 8 = 0 then iprop(∃ a, owns (c : Thread nD τ) accM fullShare a)
  else iprop(owns (c : Thread nD τ) accM fullShare (accA m c (k.val - 1) (by have := k.isLt; omega)))
/-- The invariant: the accumulator, the strip under `StripInv`, the generator register at anything. -/
def Φv (c : Dev nD) (k : Fin (cfg0.N + 1)) : sProp 𝕄 :=
  iprop(accPart m c k ∗ (∃ s, owns (c : Thread nD τ) stripM fullShare s ∗ ⌜StripInv m c k.val s⌝) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ k := Φv m c k
  q _ := fullShare
  owed _ := 0

abbrev 𝒱₀ : Variants := Variants.none

theorem before_0 (c : Dev nD) (t : Fin cfg0.N) (d) : (dats m 0 c).before 0 t d = iblk m c 0 t := before0_0_of m (dats m 0 c) rfl (fun _ => rfl) t d
theorem before_1 (c : Dev nD) (t : Fin cfg0.N) (d) : (dats m 0 c).before 1 t d = iblk m c 1 t := before0_1_of m (dats m 0 c) rfl (fun _ => rfl) t d
theorem before_2 (c : Dev nD) (t : Fin cfg0.N) (d) : (dats m 0 c).before 2 t d = iblk m c 2 t := before0_2_of m (dats m 0 c) rfl (fun _ => rfl) t d
theorem before_3 (c : Dev nD) (t : Fin cfg0.N) (d) : (dats m 0 c).before 3 t d = iblk m c 3 t := before0_3_of m (dats m 0 c) rfl (fun _ => rfl) t d
theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = outAt m c t := rfl

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-- The invariant before and after point `t`, by k. -/
theorem Φ_pre_k0 (c : Dev nD) (t : Fin cfg0.N) (h : t.val % 8 = 0) :
    (dats m 0 c).Φ t.castSucc = iprop((∃ a, owns (c : Thread nD τ) accM fullShare a)
      ∗ (∃ s, owns (c : Thread nD τ) stripM fullShare s ∗ ⌜StripInv m c t.val s⌝) ∗ ∃ r, prngReg c r) := by
  show Φv m c _ = _; unfold Φv accPart; rw [dif_pos (by exact h)]; rfl
theorem Φ_pre_kpos (c : Dev nD) (t : Fin cfg0.N) (h : t.val % 8 ≠ 0) :
    (dats m 0 c).Φ t.castSucc = iprop(owns (c : Thread nD τ) accM fullShare (accB m c t h)
      ∗ (∃ s, owns (c : Thread nD τ) stripM fullShare s ∗ ⌜StripInv m c t.val s⌝) ∗ ∃ r, prngReg c r) := by
  show Φv m c _ = _; unfold Φv accPart; rw [dif_neg (by exact h)]; rfl
theorem Φ_post_k7 (c : Dev nD) (t : Fin cfg0.N) (h : t.val % 8 = 7) :
    (dats m 0 c).Φ t.succ = iprop((∃ a, owns (c : Thread nD τ) accM fullShare a)
      ∗ (∃ s, owns (c : Thread nD τ) stripM fullShare s ∗ ⌜StripInv m c (t.val + 1) s⌝) ∗ ∃ r, prngReg c r) := by
  show Φv m c _ = _; unfold Φv accPart; rw [dif_pos (by show (t.val + 1) % 8 = 0; omega)]; rfl
theorem Φ_post_other (c : Dev nD) (t : Fin cfg0.N) (h : t.val % 8 ≠ 7) :
    (dats m 0 c).Φ t.succ = iprop(owns (c : Thread nD τ) accM fullShare (accA m c t.val t.isLt)
      ∗ (∃ s, owns (c : Thread nD τ) stripM fullShare s ∗ ⌜StripInv m c (t.val + 1) s⌝) ∗ ∃ r, prngReg c r) := by
  show Φv m c _ = _; unfold Φv accPart; rw [dif_neg (by show ¬ (t.val + 1) % 8 = 0; omega)]; rfl

/-- The body obligation at every point, by the point's kind: that kind's run between the invariant's two forms. -/
theorem body_obligation (c : Dev nD) : BodyObligation (dats (F := F) m 0 c) (defs₀ (F := F)) 𝒱₀ () Set.univ := fun t => by
  rw [bigSep_W0, bigSep_W0]
  unfold Dat.owesAt Pipeline.owesWithin
  rw [show (dats m 0 c).owed t.castSucc = 0 from rfl]
  by_cases hC : IsK7 t
  · have h7 : t.val % 8 = 7 := (isK7_iff t).mp hC
    have h8 : t.val % 8 ≠ 0 := by omega
    have hA : ¬ IsK0 t := fun h => h8 ((isK0_iff t).mp h)
    simp only [idle_in0, idle_in1, idle_in2, idle_in3, before_0, before_1, before_2, before_3, after_0, after_1, after_2, after_3, after_4, idle4_of_last t hC, flush4_of_last t hC]
    rw [Φ_pre_kpos m c t h8, Φ_post_k7 m c t h7, outAt_last m c t h8]
    by_cases hB : IsI0 t
    ·
      iintro ⟨⟨Ha, ⟨%s, Hs, %hI⟩, Hp⟩, ⟨%Wt, %hW, HO⟩, ⟨%d0, H0⟩, ⟨%d1, H1⟩, ⟨%d2, H2⟩, ⟨%d3, H3⟩, ⟨%d4, H4⟩⟩
      iapply (run_last_fill c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (xblk m c t) (tile m c t) (wblk m c t) (bblk m c t) (sblk m c t) (accB m c t h8) s hA hB hC rfl)
      isplitl [H0]; · iexact H0
      isplitl [H1]; · iexact H1
      isplitl [H2]; · iexact H2
      isplitl [H3]; · iexact H3
      isplitl [H4]; · iexists _; iexact H4
      isplitl [Ha]; · iexact Ha
      isplitl [Hs]; · iexact Hs
      iintro ⟨H0, H1, H2, H3, H4, Ha, ⟨%s', Hs, %hS⟩⟩
      isplitl [Ha Hs Hp]
      · isplitl [Ha]; · iexists _; iexact Ha
        isplitl [Hs]
        · iexists _; isplitl [Hs]; · iexact Hs
          ipureintro; exact strip_fill m c t s s' hI hB hS
        · iexact Hp
      isplitl [HO]; · iapply (owesAt_intro m c); iexact HO
      isplitl [H0]; · iexact H0
      isplitl [H1]; · iexact H1
      isplitl [H2]; · iexact H2
      isplitl [H3]; · iexact H3
      iexact H4
    ·
      iintro ⟨⟨Ha, ⟨%s, Hs, %hI⟩, Hp⟩, ⟨%Wt, %hW, HO⟩, ⟨%d0, H0⟩, ⟨%d1, H1⟩, ⟨%d2, H2⟩, ⟨%d3, H3⟩, ⟨%d4, H4⟩⟩
      iapply (run_last_read c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (xblk m c t) (tile m c t) (wblk m c t) (bblk m c t) (sblk m c t) (accB m c t h8) s hA hB hC (strip_read m c t s hI hB))
      isplitl [H0]; · iexact H0
      isplitl [H1]; · iexact H1
      isplitl [H2]; · iexact H2
      isplitl [H3]; · iexact H3
      isplitl [H4]; · iexists _; iexact H4
      isplitl [Ha]; · iexact Ha
      isplitl [Hs]; · iexact Hs
      iintro ⟨H0, H1, H2, H3, H4, Ha, Hs⟩
      isplitl [Ha Hs Hp]
      · isplitl [Ha]; · iexists _; iexact Ha
        isplitl [Hs]
        · iexists _; isplitl [Hs]; · iexact Hs
          ipureintro; exact strip_keep m c t s hI hB
        · iexact Hp
      isplitl [HO]; · iapply (owesAt_intro m c); iexact HO
      isplitl [H0]; · iexact H0
      isplitl [H1]; · iexact H1
      isplitl [H2]; · iexact H2
      isplitl [H3]; · iexact H3
      iexact H4
  · have h7 : t.val % 8 ≠ 7 := fun h => hC ((isK7_iff t).mpr h)
    simp only [idle_in0, idle_in1, idle_in2, idle_in3, before_0, before_1, before_2, before_3, after_0, after_1, after_2, after_3, after_4, idle4_of_not_last t hC, flush4_of_not_last t hC]
    by_cases hA : IsK0 t
    · have h8 : t.val % 8 = 0 := (isK0_iff t).mp hA
      rw [Φ_pre_k0 m c t h8, Φ_post_other m c t h7, accA_first m c t h8]
      by_cases hB : IsI0 t
      ·
        iintro ⟨⟨Ha, ⟨%s, Hs, %hI⟩, Hp⟩, ⟨%Wt, %hW, HO⟩, ⟨%d0, H0⟩, ⟨%d1, H1⟩, ⟨%d2, H2⟩, ⟨%d3, H3⟩, H4⟩
        iapply (run_first_fill c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (xblk m c t) (tile m c t) (wblk m c t) (bblk m c t) (sblk m c t) s hA hB hC rfl _)
        isplitl [H0]; · iexact H0
        isplitl [H1]; · iexact H1
        isplitl [H2]; · iexact H2
        isplitl [H3]; · iexact H3
        isplitl [H4]; · iexact H4
        isplitl [Ha]; · iexact Ha
        isplitl [Hs]; · iexact Hs
        iintro ⟨H0, H1, H2, H3, H4, Ha, ⟨%s', Hs, %hS⟩⟩
        isplitl [Ha Hs Hp]
        · isplitl [Ha]; · iexact Ha
          isplitl [Hs]
          · iexists _; isplitl [Hs]; · iexact Hs
            ipureintro; exact strip_fill m c t s s' hI hB hS
          · iexact Hp
        isplitl [HO]; · iapply (owesAt_intro m c); iexact HO
        isplitl [H0]; · iexact H0
        isplitl [H1]; · iexact H1
        isplitl [H2]; · iexact H2
        isplitl [H3]; · iexact H3
        iexact H4
      ·
        iintro ⟨⟨Ha, ⟨%s, Hs, %hI⟩, Hp⟩, ⟨%Wt, %hW, HO⟩, ⟨%d0, H0⟩, ⟨%d1, H1⟩, ⟨%d2, H2⟩, ⟨%d3, H3⟩, H4⟩
        iapply (run_first_read c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (xblk m c t) (tile m c t) (wblk m c t) (bblk m c t) (sblk m c t) s hA hB hC (strip_read m c t s hI hB) _)
        isplitl [H0]; · iexact H0
        isplitl [H1]; · iexact H1
        isplitl [H2]; · iexact H2
        isplitl [H3]; · iexact H3
        isplitl [H4]; · iexact H4
        isplitl [Ha]; · iexact Ha
        isplitl [Hs]; · iexact Hs
        iintro ⟨H0, H1, H2, H3, H4, Ha, Hs⟩
        isplitl [Ha Hs Hp]
        · isplitl [Ha]; · iexact Ha
          isplitl [Hs]
          · iexists _; isplitl [Hs]; · iexact Hs
            ipureintro; exact strip_keep m c t s hI hB
          · iexact Hp
        isplitl [HO]; · iapply (owesAt_intro m c); iexact HO
        isplitl [H0]; · iexact H0
        isplitl [H1]; · iexact H1
        isplitl [H2]; · iexact H2
        isplitl [H3]; · iexact H3
        iexact H4
    · have h8 : t.val % 8 ≠ 0 := fun h => hA ((isK0_iff t).mpr h)
      rw [Φ_pre_kpos m c t h8, Φ_post_other m c t h7, accA_step m c t h8]
      by_cases hB : IsI0 t
      ·
        iintro ⟨⟨Ha, ⟨%s, Hs, %hI⟩, Hp⟩, ⟨%Wt, %hW, HO⟩, ⟨%d0, H0⟩, ⟨%d1, H1⟩, ⟨%d2, H2⟩, ⟨%d3, H3⟩, H4⟩
        iapply (run_mid_fill c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (xblk m c t) (tile m c t) (wblk m c t) (bblk m c t) (sblk m c t) (accB m c t h8) s hA hB hC rfl _)
        isplitl [H0]; · iexact H0
        isplitl [H1]; · iexact H1
        isplitl [H2]; · iexact H2
        isplitl [H3]; · iexact H3
        isplitl [H4]; · iexact H4
        isplitl [Ha]; · iexact Ha
        isplitl [Hs]; · iexact Hs
        iintro ⟨H0, H1, H2, H3, H4, Ha, ⟨%s', Hs, %hS⟩⟩
        isplitl [Ha Hs Hp]
        · isplitl [Ha]; · iexact Ha
          isplitl [Hs]
          · iexists _; isplitl [Hs]; · iexact Hs
            ipureintro; exact strip_fill m c t s s' hI hB hS
          · iexact Hp
        isplitl [HO]; · iapply (owesAt_intro m c); iexact HO
        isplitl [H0]; · iexact H0
        isplitl [H1]; · iexact H1
        isplitl [H2]; · iexact H2
        isplitl [H3]; · iexact H3
        iexact H4
      ·
        iintro ⟨⟨Ha, ⟨%s, Hs, %hI⟩, Hp⟩, ⟨%Wt, %hW, HO⟩, ⟨%d0, H0⟩, ⟨%d1, H1⟩, ⟨%d2, H2⟩, ⟨%d3, H3⟩, H4⟩
        iapply (run_mid_read c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (xblk m c t) (tile m c t) (wblk m c t) (bblk m c t) (sblk m c t) (accB m c t h8) s hA hB hC (strip_read m c t s hI hB) _)
        isplitl [H0]; · iexact H0
        isplitl [H1]; · iexact H1
        isplitl [H2]; · iexact H2
        isplitl [H3]; · iexact H3
        isplitl [H4]; · iexact H4
        isplitl [Ha]; · iexact Ha
        isplitl [Hs]; · iexact Hs
        iintro ⟨H0, H1, H2, H3, H4, Ha, Hs⟩
        isplitl [Ha Hs Hp]
        · isplitl [Ha]; · iexact Ha
          isplitl [Hs]
          · iexists _; isplitl [Hs]; · iexact Hs
            ipureintro; exact strip_keep m c t s hI hB
          · iexact Hp
        isplitl [HO]; · iapply (owesAt_intro m c); iexact HO
        isplitl [H0]; · iexact H0
        isplitl [H1]; · iexact H1
        isplitl [H2]; · iexact H2
        isplitl [H3]; · iexact H3
        iexact H4

/-! ## The launch -/

theorem accPart_zero (c : Dev nD) : accPart m c 0 = iprop(∃ a, owns (c : Thread nD τ) accM fullShare a) := by
  unfold accPart; exact dif_pos (by decide)
theorem accPart_last (c : Dev nD) : accPart m c (Fin.last cfg0.N) = iprop(∃ a, owns (c : Thread nD τ) accM fullShare a) := by
  unfold accPart; exact dif_pos (by decide)

/-- What the launch hands the region — the two scratch buffers and the generator register at anything — is the invariant before the first point. -/
theorem hin (c : Dev nD) : (Pipeline.ΦA (U := UR sig nD τ) (Val := Elt F) spec0 c : sProp 𝕄) ⊢ (dats m 0 c).Φ 0 := by
  unfold Pipeline.ΦA
  rw [scopedRest0_eq, show (dats m 0 c).Φ 0 = Φv m c 0 from rfl]
  unfold Φv; rw [accPart_zero]
  iintro ⟨⟨⟨%fa, Hfa⟩, ⟨%fs, Hfs⟩⟩, Hp⟩
  isplitl [Hfa]
  · iexists fa; rw [owns_whole_eq]; iexists fa; isplitr; (· ipureintro; rfl); iexact Hfa
  isplitl [Hfs]
  · iexists fs; isplitl [Hfs]
    · rw [owns_whole_eq]; iexists fs; isplitr; (· ipureintro; rfl); iexact Hfs
    · ipureintro; intro t' _ _ h; exact absurd h (Nat.not_lt_zero _)
  · iexact Hp

/-- And the invariant after the last point gives them back. -/
theorem hout (c : Dev nD) : (dats m 0 c).Φ (Fin.last cfg0.N) ⊢ (Pipeline.ΦA (U := UR sig nD τ) (Val := Elt F) spec0 c : sProp 𝕄) := by
  unfold Pipeline.ΦA
  rw [scopedRest0_eq, show (dats m 0 c).Φ (Fin.last cfg0.N) = Φv m c (Fin.last cfg0.N) from rfl]
  unfold Φv; rw [accPart_last]; simp only [owns_whole_eq]
  iintro ⟨⟨%a, %fa, %hfa, Hfa⟩, ⟨%s, ⟨%fs, %hfs, Hfs⟩, %hI⟩, Hp⟩
  isplitl [Hfa Hfs]
  · isplitl [Hfa]; · iexists fa; iexact Hfa
    iexists fs; iexact Hfs
  · iexact Hp

/-- Every weakly fair execution of @main terminates without a fault; the region's arrays end at the library's account of
    the windows (an input as launched, the result at what the write-backs left) and every other buffer at what the host
    operations around the region make of the launch contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) 0 launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hin := hin m) (hout := hout m)

end Cert.Proof.KI

end
-- ==== Proof.Spec.lean ====
/-
  The linear layer both programs compute, as one function of the argument arrays, and the quantities it is built from.

  A weight is stored as a 4-bit code `q` in a 32-bit word; its value is the integer `q` less the zero point 8.  With `N`
  the flat vector of codes (row `o` of the weight matrix occupies positions `4096·o … 4096·o + 4095`), `B` the bias vector
  and `sw` the weight scale, the layer's output at `(b, s, o)` is

      ∑ₖ x(b, s, k) · (sw · (N(4096·o + k) − 8))  +  B(o).

  The kernel forms the same sum in eight blocks of 512 terms, scales the total by `sw` afterwards and then adds the bias
  (`blockSum` below); over finite reals the two agree by distributivity.
-/
import Idealize.ShloMosaic.PureOps.Ideal
import Idealize.ShloMosaic.Lib.ValueIdx

noncomputable section

open scoped BigOperators

namespace Cert.Spec

open Idealize.ShloMosaic Idealize.ShloMosaic.ValueIdx

/-- The activations' shape, the flat code vector's, the bias vector's, a scalar's. -/
abbrev SX : Shape := ⟨3, ![4, 2048, 4096]⟩
abbrev SN : Shape := ⟨1, ![16777216]⟩
abbrev SB : Shape := ⟨1, ![4096]⟩
abbrev SS : Shape := ⟨0, ![]⟩

/-- A 4-bit code as a weight value: the word read as a signed integer, less the zero point (the programs' literal 8.0). -/
def deq (q : BitVec 32) : EReal := ((q.toInt : ℝ) : EReal) - Ideal.ofBits .f32 0x41000000#32

/-- Position `4096·o + k` of the flat code vector. -/
abbrev flat (o k : Fin 4096) : SN.Idx := ix1 ⟨4096 * o.val + k.val, by have := o.isLt; have := k.isLt; omega⟩

/-- The layer's output at `(b, s, o)`. -/
def Gat (x : SX.Idx → EReal) (N : SN.Idx → BitVec 32) (B : SB.Idx → EReal) (sw : SS.Idx → EReal)
    (b : Fin 4) (s : Fin 2048) (o : Fin 4096) : EReal :=
  (∑ k : Fin 4096, x (ix3 b s k) * (sw ix0 * deq (N (flat o k)))) + B (ix1 o)

/-- The layer as a function of the output index. -/
def G (x : SX.Idx → EReal) (N : SN.Idx → BitVec 32) (B : SB.Idx → EReal) (sw : SS.Idx → EReal) : SX.Idx → EReal :=
  fun j => Gat x N B sw (j 0) (j 1) (j 2)

/-- The kernel's running sum after block `n` of the contraction (blocks of 512 terms), for one output entry: the row of
    activations `x` and the row of weights `w` as functions of the position `0 … 4095` (any value beyond). It starts from
    zero and adds one block's sum of products per step. -/
def blockSum (x w : ℕ → EReal) : ℕ → EReal
  | 0 => 0 + ∑ kk : Fin 512, x kk.val * w kk.val
  | n + 1 => blockSum x w n + ∑ kk : Fin 512, x (512 * (n + 1) + kk.val) * w (512 * (n + 1) + kk.val)

end Cert.Spec

end
-- ==== Proof.Payloads.lean ====
/-
  The kernel body's four stored values, read at an index, at the exact instance: the zero block; a block of weights
  unpacked from bytes (columns 0 … 255 the high nibbles, 256 … 511 the low ones, each less the zero point); the
  accumulator plus one block's product `x · wᵀ`; the scaled accumulator plus the bias row.
-/
import proofs.«419171_j38482906972513_3_alg».proof.Proof.Gen.KernelIdeal.Skeleton
import proofs.«419171_j38482906972513_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Proof.KI

open Cert.KernelIdeal Cert.KernelIdeal.Gen Idealize.ShloMosaic Idealize.ShloMosaic.ValueIdx

/-- The zero block. -/
theorem pay1_apply (j : S1024x1024.Idx) : (k0_pay1 (F := Ideal)) j = 0 := by
  unfold k0_pay1
  rw [shapeCast_self]
  show Ideal.ofBits .f32 0x00000000#32 = 0
  exact Ideal.ofBits_zero_f32

/-- Two `[1024, 256]` pieces laid side by side along the columns, read at `(r, kk)`: the first piece at column `kk` when
    `kk < 256`, the second at column `kk - 256` otherwise. -/
private theorem cat_apply {α : Type} (A B : S1024x256.Idx → α) (r : Fin 1024) (kk : Fin 512) :
    concatenate S1024x512 1 [⟨S1024x256, A⟩, ⟨S1024x256, B⟩] concatenates_S1024x256_S1024x256_S1024x512_d1 (ix2 r kk)
      = if h : kk.val < 256 then A (ix2 r ⟨kk.val, h⟩) else B (ix2 r ⟨kk.val - 256, by have := kk.isLt; omega⟩) := by
  split
  · next h =>
    refine concatenate_apply_piece (1 : Fin S1024x512.rank) _ _ (ix2 r kk) 0 (by show 0 < 2; omega) S1024x256 A rfl rfl 0 rfl
      (ix2 r ⟨kk.val, h⟩) (fun b hb => ?_) ?_
    · match b with
      | ⟨0, _⟩ => rfl
      | ⟨1, _⟩ => exact absurd rfl hb
    · show 0 + kk.val = kk.val
      omega
  · next h =>
    refine concatenate_apply_piece (1 : Fin S1024x512.rank) _ _ (ix2 r kk) 1 (by show 1 < 2; omega) S1024x256 B rfl rfl 256 rfl
      (ix2 r ⟨kk.val - 256, by have := kk.isLt; omega⟩) (fun b hb => ?_) ?_
    · match b with
      | ⟨0, _⟩ => rfl
      | ⟨1, _⟩ => exact absurd rfl hb
    · show 256 + (kk.val - 256) = kk.val
      omega

/-- The unpacked weight block at row `r`, column `kk`: the code in the high nibble of byte `kk` for `kk < 256`, in the low
    nibble of byte `kk - 256` otherwise, less the zero point. -/
theorem pay2_apply (v21 : Vec Ideal S1024x256 .i32) (r : Fin 1024) (kk : Fin 512) :
    k0_pay2 (F := Ideal) v21 (ix2 r kk)
      = Cert.Spec.deq (if h : kk.val < 256 then IntOp.andi (IntOp.shrsi .vector (v21 (ix2 r ⟨kk.val, h⟩)) 4#32) 15#32
          else IntOp.andi (v21 (ix2 r ⟨kk.val - 256, by have := kk.isLt; omega⟩)) 15#32) := by
  unfold k0_pay2
  rw [shapeCast_self, shapeCast_self]
  show ((((concatenate S1024x512 1 [⟨S1024x256, _⟩, ⟨S1024x256, _⟩] concatenates_S1024x256_S1024x256_S1024x512_d1
      (ix2 r kk) : BitVec 32).toInt : ℝ) : EReal)) - Ideal.ofBits .f32 0x41000000#32 = _
  unfold Cert.Spec.deq
  exact congrArg (fun q : BitVec 32 => ((q.toInt : ℝ) : EReal) - Ideal.ofBits .f32 0x41000000#32) (cat_apply _ _ r kk)

/-- The block product's left operand is read at the output's row … -/
private theorem mm_lhs_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
/-- … and at the contraction index along its columns; -/
private theorem mm_lhs_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
/-- the right operand at the output's column, as ITS row … -/
private theorem mm_rhs_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
/-- … and at the contraction index along its columns. -/
private theorem mm_rhs_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The accumulator plus the block product: entry `(r, c)` gains `∑ₖ x(r, k) · w(c, k)`. -/
theorem pay3_apply (v9 v10 : Vec Ideal S1024x512 .bf16) (v12 : Vec Ideal S1024x1024 .f32) (r c : Fin 1024) :
    k0_pay3 (F := Ideal) v9 v10 v12 (ix2 r c) = v12 (ix2 r c) + ∑ kk : Fin 512, v10 (ix2 r kk) * v9 (ix2 c kk) := by
  unfold k0_pay3
  rw [shapeCast_self, shapeCast_self, addf_apply]
  congr 1
  show FloatOps.matmul dot_S1024x512_S1024x512_S1024x1024_1_1_0_0_n_n none v10 v9 (constant (F := Ideal) S1024x1024 .f32 0x00000000#32) (ix2 r c) = _
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 r c) ((contrEquiv1 dot_S1024x512_S1024x512_S1024x1024_1_1_0_0_n_n 512 rfl rfl).symm k) = ix2 r k := funext fun a => Fin.ext (by
    match a with
    | ⟨0, _⟩ => exact mm_lhs_0 _ _
    | ⟨1, _⟩ => exact (mm_lhs_1 _ _).trans hk)
  have er : dot_S1024x512_S1024x512_S1024x1024_1_1_0_0_n_n.rhsIdx (ix2 r c) ((contrEquiv1 dot_S1024x512_S1024x512_S1024x1024_1_1_0_0_n_n 512 rfl rfl).symm k) = ix2 c k := funext fun a => Fin.ext (by
    match a with
    | ⟨0, _⟩ => exact mm_rhs_0 _ _
    | ⟨1, _⟩ => exact (mm_rhs_1 _ _).trans hk)
  rw [el, er]

/-- A `[1, 1]` array broadcast to `[1024, 1024]` reads its one entry everywhere. -/
private theorem bcast_one_apply {α : Type} (v : S1x1.Idx → α) (h : S1x1.Broadcasts S1024x1024) (r c : Fin 1024) :
    broadcastTo S1024x1024 v h (ix2 r c) = v (ix2 0 0) := by
  refine broadcastTo_apply v h (ix2 r c) (ix2 (0 : Fin 1) (0 : Fin 1)) fun ax => ?_
  match ax with
  | ⟨0, _⟩ => rfl
  | ⟨1, _⟩ => rfl

/-- The epilogue: the accumulator scaled by the one scale entry, plus the bias row's entry of the column. -/
theorem pay4_apply (v21 : Vec Ideal S1024x1024 .f32) (v22 : Vec Ideal S1x1 .f32) (v26 : Vec Ideal S1x1024 .f32) (r c : Fin 1024) :
    k0_pay4 (F := Ideal) v21 v22 v26 (ix2 r c) = v21 (ix2 r c) * v22 (ix2 0 0) + v26 (ix2 0 c) := by
  unfold k0_pay4
  rw [shapeCast_self, shapeCast_self, addf_apply, mulf_apply, bcast_one_apply, broadcastTo_1b_ab_apply]

end Cert.Proof.KI

end
-- ==== Proof.HostPre.lean ====
/-
  What the kernel program's host operations leave in the four arrays its call reads, read at an index, and what the
  one host operation after the call reads.

  The activations are the argument reshaped from [4, 2048, 4096] to [8192, 4096] (the rounding to the narrower float
  type is the identity on extended reals).  The weights arrive as 8388608 words of two 4-bit codes each; the program
  unpacks them to the flat vector `Nk` of 16777216 codes (high nibble first), views that as [4096, 8, 512] and
  re-packs columns `c` and `256 + c` of every block of 512 into one word: high nibble the former, low nibble the latter.
  The bias row is the 4096 unpacked bias codes less the zero point 8, times the bias scale (`Bk`).  The weight scale is
  the scalar argument as a [1, 1] array.  After the call, the [8192, 4096] result is viewed as [4, 2048, 4096].
-/
import proofs.«419171_j38482906972513_3_alg».proof.Proof.Gen.KernelIdeal.Frame
import proofs.«419171_j38482906972513_3_alg».proof.Proof.Spec
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.Proof.KI

open Cert.KernelIdeal Cert.KernelIdeal.Gen Idealize.ShloMosaic Idealize.ShloMosaic.TcCoe Idealize.SL.Sem
open Idealize.ShloMosaic.ValueIdx

/-- The flat vector of 4-bit weight codes the program unpacks from the packed words: word `i` gives position `2 i` its
    bits 4 … 7 (shifted down, masked) and position `2 i + 1` its bits 0 … 3. -/
def Nk (pw : S8388608.Idx → BitVec 32) : S16777216.Idx → BitVec 32 :=
  shapeCast S16777216
    (concatenate S8388608x2 1
      [⟨S8388608x1, broadcastInDim S8388608x1 ![0] bcast_S8388608_S8388608x1_0
          (andi (Host.shrsi pw (broadcastInDim S8388608 ![] bcast_S_S8388608 (constantI S_ 32 4#32)))
            (broadcastInDim S8388608 ![] bcast_S_S8388608 (constantI S_ 32 15#32)))⟩,
       ⟨S8388608x1, broadcastInDim S8388608x1 ![0] bcast_S8388608_S8388608x1_0
          (andi pw (broadcastInDim S8388608 ![] bcast_S_S8388608 (constantI S_ 32 15#32)))⟩]
      concatenates_S8388608x1_S8388608x1_S8388608x2_d1)
    shapeCasts_S8388608x2_S16777216

/-- The bias vector the program hands its call: the 4096 bias codes unpacked the same way, as numbers, less the zero
    point 8, times the bias scale. -/
def Bk (pb : S2048.Idx → BitVec 32) (sb : S_.Idx → EReal) : S4096.Idx → EReal :=
  mulf (F := Ideal) (φ := .f32) (broadcastInDim S4096 ![] bcast_S_S4096 sb)
    (subf (F := Ideal) (φ := .f32)
      (sitofp (F := Ideal) .f32
        (shapeCast S4096
          (concatenate S2048x2 1
            [⟨S2048x1, broadcastInDim S2048x1 ![0] bcast_S2048_S2048x1_0
                (andi (Host.shrsi pb (broadcastInDim S2048 ![] bcast_S_S2048 (constantI S_ 32 4#32)))
                  (broadcastInDim S2048 ![] bcast_S_S2048 (constantI S_ 32 15#32)))⟩,
             ⟨S2048x1, broadcastInDim S2048x1 ![0] bcast_S2048_S2048x1_0
                (andi pb (broadcastInDim S2048 ![] bcast_S_S2048 (constantI S_ 32 15#32)))⟩]
            concatenates_S2048x1_S2048x1_S2048x2_d1)
          shapeCasts_S2048x2_S4096))
      (broadcastInDim S4096 ![] bcast_S_S4096 (constant (F := Ideal) S_ .f32 0x41000000#32)))

variable (m : (ℓ : Loc nD τ sig) → Buf (Elt Ideal) ℓ)

/-! ## Reshapes and the unpacking, read at an index -/

/-- The flat vector viewed as [4096, 4096] and then as [4096, 8, 512]: entry `(o, kb, x)` is flat position
    `4096·o + 512·kb + x`. -/
private theorem blocks_apply {α : Type} (N : S16777216.Idx → α) (o : Fin 4096) (kb : Fin 8) (x : Fin 512) (q : Fin 4096)
    (hq : q.val = 512 * kb.val + x.val) :
    shapeCast S4096x8x512 (shapeCast S4096x4096 N shapeCasts_S16777216_S4096x4096) shapeCasts_S4096x4096_S4096x8x512
        (ix3 o kb x) = N (Cert.Spec.flat o q) := by
  refine (shapeCast_apply _ _ (ix3 o kb x) (ix2 o q) (by
    rw [Shape.rowMajor_val_two, Shape.rowMajor_val_three]
    show o.val * 4096 + q.val = (o.val * 8 + kb.val) * 512 + x.val
    omega)).trans ?_
  exact shapeCast_apply _ _ (ix2 o q) (Cert.Spec.flat o q) (by
    rw [Shape.rowMajor_val_one, Shape.rowMajor_val_two]
    show 4096 * o.val + q.val = o.val * 4096 + q.val
    omega)

/-- Two columns of 8388608 entries laid side by side and read row by row: position `n` is entry `n / 2` of the first
    column when `n` is even, of the second when `n` is odd. -/
private theorem interleave_apply {α : Type} (A B : S8388608x1.Idx → α) (n : S16777216.Idx) (i : Fin 8388608) (r : Fin 2)
    (hn : (n 0).val = 2 * i.val + r.val) :
    shapeCast S16777216
        (concatenate S8388608x2 1 [⟨S8388608x1, A⟩, ⟨S8388608x1, B⟩] concatenates_S8388608x1_S8388608x1_S8388608x2_d1)
        shapeCasts_S8388608x2_S16777216 n
      = if r.val = 0 then A (ix2 i 0) else B (ix2 i 0) := by
  refine (shapeCast_apply _ _ n (ix2 i r) (by
    rw [Shape.rowMajor_val_two, Shape.rowMajor_val_one]
    show i.val * 2 + r.val = (n 0).val
    omega)).trans ?_
  have hr := r.isLt
  split
  · next h =>
    exact concatenate_apply_piece (1 : Fin S8388608x2.rank) _ _ (ix2 i r) 0 (by show 0 < 2; decide) S8388608x1 A rfl rfl 0 rfl
      (ix2 i 0) (fun b hb => match b with
        | ⟨0, _⟩ => rfl
        | ⟨1, _⟩ => absurd rfl hb) (by show 0 + 0 = r.val; omega)
  · next h =>
    exact concatenate_apply_piece (1 : Fin S8388608x2.rank) _ _ (ix2 i r) 1 (by show 1 < 2; decide) S8388608x1 B rfl rfl 1 rfl
      (ix2 i 0) (fun b hb => match b with
        | ⟨0, _⟩ => rfl
        | ⟨1, _⟩ => absurd rfl hb) (by show 1 + 0 = r.val; omega)

/-- Every unpacked weight code is a word masked to its low four bits. -/
theorem Nk_masked (pw : S8388608.Idx → BitVec 32) (n : S16777216.Idx) : ∃ t : BitVec 32, Nk pw n = t &&& 15#32 := by
  have hlt : (n 0).val < 16777216 := (n 0).isLt
  unfold Nk
  rw [interleave_apply _ _ n ⟨(n 0).val / 2, by omega⟩ ⟨(n 0).val % 2, by omega⟩ (by
    show (n 0).val = 2 * ((n 0).val / 2) + (n 0).val % 2; omega)]
  split
  · exact ⟨_, rfl⟩
  · exact ⟨_, rfl⟩

/-! ## The arrays the call reads -/

/-- The activations the call reads: row `p` of the [8192, 4096] view is row `p % 2048` of batch `p / 2048`. -/
theorem V_x (c : Dev nD) (p : Fin 8192) (k : Fin 4096) :
    (V m c main_v1 : S8192x4096.Idx → EReal) (ix2 p k)
      = (m ((c : Thread nD τ).loc main_arg0) : S4x2048x4096.Idx → EReal)
          (ix3 ⟨p.val / 2048, by have := p.isLt; omega⟩ ⟨p.val % 2048, by omega⟩ k) := by
  have e : (V m c main_v1 : S8192x4096.Idx → EReal)
      = truncf (F := Ideal) .bf16
          (shapeCast S8192x4096 (m ((c : Thread nD τ).loc main_arg0) : S4x2048x4096.Idx → EReal)
            shapeCasts_S4x2048x4096_S8192x4096) bitsLt_bf16_f32 := by
    show StableHlo.after hostOps0 (fun b => m (c, b)) (Proc.devRef .tc main_v1) = _
    after_results
    rfl
  rw [e, truncf_apply]
  exact shapeCast_apply _ _ (ix2 p k) (ix3 ⟨p.val / 2048, by have := p.isLt; omega⟩ ⟨p.val % 2048, by omega⟩ k) (by
    rw [Shape.rowMajor_val_three, Shape.rowMajor_val_two]
    show (p.val / 2048 * 2048 + p.val % 2048) * 4096 + k.val = p.val * 4096 + k.val
    omega)

/-- The packed weights the call reads: in row `o`, word `256·kb + cc` holds code `512·kb + cc` of that row in its
    bits 4 … 7 and code `512·kb + 256 + cc` in its bits 0 … 3. -/
theorem V_w (c : Dev nD) (o : Fin 4096) (kb : Fin 8) (cc : Fin 256) :
    (V m c main_v19 : S4096x2048.Idx → BitVec 32)
        (ix2 o ⟨256 * kb.val + cc.val, by have := kb.isLt; have := cc.isLt; omega⟩)
      = IntOp.ori
          (IntOp.shli .host
            (Nk (m ((c : Thread nD τ).loc main_arg1))
              (Cert.Spec.flat o ⟨512 * kb.val + cc.val, by have := kb.isLt; have := cc.isLt; omega⟩)) 4#32)
          (Nk (m ((c : Thread nD τ).loc main_arg1))
            (Cert.Spec.flat o ⟨512 * kb.val + 256 + cc.val, by have := kb.isLt; have := cc.isLt; omega⟩)) := by
  have hkb := kb.isLt
  have hcc := cc.isLt
  have e : (V m c main_v19 : S4096x2048.Idx → BitVec 32)
      = shapeCast S4096x2048
          (ori
            (Host.shli
              (extractStridedSlice S4096x8x256 ![0, 0, 0]
                (shapeCast S4096x8x512
                  (shapeCast S4096x4096 (Nk (m ((c : Thread nD τ).loc main_arg1))) shapeCasts_S16777216_S4096x4096)
                  shapeCasts_S4096x4096_S4096x8x512)
                slices_S4096x8x512_S4096x8x256_0_0_0)
              (broadcastInDim S4096x8x256 ![] bcast_S_S4096x8x256 (constantI S_ 32 4#32)))
            (extractStridedSlice S4096x8x256 ![0, 0, 256]
              (shapeCast S4096x8x512
                (shapeCast S4096x4096 (Nk (m ((c : Thread nD τ).loc main_arg1))) shapeCasts_S16777216_S4096x4096)
                shapeCasts_S4096x4096_S4096x8x512)
              slices_S4096x8x512_S4096x8x256_0_0_256))
          shapeCasts_S4096x8x256_S4096x2048 := by
    show StableHlo.after hostOps0 (fun b => m (c, b)) (Proc.devRef .tc main_v19) = _
    after_results_simp
    rfl
  rw [e]
  refine (shapeCast_apply _ _ (ix2 o ⟨256 * kb.val + cc.val, by omega⟩) (ix3 o kb cc) (by
    rw [Shape.rowMajor_val_three, Shape.rowMajor_val_two]
    show (o.val * 8 + kb.val) * 256 + cc.val = o.val * 2048 + (256 * kb.val + cc.val)
    omega)).trans ?_
  refine congrArg₂ IntOp.ori (congrArg₂ (IntOp.shli .host) ?_ ?_) ?_
  · refine (extractStridedSlice_apply _ _ _ (ix3 o kb cc) (ix3 o kb ⟨cc.val, by omega⟩) (fun a => match a with
      | ⟨0, _⟩ => by show o.val = 0 + o.val; omega
      | ⟨1, _⟩ => by show kb.val = 0 + kb.val; omega
      | ⟨2, _⟩ => by show cc.val = 0 + cc.val; omega)).trans ?_
    exact blocks_apply _ o kb ⟨cc.val, by omega⟩ _ rfl
  · rfl
  · refine (extractStridedSlice_apply _ _ _ (ix3 o kb cc) (ix3 o kb ⟨256 + cc.val, by omega⟩) (fun a => match a with
      | ⟨0, _⟩ => by show o.val = 0 + o.val; omega
      | ⟨1, _⟩ => by show kb.val = 0 + kb.val; omega
      | ⟨2, _⟩ => by show 256 + cc.val = 256 + cc.val; rfl)).trans ?_
    exact blocks_apply _ o kb ⟨256 + cc.val, by omega⟩ _ (by show 512 * kb.val + 256 + cc.val = 512 * kb.val + (256 + cc.val); omega)

/-- The bias row the call reads. -/
theorem V_bias (c : Dev nD) (o : Fin 4096) :
    (V m c main_v35 : S1x4096.Idx → EReal) (ix2 0 o)
      = Bk (m ((c : Thread nD τ).loc main_arg2)) (m ((c : Thread nD τ).loc main_arg4)) (ix1 o) := by
  have e : (V m c main_v35 : S1x4096.Idx → EReal)
      = shapeCast S1x4096 (Bk (m ((c : Thread nD τ).loc main_arg2)) (m ((c : Thread nD τ).loc main_arg4)))
          shapeCasts_S4096_S1x4096 := by
    show StableHlo.after hostOps0 (fun b => m (c, b)) (Proc.devRef .tc main_v35) = _
    after_results_simp
    rfl
  rw [e]
  exact shapeCast_a_1a_apply _ _ 0 o

/-- The weight scale the call reads. -/
theorem V_scale (c : Dev nD) :
    (V m c main_v36 : S1x1.Idx → EReal) (ix2 0 0) = (m ((c : Thread nD τ).loc main_arg3) : S_.Idx → EReal) ix0 := by
  have e : (V m c main_v36 : S1x1.Idx → EReal)
      = shapeCast S1x1 (m ((c : Thread nD τ).loc main_arg3) : S_.Idx → EReal) shapeCasts_S_S1x1 := by
    show StableHlo.after hostOps0 (fun b => m (c, b)) (Proc.devRef .tc main_v36) = _
    after_results
    rfl
  rw [e]
  exact shapeCast_apply _ _ (ix2 0 0) ix0 (by
    have h1 : (S_.rowMajor ix0).val < S_.numel := (S_.rowMajor ix0).isLt
    have h2 : S_.numel = 1 := by decide
    rw [Shape.rowMajor_val_two]
    show (S_.rowMajor ix0).val = 0 * 1 + 0
    omega)

/-! ## After the call -/

/-- The program's result: the call's [8192, 4096] output viewed as [4, 2048, 4096], so entry `(b, s, o)` is the output's
    entry `(2048·b + s, o)`. -/
theorem tail_v38
    (dats : (p : Fin 1) → (c : Dev nD) → Pipeline.Dat τ (Elt Ideal) Unit ℕ (UR sig nD τ) ℕ (cfgs p) c)
    (c : Dev nD) (b : Fin 4) (s : Fin 2048) (o : Fin 4096) :
    (Pipeline.afterTail₀ cfgs dats 0 (V0 m) [hostOps1] c main_v38 : S4x2048x4096.Idx → EReal) (ix3 b s o)
      = ((dats 0 c).arrAt 4 cfg0.N : S8192x4096.Idx → EReal)
          (ix2 ⟨2048 * b.val + s.val, by have := b.isLt; have := s.isLt; omega⟩ o) := by
  have hb := b.isLt
  have hs := s.isLt
  have e : (Pipeline.afterTail₀ cfgs dats 0 (V0 m) [hostOps1] c main_v38 : S4x2048x4096.Idx → EReal)
      = shapeCast S4x2048x4096 ((dats 0 c).arrAt 4 cfg0.N : S8192x4096.Idx → EReal)
          shapeCasts_S8192x4096_S4x2048x4096 := by
    unfold Pipeline.afterTail₀
    show StableHlo.after hostOps1 _ (Proc.devRef .tc main_v38) = _
    after_results
    exact congrArg (fun x : S8192x4096.Idx → EReal => shapeCast S4x2048x4096 x shapeCasts_S8192x4096_S4x2048x4096)
      (Pipeline.withArrays_arr spec0 launch0.win.arr_inj c _ _ 4)
  rw [e]
  exact shapeCast_apply _ _ (ix3 b s o) (ix2 ⟨2048 * b.val + s.val, by omega⟩ o) (by
    rw [Shape.rowMajor_val_two, Shape.rowMajor_val_three]
    show (2048 * b.val + s.val) * 4096 + o.val = (b.val * 2048 + s.val) * 4096 + o.val
    omega)

end Cert.Proof.KI

end
-- ==== Proof.Bits.lean ====
/-
  Two 4-bit codes packed into one byte, high nibble first, come back out of the byte: the shift right by four and the
  mask by 15 return the first, the mask alone the second.
-/
import Idealize.ShloMosaic.PureOps.Ideal

namespace Cert.Spec

open Idealize.ShloMosaic

/-- The high nibble of `(a &&& 15) <<< 4 ||| (b &&& 15)` is `a &&& 15`. -/
theorem code_hi (a b : BitVec 32) :
    IntOp.andi (IntOp.shrsi .vector (IntOp.ori (IntOp.shli .host (a &&& 15#32) 4#32) (b &&& 15#32)) 4#32) 15#32 = a &&& 15#32 := by
  -- The shift amount 4 is below the width, so each shift is the ordinary one.
  have h4 : (4#32).toNat < 32 := by decide
  have h4' : (4#32).toNat = 4 := by decide
  simp only [IntOp.andi, IntOp.shrsi, IntOp.ori, IntOp.shli, if_pos h4]
  -- Compare bit by bit.  Under the mask 15 only bits 0 … 3 survive; bit i of the shifted byte is bit i + 4 of the byte,
  -- which is bit i of a &&& 15 (the low summand b &&& 15 has no bit at or above position 4).
  apply BitVec.eq_of_getLsbD_eq
  intro i hi
  simp only [BitVec.getLsbD_and, BitVec.sshiftRight', BitVec.getLsbD_sshiftRight, BitVec.getLsbD_or,
    BitVec.shiftLeft_eq', BitVec.getLsbD_shiftLeft, h4']
  interval_cases i <;> simp

/-- Its low nibble is `b &&& 15`. -/
theorem code_lo (a b : BitVec 32) :
    IntOp.andi (IntOp.ori (IntOp.shli .host (a &&& 15#32) 4#32) (b &&& 15#32)) 15#32 = b &&& 15#32 := by
  have h4 : (4#32).toNat < 32 := by decide
  have h4' : (4#32).toNat = 4 := by decide
  simp only [IntOp.andi, IntOp.ori, IntOp.shli, if_pos h4]
  -- Compare bit by bit.  Under the mask 15 only bits 0 … 3 survive, and the high summand, shifted left by four,
  -- has none of them.
  apply BitVec.eq_of_getLsbD_eq
  intro i hi
  simp only [BitVec.getLsbD_and, BitVec.getLsbD_or, BitVec.shiftLeft_eq', BitVec.getLsbD_shiftLeft, h4']
  interval_cases i <;> simp

end Cert.Spec
-- ==== Proof.KIBlocks.lean ====
/-
  The blocks the pipeline hands the body at point t = 64·j + 8·i + k, read at an index through the arrays the region
  finds: the activations' block is rows 1024i …, columns 512k … of the [8192, 4096] activations; the packed weights'
  block rows 1024j …, columns 256k … of the [4096, 2048] bytes; the bias block columns 1024j … of the bias row; the
  scale block the one scale.  The output's block at t is rows 1024i …, columns 1024j … of the [8192, 4096] result.
-/
import proofs.«419171_j38482906972513_3_alg».proof.Proof.Gen.KernelIdeal.Frame
import proofs.«419171_j38482906972513_3_alg».proof.Proof.Gen.KernelIdeal.Points
import Idealize.ShloMosaic.Lib.ValueIdx
import Idealize.ShloMosaic.Lib.Pipeline.Value

noncomputable section

namespace Cert.Proof.KI

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-- Each window's block index at point `t = 64·j + 8·i + k`, decided over the grid: the activations' is `(i, k)`, the
    packed weights' `(j, k)`, the bias row's `(0, j)`, the scale's `(0, 0)`, the output's `(i, j)`. -/
private theorem idx_facts : ∀ t : Fin cfg0.N,
    win0_0.index t (0 : Fin 2) = (t.val / 8) % 8 ∧ win0_0.index t (1 : Fin 2) = t.val % 8
    ∧ win0_1.index t (0 : Fin 2) = t.val / 64 ∧ win0_1.index t (1 : Fin 2) = t.val % 8
    ∧ win0_2.index t (0 : Fin 2) = 0 ∧ win0_2.index t (1 : Fin 2) = t.val / 64
    ∧ win0_3.index t (0 : Fin 2) = 0 ∧ win0_3.index t (1 : Fin 2) = 0
    ∧ win0_4.index t (0 : Fin 2) = (t.val / 8) % 8 ∧ win0_4.index t (1 : Fin 2) = t.val / 64 :=
  (by decide +kernel : ∀ t : Fin grid0.N, _)

theorem xblk_apply (c : Dev nD) (t : Fin cfg0.N) (r : Fin 1024) (kk : Fin 512) :
    (iblk m c 0 t : Vec F S1024x512 .bf16) (ix2 r kk)
      = (V m c main_v1 : S8192x4096.Idx → Elt F .bf16) (ix2 ⟨1024 * ((t.val / 8) % 8) + r.val, by have := r.isLt; omega⟩ ⟨512 * (t.val % 8) + kk.val, by have := kk.isLt; omega⟩) := by
  obtain ⟨e0, e1, -⟩ := idx_facts t
  show V m c main_v1 (((cfg0.win 0).blk t).view.emb (ix2 r kk)) = _
  refine congrArg (V m c main_v1) (funext fun a => Fin.ext ?_)
  match a with
  | ⟨0, _⟩ => show win0_0.index t (0 : Fin 2) * 1024 + 1 * r.val = 1024 * ((t.val / 8) % 8) + r.val; omega
  | ⟨1, _⟩ => show win0_0.index t (1 : Fin 2) * 512 + 1 * kk.val = 512 * (t.val % 8) + kk.val; omega

theorem wblk_apply (c : Dev nD) (t : Fin cfg0.N) (r : Fin 1024) (cc : Fin 256) :
    (iblk m c 1 t : Vec F S1024x256 .i32) (ix2 r cc)
      = (V m c main_v19 : S4096x2048.Idx → Elt F .i32) (ix2 ⟨1024 * (t.val / 64) + r.val, by have := r.isLt; have : t.val < 256 := lt_of_lt_of_eq t.isLt N_0; omega⟩ ⟨256 * (t.val % 8) + cc.val, by have := cc.isLt; omega⟩) := by
  obtain ⟨-, -, e2, e3, -⟩ := idx_facts t
  show V m c main_v19 (((cfg0.win 1).blk t).view.emb (ix2 r cc)) = _
  refine congrArg (V m c main_v19) (funext fun a => Fin.ext ?_)
  match a with
  | ⟨0, _⟩ => show win0_1.index t (0 : Fin 2) * 1024 + 1 * r.val = 1024 * (t.val / 64) + r.val; omega
  | ⟨1, _⟩ => show win0_1.index t (1 : Fin 2) * 256 + 1 * cc.val = 256 * (t.val % 8) + cc.val; omega

theorem bblk_apply (c : Dev nD) (t : Fin cfg0.N) (q : Fin 1024) :
    (iblk m c 2 t : Vec F S1x1024 .f32) (ix2 0 q)
      = (V m c main_v35 : S1x4096.Idx → Elt F .f32) (ix2 0 ⟨1024 * (t.val / 64) + q.val, by have := q.isLt; have : t.val < 256 := lt_of_lt_of_eq t.isLt N_0; omega⟩) := by
  obtain ⟨-, -, -, -, e4, e5, -⟩ := idx_facts t
  show V m c main_v35 (((cfg0.win 2).blk t).view.emb (ix2 0 q)) = _
  refine congrArg (V m c main_v35) (funext fun a => Fin.ext ?_)
  match a with
  | ⟨0, _⟩ => show win0_2.index t (0 : Fin 2) * 1 + 1 * 0 = 0; omega
  | ⟨1, _⟩ => show win0_2.index t (1 : Fin 2) * 1024 + 1 * q.val = 1024 * (t.val / 64) + q.val; omega

theorem sblk_apply (c : Dev nD) (t : Fin cfg0.N) :
    (iblk m c 3 t : Vec F S1x1 .f32) (ix2 0 0) = (V m c main_v36 : S1x1.Idx → Elt F .f32) (ix2 0 0) := by
  obtain ⟨-, -, -, -, -, -, e6, e7, -⟩ := idx_facts t
  show V m c main_v36 (((cfg0.win 3).blk t).view.emb (ix2 0 0)) = _
  refine congrArg (V m c main_v36) (funext fun a => Fin.ext ?_)
  match a with
  | ⟨0, _⟩ => show win0_3.index t (0 : Fin 2) * 1 + 1 * 0 = 0; omega
  | ⟨1, _⟩ => show win0_3.index t (1 : Fin 2) * 1 + 1 * 0 = 0; omega

/-- An index of the result array is in point `t`'s output block iff its row is in 1024i … 1024i+1023 and its column in 1024j … 1024j+1023. -/
theorem mem_blk4 (t : Fin cfg0.N) (y : S8192x4096.Idx) :
    y ∈ ((cfg0.win 4).blk t).view.set ↔ (1024 * ((t.val / 8) % 8) ≤ (y 0).val ∧ (y 0).val < 1024 * ((t.val / 8) % 8) + 1024)
      ∧ (1024 * (t.val / 64) ≤ (y 1).val ∧ (y 1).val < 1024 * (t.val / 64) + 1024) := by
  obtain ⟨-, -, -, -, -, -, -, -, e8, e9⟩ := idx_facts t
  show y ∈ ((View.whole main_v37).slice (win0_4.rect t)).set ↔ _
  rw [View.set_slice_whole, Rect.mem_set_unit]
  constructor
  · intro h
    have b0 : win0_4.index t (0 : Fin 2) * 1024 ≤ (y 0).val ∧ (y 0).val < win0_4.index t (0 : Fin 2) * 1024 + 1024 := h 0
    have b1 : win0_4.index t (1 : Fin 2) * 1024 ≤ (y 1).val ∧ (y 1).val < win0_4.index t (1 : Fin 2) * 1024 + 1024 := h 1
    omega
  · intro h a
    match a with
    | ⟨0, _⟩ => show win0_4.index t (0 : Fin 2) * 1024 ≤ (y 0).val ∧ (y 0).val < win0_4.index t (0 : Fin 2) * 1024 + 1024; omega
    | ⟨1, _⟩ => show win0_4.index t (1 : Fin 2) * 1024 ≤ (y 1).val ∧ (y 1).val < win0_4.index t (1 : Fin 2) * 1024 + 1024; omega

/-- Entry (r, q) of the output block at `t` is entry (1024i + r, 1024j + q) of the result array. -/
theorem emb_blk4 (t : Fin cfg0.N) (r q : Fin 1024) :
    ((cfg0.win 4).blk t).view.emb (ix2 r q)
      = (ix2 ⟨1024 * ((t.val / 8) % 8) + r.val, by have := r.isLt; omega⟩ ⟨1024 * (t.val / 64) + q.val, by have := q.isLt; have : t.val < 256 := lt_of_lt_of_eq t.isLt N_0; omega⟩ : S8192x4096.Idx) := by
  obtain ⟨-, -, -, -, -, -, -, -, e8, e9⟩ := idx_facts t
  funext a; apply Fin.ext
  match a with
  | ⟨0, _⟩ => show win0_4.index t (0 : Fin 2) * 1024 + 1 * r.val = 1024 * ((t.val / 8) % 8) + r.val; omega
  | ⟨1, _⟩ => show win0_4.index t (1 : Fin 2) * 1024 + 1 * q.val = 1024 * (t.val / 64) + q.val; omega

end Cert.Proof.KI

end
-- ==== Proof.KITile.lean ====
/-
  The block of unpacked weights at point t = 64·j + 8·i + k, entry (q, kk): the 4-bit code at position 512k + kk of
  row 1024j + q of the weight matrix, less the zero point.  The host packed that code with its partner 256 places
  further into one byte, high nibble first; the body's shift and masks take the byte apart again.
-/
import proofs.«419171_j38482906972513_3_alg».proof.Proof.Payloads
import proofs.«419171_j38482906972513_3_alg».proof.Proof.HostPre
import proofs.«419171_j38482906972513_3_alg».proof.Proof.Bits
import proofs.«419171_j38482906972513_3_alg».proof.Proof.KIBlocks

noncomputable section

namespace Cert.Proof.KI

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- A byte built from two 4-bit codes gives back the first code from its high nibble … -/
private theorem byte_hi (x y : BitVec 32) (hx : ∃ a : BitVec 32, x = a &&& 15#32) (hy : ∃ b : BitVec 32, y = b &&& 15#32) :
    IntOp.andi (IntOp.shrsi .vector (IntOp.ori (IntOp.shli .host x 4#32) y) 4#32) 15#32 = x := by
  obtain ⟨a, rfl⟩ := hx
  obtain ⟨b, rfl⟩ := hy
  exact Cert.Spec.code_hi a b

/-- … and the second from its low nibble. -/
private theorem byte_lo (x y : BitVec 32) (hx : ∃ a : BitVec 32, x = a &&& 15#32) (hy : ∃ b : BitVec 32, y = b &&& 15#32) :
    IntOp.andi (IntOp.ori (IntOp.shli .host x 4#32) y) 15#32 = y := by
  obtain ⟨a, rfl⟩ := hx
  obtain ⟨b, rfl⟩ := hy
  exact Cert.Spec.code_lo a b

theorem tile_apply (c : Dev nD) (t : Fin cfg0.N) (q : Fin 1024) (kk : Fin 512) :
    k0_pay2 (F := Ideal) (iblk m c 1 t) (ix2 q kk)
      = Cert.Spec.deq (Nk (m ((c : Thread nD τ).loc main_arg1))
          (Cert.Spec.flat ⟨1024 * (t.val / 64) + q.val, by have := q.isLt; have : t.val < 256 := lt_of_lt_of_eq t.isLt N_0; omega⟩
            ⟨512 * (t.val % 8) + kk.val, by have := kk.isLt; omega⟩)) := by
  have hq := q.isLt
  have hkk := kk.isLt
  have ht : t.val < 256 := lt_of_lt_of_eq t.isLt N_0
  -- the body's value at (q, kk) is the weight value of one nibble of a byte of the block; the codes agree
  refine (pay2_apply (iblk m c 1 t) q kk).trans (congrArg Cert.Spec.deq ?_)
  split
  · next h =>
    -- kk < 256: byte (q, kk) of the block is byte 256·(t % 8) + kk of row 1024·(t / 64) + q, whose high nibble is the
    -- code at position 512·(t % 8) + kk of that row
    have e1 := (wblk_apply (m := m) c t q ⟨kk.val, h⟩).trans
      (V_w m c ⟨1024 * (t.val / 64) + q.val, by omega⟩ ⟨t.val % 8, by omega⟩ ⟨kk.val, h⟩)
    exact (congrArg (fun w : BitVec 32 => IntOp.andi (IntOp.shrsi .vector w 4#32) 15#32) e1).trans
      (byte_hi _ _ (Nk_masked _ _) (Nk_masked _ _))
  · next h =>
    -- 256 ≤ kk: byte (q, kk − 256), whose low nibble is the code at position 512·(t % 8) + 256 + (kk − 256)
    have e1 := (wblk_apply (m := m) c t q ⟨kk.val - 256, by omega⟩).trans
      (V_w m c ⟨1024 * (t.val / 64) + q.val, by omega⟩ ⟨t.val % 8, by omega⟩ ⟨kk.val - 256, by omega⟩)
    refine ((congrArg (fun w : BitVec 32 => IntOp.andi w 15#32) e1).trans
      (byte_lo _ _ (Nk_masked _ _) (Nk_masked _ _))).trans ?_
    exact congrArg
      (fun k : Fin 4096 => Nk (m ((c : Thread nD τ).loc main_arg1))
        (Cert.Spec.flat ⟨1024 * (t.val / 64) + q.val, by omega⟩ k))
      (Fin.ext (by show 512 * (t.val % 8) + 256 + (kk.val - 256) = 512 * (t.val % 8) + kk.val; omega))

end Cert.Proof.KI

end
-- ==== Proof.KIAcc.lean ====
/-
  What the accumulator and the output's block hold, entry by entry, at the exact instance.

  At point t = 64·j + 8·i + k the accumulator's entry (r, q) is the sum, over the blocks 0 … k of the contraction, of the
  products of row 1024i + r of the activations with row 1024j + q of the weight values (`Cert.Spec.blockSum`): one block of
  512 products is added per point, from zero at k = 0.  At k = 7 the output's block takes that sum times the weight
  scale, plus the bias of column 1024j + q.
-/
import proofs.«419171_j38482906972513_3_alg».proof.Proof.KIRun
import proofs.«419171_j38482906972513_3_alg».proof.Proof.KITile
import proofs.«419171_j38482906972513_3_alg».proof.Proof.KIBlocks
import proofs.«419171_j38482906972513_3_alg».proof.Proof.Payloads
import proofs.«419171_j38482906972513_3_alg».proof.Proof.HostPre

noncomputable section

open scoped BigOperators

namespace Cert.Proof.KI

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- Row `p` of the activations as the region finds them, as a function of the position (zero beyond the array). -/
def xrow (c : Dev nD) (p : ℕ) : ℕ → EReal := fun n =>
  if h : p < 8192 ∧ n < 4096 then (V m c main_v1 : S8192x4096.Idx → EReal) (ix2 ⟨p, h.1⟩ ⟨n, h.2⟩) else 0

/-- Row `o` of the weight values: the code at each position less the zero point (zero beyond the array). -/
def wrow (c : Dev nD) (o : ℕ) : ℕ → EReal := fun n =>
  if h : o < 4096 ∧ n < 4096 then Cert.Spec.deq (Nk (m ((c : Thread nD τ).loc main_arg1)) (Cert.Spec.flat ⟨o, h.1⟩ ⟨n, h.2⟩)) else 0

/-- An entry of the activations' block at point `t` is the row function of row `1024·((t / 8) % 8) + r` at position
    `512·(t % 8) + kk`. -/
private theorem xfac (c : Dev nD) (t : Fin cfg0.N) (r : Fin 1024) (kk : Fin 512) (j : ℕ) (hj : t.val % 8 = j) :
    (xblk m c t) (ix2 r kk) = xrow m c (1024 * ((t.val / 8) % 8) + r.val) (512 * j + kk.val) := by
  subst hj
  have hr := r.isLt
  have hkk := kk.isLt
  refine (xblk_apply (m := m) c t r kk).trans ?_
  unfold xrow
  rw [dif_pos (⟨by omega, by omega⟩ :
    1024 * ((t.val / 8) % 8) + r.val < 8192 ∧ 512 * (t.val % 8) + kk.val < 4096)]

/-- An entry of the unpacked weight tile at point `t` is the row function of weight row `1024·(t / 64) + q` at position
    `512·(t % 8) + kk`. -/
private theorem wfac (c : Dev nD) (t : Fin cfg0.N) (q : Fin 1024) (kk : Fin 512) (j : ℕ) (hj : t.val % 8 = j) :
    (tile m c t) (ix2 q kk) = wrow m c (1024 * (t.val / 64) + q.val) (512 * j + kk.val) := by
  subst hj
  have hq := q.isLt
  have hkk := kk.isLt
  have ht : t.val < 256 := lt_of_lt_of_eq t.isLt N_0
  refine (tile_apply m c t q kk).trans ?_
  unfold wrow
  rw [dif_pos (⟨by omega, by omega⟩ :
    1024 * (t.val / 64) + q.val < 4096 ∧ 512 * (t.val % 8) + kk.val < 4096)]

/-- At a point that starts a new output block (`t % 8 = 0`) the accumulator is zero plus the first block of products. -/
private theorem acc_first (c : Dev nD) (t : Fin cfg0.N) (h : t.val % 8 = 0) (r q : Fin 1024) :
    accA m c t.val t.isLt (ix2 r q)
      = Cert.Spec.blockSum (xrow m c (1024 * ((t.val / 8) % 8) + r.val)) (wrow m c (1024 * (t.val / 64) + q.val)) (t.val % 8) := by
  refine (congrFun (accA_first m c t h) (ix2 r q)).trans ?_
  refine (pay3_apply _ _ _ r q).trans ?_
  refine Eq.trans ?_ (congrArg (Cert.Spec.blockSum _ _) h.symm)
  show _ = 0 + ∑ kk : Fin 512, xrow m c (1024 * ((t.val / 8) % 8) + r.val) kk.val
      * wrow m c (1024 * (t.val / 64) + q.val) kk.val
  refine congrArg₂ (· + ·) (pay1_apply _) (Finset.sum_congr rfl fun kk _ => ?_)
  have hx := xfac m c t r kk 0 h
  have hw := wfac m c t q kk 0 h
  rw [show 512 * 0 + kk.val = kk.val from by omega] at hx hw
  exact congrArg₂ (· * ·) hx hw

/-- The accumulator after point number `n`, by induction on `n`: a point with `n % 8 ≠ 0` has the same activation rows
    and weight rows as the point before it and adds the next block of products. -/
private theorem acc_aux (c : Dev nD) : ∀ (n : ℕ) (hn : n < cfg0.N) (r q : Fin 1024),
    accA m c n hn (ix2 r q)
      = Cert.Spec.blockSum (xrow m c (1024 * ((n / 8) % 8) + r.val)) (wrow m c (1024 * (n / 64) + q.val)) (n % 8) := by
  intro n
  induction n with
  | zero => intro hn r q; exact acc_first m c ⟨0, hn⟩ rfl r q
  | succ k ih =>
    intro hn r q
    by_cases h : (k + 1) % 8 = 0
    · exact acc_first m c ⟨k + 1, hn⟩ h r q
    · refine (congrFun (accA_step m c ⟨k + 1, hn⟩ h) (ix2 r q)).trans ?_
      refine (pay3_apply _ _ _ r q).trans ?_
      have e8 : (k + 1) % 8 = k % 8 + 1 := by omega
      have hX : xrow m c (1024 * ((k / 8) % 8) + r.val) = xrow m c (1024 * (((k + 1) / 8) % 8) + r.val) :=
        congrArg (xrow m c) (by omega)
      have hW : wrow m c (1024 * (k / 64) + q.val) = wrow m c (1024 * ((k + 1) / 64) + q.val) :=
        congrArg (wrow m c) (by omega)
      have hI := ih (Nat.lt_of_succ_lt hn) r q
      rw [hX, hW] at hI
      refine Eq.trans ?_ (congrArg (Cert.Spec.blockSum _ _) e8.symm)
      show _ = Cert.Spec.blockSum (xrow m c (1024 * (((k + 1) / 8) % 8) + r.val)) (wrow m c (1024 * ((k + 1) / 64) + q.val)) (k % 8)
        + ∑ kk : Fin 512, xrow m c (1024 * (((k + 1) / 8) % 8) + r.val) (512 * (k % 8 + 1) + kk.val)
            * wrow m c (1024 * ((k + 1) / 64) + q.val) (512 * (k % 8 + 1) + kk.val)
      refine congrArg₂ (· + ·) hI (Finset.sum_congr rfl fun kk _ => ?_)
      exact congrArg₂ (· * ·) (xfac m c ⟨k + 1, hn⟩ r kk (k % 8 + 1) e8) (wfac m c ⟨k + 1, hn⟩ q kk (k % 8 + 1) e8)

theorem acc_apply (c : Dev nD) (t : Fin cfg0.N) (r q : Fin 1024) :
    accA m c t.val t.isLt (ix2 r q)
      = Cert.Spec.blockSum (xrow m c (1024 * ((t.val / 8) % 8) + r.val)) (wrow m c (1024 * (t.val / 64) + q.val)) (t.val % 8) :=
  acc_aux m c t.val t.isLt r q

theorem out_apply (c : Dev nD) (t : Fin cfg0.N) (h7 : t.val % 8 = 7) (r q : Fin 1024) :
    outAt m c t (ix2 r q)
      = Cert.Spec.blockSum (xrow m c (1024 * ((t.val / 8) % 8) + r.val)) (wrow m c (1024 * (t.val / 64) + q.val)) 7
          * (m ((c : Thread nD τ).loc main_arg3) : S_.Idx → EReal) ix0
        + Bk (m ((c : Thread nD τ).loc main_arg2)) (m ((c : Thread nD τ).loc main_arg4))
            (ix1 ⟨1024 * (t.val / 64) + q.val, by have := q.isLt; have : t.val < 256 := lt_of_lt_of_eq t.isLt N_0; omega⟩) := by
  have hq := q.isLt
  have ht : t.val < 256 := lt_of_lt_of_eq t.isLt N_0
  refine (pay4_apply (accA m c t.val t.isLt) (sblk m c t) (bblk m c t) r q).trans ?_
  refine congrArg₂ (· + ·) (congrArg₂ (· * ·) ?_ ?_) ?_
  · exact (acc_apply m c t r q).trans (congrArg (Cert.Spec.blockSum _ _) h7)
  · exact (sblk_apply (m := m) c t).trans (V_scale m c)
  · exact (bblk_apply (m := m) c t q).trans (V_bias m c ⟨1024 * (t.val / 64) + q.val, by omega⟩)

end Cert.Proof.KI

end
-- ==== Proof.KIFinal.lean ====
/-
  The kernel's result array after the run: entry (p, o) is the block-by-block sum of row p of the activations with row
  o of the weight values, times the weight scale, plus the bias of column o.  Every entry lies in the output block of
  exactly one point with k = 7, namely (j, i, 7) with i = p / 1024 and j = o / 1024, and that point wrote this value.
-/
import proofs.«419171_j38482906972513_3_alg».proof.Proof.KIAcc

noncomputable section

open scoped BigOperators

namespace Cert.Proof.KI

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The result array as one function of its index. -/
def Gk4 (c : Dev nD) : S8192x4096.Idx → EReal := fun y =>
  Cert.Spec.blockSum (xrow m c (y 0).val) (wrow m c (y 1).val) 7 * (m ((c : Thread nD τ).loc main_arg3) : S_.Idx → EReal) ix0
    + Bk (m ((c : Thread nD τ).loc main_arg2)) (m ((c : Thread nD τ).loc main_arg4)) (ix1 (y 1))

theorem final4 (c : Dev nD) : ((dats m 0 c).arrAt 4 cfg0.N : S8192x4096.Idx → EReal) = Gk4 m c := by
  refine (dats m 0 c).arrAt_eq_of_cover 4 (Gk4 m c) ?_ ?_
  · -- A point that writes the output's block back has k = 7, and the block it leaves is, entry by entry, the result
    -- array's function at the entry's place (1024i + r, 1024j + q) in the array.
    intro t hf
    have h7 : t.val % 8 = 7 := (flush0_4 t).mp hf
    show outAt m c t = ((cfg0.win 4).blk t).view.read (Elt Ideal) (Gk4 m c)
    funext y
    obtain ⟨r, q, rfl⟩ : ∃ (r q : Fin 1024), y = ix2 r q := ⟨y 0, y 1, eq_ix2 y⟩
    rw [out_apply m c t h7 r q, View.read_apply, emb_blk4 t r q]
    rfl
  · -- Entry (p, o) lies in the output block of the point (j, i, 7) with i = p / 1024 and j = o / 1024.
    intro y
    have h0 : (y 0).val < 8192 := idx2_lt0 y
    have h1 : (y 1).val < 4096 := idx2_lt1 y
    refine ⟨⟨64 * ((y 1).val / 1024) + 8 * ((y 0).val / 1024) + 7, by have hN : cfg0.N = 256 := N_0; omega⟩, (flush0_4 _).mpr ?_, (mem_blk4 _ y).mpr ?_⟩
    · show (64 * ((y 1).val / 1024) + 8 * ((y 0).val / 1024) + 7) % 8 = 7
      omega
    · show (1024 * (((64 * ((y 1).val / 1024) + 8 * ((y 0).val / 1024) + 7) / 8) % 8) ≤ (y 0).val
          ∧ (y 0).val < 1024 * (((64 * ((y 1).val / 1024) + 8 * ((y 0).val / 1024) + 7) / 8) % 8) + 1024)
        ∧ (1024 * ((64 * ((y 1).val / 1024) + 8 * ((y 0).val / 1024) + 7) / 64) ≤ (y 1).val
          ∧ (y 1).val < 1024 * ((64 * ((y 1).val / 1024) + 8 * ((y 0).val / 1024) + 7) / 64) + 1024)
      omega

end Cert.Proof.KI

end
-- ==== Proof.KIFinite.lean ====
/-
  What the precondition gives: every activation and the weight scale are real numbers (finite), not ±∞.
-/
import proofs.«419171_j38482906972513_3_alg».proof.Defs
import proofs.«419171_j38482906972513_3_alg».proof.Proof.Gen.Pre_finite_inputs
import Idealize.ShloMosaic.Lib.ReduceAll
import Idealize.ShloMosaic.Lib.ValueIdx

noncomputable section

namespace Cert.Proof.KI

open Cert.KernelIdeal
open Idealize.ShloMosaic Idealize.ShloMosaic.TcCoe Idealize.ShloMosaic.ValueIdx
open Idealize.SL Idealize.SL.Sem

/-- The scalar shape has one index. -/
private instance : Subsingleton S_.Idx := ⟨fun a b => funext fun d => d.elim0⟩

/-- The word `0x7F800000` denotes `+∞`. -/
private theorem ofBits_inf : Ideal.ofBits .f32 0x7F800000#32 = (⊤ : EReal) := by
  simp [Ideal.ofBits, Ideal.ieee]

/-- An extended real whose absolute value `max a (−a)` lies strictly below `+∞` is a real number: at `−∞` and at `+∞` the
    absolute value is `+∞` itself. -/
private theorem real_of_abs_lt (a : EReal)
    (h : Ideal.cmp .olt (max a (-a)) (Ideal.ofBits .f32 0x7F800000#32) = 1#1) : ∃ r : ℝ, a = (r : EReal) := by
  rw [ofBits_inf] at h
  induction a using EReal.rec with
  | bot => exact absurd h (by simp [Ideal.cmp])
  | coe r => exact ⟨r, rfl⟩
  | top => exact absurd h (by simp [Ideal.cmp])

theorem x_real [hP : Cert.Pre_finite_inputs.Facts] (m : (ℓ : Loc nD τ sig) → Buf (Elt Ideal) ℓ) (h : Cert.Pre_KernelIdeal m)
    (c : Dev nD) (i : S4x2048x4096.Idx) : ∃ r : ℝ, (m ((c : Thread nD τ).loc main_arg0) : S4x2048x4096.Idx → EReal) i = (r : EReal) := by
  have h0 := congrFun (h c) ix0
  dsimp only [Cert.Pre_finite_inputs.fn] at h0
  obtain ⟨h1, -⟩ := IntOp.andi_eq_one.1 h0
  obtain ⟨hx, -⟩ := IntOp.andi_eq_one.1 h1
  exact real_of_abs_lt _ (Host.reduce_andi_all _ _ _ _ _ hx i)

theorem sw_real [hP : Cert.Pre_finite_inputs.Facts] (m : (ℓ : Loc nD τ sig) → Buf (Elt Ideal) ℓ) (h : Cert.Pre_KernelIdeal m)
    (c : Dev nD) : ∃ r : ℝ, (m ((c : Thread nD τ).loc main_arg3) : S_.Idx → EReal) ix0 = (r : EReal) := by
  have h0 := congrFun (h c) ix0
  dsimp only [Cert.Pre_finite_inputs.fn] at h0
  obtain ⟨h1, -⟩ := IntOp.andi_eq_one.1 h0
  obtain ⟨-, hs⟩ := IntOp.andi_eq_one.1 h1
  exact real_of_abs_lt _ (Host.reduce_andi_all _ _ _ _ _ hs ix0)

end Cert.Proof.KI

end
-- ==== Proof.Algebra.lean ====
/-
  The algebraic law that joins the two programs: over finite reals, a sum of products taken in eight blocks of 512 terms,
  scaled afterwards by `s`, is the sum of the products with the second factor scaled first (distributivity of the reals;
  on the extended reals it needs the finiteness of the terms).
-/
import proofs.«419171_j38482906972513_3_alg».proof.Proof.Spec

noncomputable section

open scoped BigOperators

namespace Cert.Spec

open Idealize.ShloMosaic

/-- The zero point's literal denotes 8: sign bit clear, exponent field 130, fraction field 0, so the value is
    `2²³ · 2^(130 − 127 − 23) = 2³`. -/
private theorem zp_eq_eight : Ideal.ofBits .f32 0x41000000#32 = ((8 : ℝ) : EReal) := by
  simp [Ideal.ofBits, Ideal.ieee, -EReal.coe_mul]; norm_num

/-- The zero point's literal is a real number. -/
theorem zp_real : ∃ r : ℝ, Ideal.ofBits .f32 0x41000000#32 = (r : EReal) := ⟨8, zp_eq_eight⟩

/-- A code's value is a real number. -/
theorem deq_real (q : BitVec 32) : ∃ r : ℝ, deq q = (r : EReal) := by
  -- A difference of two reals is a real.
  obtain ⟨r, hr⟩ := zp_real
  exact ⟨(q.toInt : ℝ) - r, by rw [deq, hr, EReal.coe_sub]⟩

/-- The inclusion of the reals in the extended reals commutes with finite sums. -/
private theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- On real rows the running sum after block `n` is the real sum of the first `512·(n + 1)` products: each step
    appends the next 512 terms to the range. -/
private theorem blockSum_coe (x w : ℕ → ℝ) (n : ℕ) :
    blockSum (fun k => (x k : EReal)) (fun k => (w k : EReal)) n
      = ((∑ k ∈ Finset.range (512 * (n + 1)), x k * w k : ℝ) : EReal) := by
  induction n with
  | zero =>
    simp only [blockSum, zero_add, ← EReal.coe_mul]
    rw [← coe_sum, Fin.sum_univ_eq_sum_range (fun k => x k * w k) 512]
  | succ n ih =>
    simp only [blockSum, ← EReal.coe_mul]
    rw [ih, ← coe_sum, ← EReal.coe_add,
      Fin.sum_univ_eq_sum_range (fun k => x (512 * (n + 1) + k) * w (512 * (n + 1) + k)) 512,
      show 512 * (n + 1 + 1) = 512 * (n + 1) + 512 by ring, Finset.sum_range_add]

/-- Eight blocks summed and then scaled, against the whole sum with the weights scaled first. -/
theorem blockSum_scale (x w : ℕ → EReal) (s b : EReal)
    (hx : ∀ n, ∃ r : ℝ, x n = (r : EReal)) (hw : ∀ n, ∃ r : ℝ, w n = (r : EReal)) (hs : ∃ r : ℝ, s = (r : EReal)) :
    blockSum x w 7 * s + b = (∑ k : Fin 4096, x k.val * (s * w k.val)) + b := by
  -- Name the real values of the rows and of the scale.
  choose xr hxr using hx
  choose wr hwr using hw
  obtain ⟨sr, rfl⟩ := hs
  obtain rfl : x = fun n => (xr n : EReal) := funext hxr
  obtain rfl : w = fun n => (wr n : EReal) := funext hwr
  -- Both sides are now images of reals: the left one of `(∑ k < 4096, xr k · wr k) · sr`, the right one of
  -- `∑ k < 4096, xr k · (sr · wr k)`; these agree term by term after distributing `sr` over the sum.
  rw [blockSum_coe]
  simp only [← EReal.coe_mul]
  rw [← coe_sum, Fin.sum_univ_eq_sum_range (fun k => xr k * (sr * wr k)) 4096, Finset.sum_mul]
  congr 2
  apply Finset.sum_congr rfl
  intro k _
  ring

end Cert.Spec

end
-- ==== Proof.KIClaim.lean ====
/-
  The idealized kernel's run, re-posted with its result as the layer `Cert.Spec.G` of the argument arrays.

  The result array of the region holds, at (p, o), the block-by-block sum of row p of the activations with row o of the
  weight values, times the weight scale, plus the bias of column o; the reshape after the region reads entry (b, s, o)
  off row 2048·b + s.  Under the precondition the activations and the scale are real numbers, and so are the weight values,
  so distributivity turns the scaled block sum into the layer's sum with the weights scaled first.
-/
import proofs.«419171_j38482906972513_3_alg».proof.Proof.KIFinal
import proofs.«419171_j38482906972513_3_alg».proof.Proof.KIFinite
import proofs.«419171_j38482906972513_3_alg».proof.Proof.Algebra

noncomputable section

open scoped BigOperators

namespace Cert.Proof.KI

open Cert.KernelIdeal Cert.KernelIdeal.Gen
open Idealize.ShloMosaic Idealize.ShloMosaic.TcCoe Idealize.ShloMosaic.ValueIdx
open Idealize.SL Idealize.SL.Sem

/-- Every entry of a row of the activations, as the region finds them, is a real number: inside the array it is an entry
    of the argument, which the precondition makes finite; beyond it the row is the real 0. -/
private theorem xrow_real [hP : Cert.Pre_finite_inputs.Facts] (m : (ℓ : Loc nD τ sig) → Buf (Elt Ideal) ℓ)
    (hpre : Cert.Pre_KernelIdeal m) (c : Dev nD) (p n : ℕ) : ∃ r : ℝ, xrow m c p n = (r : EReal) := by
  unfold xrow
  split
  · next h => rw [V_x]; exact x_real m hpre c _
  · exact ⟨0, rfl⟩

/-- Every entry of a row of the weight values is a real number: a code less the zero point inside the array, the real 0
    beyond it. -/
private theorem wrow_real (m : (ℓ : Loc nD τ sig) → Buf (Elt Ideal) ℓ) (c : Dev nD) (o n : ℕ) :
    ∃ r : ℝ, wrow m c o n = (r : EReal) := by
  unfold wrow
  split
  · exact Cert.Spec.deq_real _
  · exact ⟨0, rfl⟩

/-- Row `2048·b + s` of the [8192, 4096] view of the activations is row `s` of batch `b`: the quotient of
    `2048·b + s` by 2048 is `b` and the remainder is `s`. -/
private theorem xrow_eq (m : (ℓ : Loc nD τ sig) → Buf (Elt Ideal) ℓ) (c : Dev nD) (b : Fin 4) (s : Fin 2048) (k : Fin 4096) :
    xrow m c (2048 * b.val + s.val) k.val
      = (m ((c : Thread nD τ).loc main_arg0) : S4x2048x4096.Idx → EReal) (ix3 b s k) := by
  have hb := b.isLt
  have hs := s.isLt
  unfold xrow
  rw [dif_pos ⟨by omega, k.isLt⟩, V_x]
  refine congrArg _ (funext fun a => Fin.ext ?_)
  match a with
  | ⟨0, _⟩ => show (2048 * b.val + s.val) / 2048 = b.val; omega
  | ⟨1, _⟩ => show (2048 * b.val + s.val) % 2048 = s.val; omega
  | ⟨2, _⟩ => rfl

/-- Row `o` of the weight values at position `k` is the code at flat position `4096·o + k`, less the zero point. -/
private theorem wrow_eq (m : (ℓ : Loc nD τ sig) → Buf (Elt Ideal) ℓ) (c : Dev nD) (o k : Fin 4096) :
    wrow m c o.val k.val = Cert.Spec.deq (Nk (m ((c : Thread nD τ).loc main_arg1)) (Cert.Spec.flat o k)) := by
  unfold wrow
  rw [dif_pos ⟨o.isLt, k.isLt⟩]

theorem kernel_run_G [hP : Cert.Pre_finite_inputs.Facts] (m : (ℓ : Loc nD τ sig) → Buf (Elt Ideal) ℓ) (ρ : Dev nD → PrngReg)
    (hpre : Cert.Pre_KernelIdeal m) :
    θ_run defs (onTc (τ := τ) (main (F := Ideal))) ⟨m, fun _ => 0, ρ⟩ (fun r => ∀ c : Dev nD,
      r.2.mem ((c.tc : Thread nD τ).loc main_v38)
          = Cert.Spec.G (m ((c.tc : Thread nD τ).loc main_arg0)) (Nk (m ((c.tc : Thread nD τ).loc main_arg1))) (Bk (m ((c.tc : Thread nD τ).loc main_arg2)) (m ((c.tc : Thread nD τ).loc main_arg4))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun _ h c => ⟨?_,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main (F := Ideal) m ρ)
  refine ((h c).2 main_v38 (Pipeline.mem_restRefs_of main_v38 (by decide) (by decide))).trans ?_
  funext j
  obtain ⟨b, s, o, rfl⟩ : ∃ (b : Fin 4) (s : Fin 2048) (o : Fin 4096), j = ix3 b s o := ⟨j 0, j 1, j 2, eq_ix3 j⟩
  rw [tail_v38 m (dats m) c b s o, final4 m c]
  unfold Gk4 Cert.Spec.G Cert.Spec.Gat
  -- The scaled block sum is the layer's sum with the weights scaled first: every factor is a real number.
  refine (Cert.Spec.blockSum_scale (xrow m c (2048 * b.val + s.val)) (wrow m c o.val) _ _
    (xrow_real m hpre c _) (wrow_real m c _) (sw_real m hpre c)).trans ?_
  congr 1
  refine Finset.sum_congr rfl fun k _ => ?_
  rw [xrow_eq, wrow_eq]

end Cert.Proof.KI

end
-- ==== Proof.RefValue.lean ====
/-
  The reference program computes the specification.

  The reference unpacks the weight codes into one flat vector, dequantizes every entry (the code as a signed integer, less
  the zero point, times the weight scale), reads the flat vector as a 4096 × 4096 matrix whose row `o` occupies the flat
  positions `4096·o … 4096·o + 4095`, contracts the activations' last axis with that matrix's second axis, and adds the
  dequantized bias vector along the last axis. Read at one output index `(b, s, o)` this is

      ∑ₖ x(b, s, k) · (sw · (N(4096·o + k) − 8))  +  B(o),

  which is `Cert.Spec.G` of the activations, the flat code vector `N`, the bias vector `B` and the weight scale `sw`.
  The flat code vector and the bias vector are kept as the two functions `Nref` and `Bref` of the packed arguments: nothing
  below looks inside them. Only the outer operations are read at an index: the sum and its two broadcasts of the bias, the
  contraction as a sum over `k`, the reshape at `(o, k)` as the flat position `4096·o + k`, and the pointwise product,
  difference and integer-to-float conversion. Over the extended reals a format change is the identity, so no rounding enters.
-/
import proofs.«419171_j38482906972513_3_alg».proof.Proof.Gen.ReferenceIdeal.Run
import proofs.«419171_j38482906972513_3_alg».proof.Proof.Gen.ReferenceIdeal.Read
import proofs.«419171_j38482906972513_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

noncomputable section

open scoped BigOperators

namespace Cert.Proof.Ref

open Cert.ReferenceIdeal Cert.ReferenceIdeal.Gen Cert.ReferenceIdeal.Value Cert.ReferenceIdeal.Read Idealize.ShloMosaic
  Idealize.ShloMosaic.TcCoe Idealize.SL.Sem Idealize.ShloMosaic.ValueIdx

/-! ## The two inner arrays, as functions of the packed arguments -/

/-- The flat vector of 4-bit codes the reference unpacks from the packed weight words: word `w` gives positions `2w` (its
    bits 4 … 7) and `2w + 1` (its bits 0 … 3). -/
def Nref (pw : S8388608.Idx → BitVec 32) : S16777216.Idx → BitVec 32 :=
  shapeCast _ (concatenate S8388608x2 1 [⟨S8388608x1, (broadcastInDim S8388608x1 ![0] bcast_S8388608_S8388608x1_0 (andi (Host.shrsi pw (broadcastInDim S8388608 ![] bcast_S_S8388608 (constantI S_ 32 4#32))) (broadcastInDim S8388608 ![] bcast_S_S8388608 (constantI S_ 32 15#32))))⟩, ⟨S8388608x1, (broadcastInDim S8388608x1 ![0] bcast_S8388608_S8388608x1_0 (andi pw (broadcastInDim S8388608 ![] bcast_S_S8388608 (constantI S_ 32 15#32))))⟩] concatenates_S8388608x1_S8388608x1_S8388608x2_d1) shapeCasts_S8388608x2_S16777216

/-- The dequantized bias vector: the bias scale times (the code unpacked from the packed bias words, less the zero point). -/
def Bref (pb : S2048.Idx → BitVec 32) (sb : S_.Idx → EReal) : S4096.Idx → EReal :=
  mulf (F := Ideal) (φ := .f32) (broadcastInDim S4096 ![] bcast_S_S4096 sb) (subf (F := Ideal) (sitofp (F := Ideal) .f32 (shapeCast _ (concatenate S2048x2 1 [⟨S2048x1, (broadcastInDim S2048x1 ![0] bcast_S2048_S2048x1_0 (andi (Host.shrsi pb (broadcastInDim S2048 ![] bcast_S_S2048 (constantI S_ 32 4#32))) (broadcastInDim S2048 ![] bcast_S_S2048 (constantI S_ 32 15#32))))⟩, ⟨S2048x1, (broadcastInDim S2048x1 ![0] bcast_S2048_S2048x1_0 (andi pb (broadcastInDim S2048 ![] bcast_S_S2048 (constantI S_ 32 15#32))))⟩] concatenates_S2048x1_S2048x1_S2048x2_d1) shapeCasts_S2048x2_S4096)) (broadcastInDim S4096 ![] bcast_S_S4096 (constant (F := Ideal) S_ .f32 0x41000000#32)))

/-- The reference's stage that holds the unpacked codes is `Nref` of the packed weights. -/
theorem val_v9_eq (pw : S8388608.Idx → BitVec 32) : val_main_v9 (F := Ideal) pw = Nref pw := rfl

/-- The reference's stage that holds the bias vector is `Bref` of the packed bias and its scale. -/
theorem val_v30_eq (pb : S2048.Idx → BitVec 32) (sb : S_.Idx → EReal) : val_main_v30 (F := Ideal) pb sb = Bref pb sb := rfl

/-! ## Index equations: the reference's composed index functions at `(b, s, o)` -/

/-- The bias, broadcast along the last axis, is read at the output's last coordinate. -/
theorem bias_idx (b : Fin 4) (s : Fin 2048) (o : Fin 4096) :
    idx_main_v32 (idx_main_v33 (ix3 b s o)) = ix1 o :=
  funext fun a => Fin.ext (by match a with | ⟨0, _⟩ => rfl)

/-- The contraction reads the activations at `(b, s, k)`. -/
theorem lhs_idx (b : Fin 4) (s : Fin 2048) (o k : Fin 4096) :
    lidx_main_v31 (ix3 b s o) k = ix3 b s k :=
  funext fun a => Fin.ext (by match a with | ⟨0, _⟩ => rfl | ⟨1, _⟩ => rfl | ⟨2, _⟩ => rfl)

/-- The contraction reads the weight matrix at `(o, k)`, which the reshape takes from flat position `4096·o + k`. -/
theorem rhs_idx (b : Fin 4) (s : Fin 2048) (o k : Fin 4096) :
    idx_main_v15 (ridx_main_v31 (ix3 b s o) k) = Cert.Spec.flat o k :=
  funext fun a => Fin.ext (by
    match a with
    | ⟨0, _⟩ => show o.val * 4096 + k.val = 4096 * o.val + k.val; omega)

/-! ## The reference's result is the specification -/

/-- Index by index the reference's result is `∑ₖ x(b,s,k) · (sw · (N(4096·o+k) − 8)) + B(o)`. -/
theorem result_eq (x : S4x2048x4096.Idx → EReal) (pw : S8388608.Idx → BitVec 32) (pb : S2048.Idx → BitVec 32)
    (sw sb : S_.Idx → EReal) :
    val_main_v34 (F := Ideal) x pw pb sw sb = Cert.Spec.G x (Nref pw) (Bref pb sb) sw := by
  funext j
  obtain ⟨b, s, o, rfl⟩ : ∃ (b : Fin 4) (s : Fin 2048) (o : Fin 4096), j = ix3 b s o := ⟨j 0, j 1, j 2, eq_ix3 j⟩
  rw [val_main_v34_apply, val_main_v31_apply, val_main_v33_apply, val_main_v32_apply, bias_idx, val_v30_eq]
  refine congrArg₂ (fun u v : EReal => u + v) (Finset.sum_congr rfl fun k _ => ?_) rfl
  rw [val_main_v15_apply, val_main_v14_apply, val_main_v13_apply, val_main_v12_apply, val_main_v10_apply,
    val_main_v11_apply, val_main_cst_apply, lhs_idx, rhs_idx, val_v9_eq]
  rfl

/-- Every weakly fair execution of the reference ends with its result buffer at the specification of the launch's
    argument arrays, and the arguments unchanged. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = Cert.Spec.G (m ((c.tc : Thread nD τ).loc main_arg0)) (Nref (m ((c.tc : Thread nD τ).loc main_arg1))) (Bref (m ((c.tc : Thread nD τ).loc main_arg2)) (m ((c.tc : Thread nD τ).loc main_arg4))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨(h c).1.trans ((val_main_v34_eq _ _ _ _ _).trans (result_eq _ _ _ _ _)), (h c).2⟩)
    (Cert.ReferenceIdeal.Value.run (F := Ideal) m ρ)

end Cert.Proof.Ref

end
-- ==== Proof.lean ====
/-
  A linear layer with 4-bit quantized weights: out(b, s, o) = ∑ₖ x(b, s, k) · W(o, k) + bias(o), where W(o, k) is the
  weight scale times (code(o, k) − 8) and the codes are the nibbles of packed_w, high nibble first.

  The reference dequantizes the whole weight matrix on the host and contracts once.  The kernel repacks the codes on the
  host (per block of 512 columns, code c and code 256 + c into one byte), and in a (4, 8, 8) grid over (column block j,
  row block i, contraction block k) unpacks each byte block once per column block into a strip kept between points,
  accumulates the block products x · (code − 8) in a scratch accumulator over k, and at k = 7 writes the accumulator times
  the weight scale, plus the bias.  Over the extended reals the two agree when the activations and the weight scale are
  finite (the precondition): the byte takes apart into the two codes it was made of, a sum in eight blocks is the whole
  sum, and the scale moves across the finite sum by distributivity.

  The frames of the two kernel programs come from one run of the region at any float instance (Proof/KIRun.lean, and its
  copy at the program as printed, Proof/KRun.lean): the accumulator and the strip are carried by the region's invariant.
  The reference's frame and value are its run (Proof/RefValue.lean); the kernel's value is Proof/KIClaim.lean.  Nothing
  is rewritten by the idealization, so its ledger is empty.
-/
import proofs.«419171_j38482906972513_3_alg».proof.Defs
import proofs.«419171_j38482906972513_3_alg».proof.Proof.Gen.Kernel
import proofs.«419171_j38482906972513_3_alg».proof.Proof.Gen.Kernel.Frame
import proofs.«419171_j38482906972513_3_alg».proof.Proof.Gen.KernelIdeal
import proofs.«419171_j38482906972513_3_alg».proof.Proof.Gen.KernelIdeal.Frame
import proofs.«419171_j38482906972513_3_alg».proof.Proof.Gen.ReferenceIdeal
import proofs.«419171_j38482906972513_3_alg».proof.Proof.Gen.ReferenceIdeal.Run
import proofs.«419171_j38482906972513_3_alg».proof.Proof.Gen.Pre_finite_inputs
import proofs.«419171_j38482906972513_3_alg».proof.Proof.KRun
import proofs.«419171_j38482906972513_3_alg».proof.Proof.KIRun
import proofs.«419171_j38482906972513_3_alg».proof.Proof.KIClaim
import proofs.«419171_j38482906972513_3_alg».proof.Proof.RefValue
import Idealize.ShloMosaic.Adequacy
import Idealize.ShloMosaic.Init

noncomputable section

namespace Cert.Proof

open Idealize.ShloMosaic Idealize.SL.Sem

/-- Both programs unpack packed_w into the flat vector of codes by the same operations. -/
theorem codes_eq : Cert.Proof.Ref.Nref = Cert.Proof.KI.Nk := rfl

/-- Both programs form the bias vector from packed_b and scale_b by the same operations. -/
theorem bias_eq : Cert.Proof.Ref.Bref = Cert.Proof.KI.Bk := rfl

/-- The program as printed runs and leaves its arguments as launched. -/
theorem frame_k : Cert.frame_Kernel (hKernel := Cert.Kernel.Gen.facts) (hPre_finite_inputs := Cert.Pre_finite_inputs.Gen.facts) :=
  fun m ρ _ => Cert.Kernel.Gen.frame_of m ρ (Cert.Proof.KB.dats m) (fun _ _ => rfl) (Cert.Proof.KB.run_main (F := Bits) m ρ)

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame_of m ρ (Cert.Proof.KI.dats m) (fun _ _ => rfl) (Cert.Proof.KI.run_main (F := Ideal) m ρ)

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end with the layer `Cert.Spec.G` of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.G (m ((c.tc : Thread Cert.KernelIdeal.nD Cert.KernelIdeal.τ).loc Cert.KernelIdeal.main_arg0)) (Cert.Proof.KI.Nk (m ((c.tc : Thread Cert.KernelIdeal.nD Cert.KernelIdeal.τ).loc Cert.KernelIdeal.main_arg1))) (Cert.Proof.KI.Bk (m ((c.tc : Thread Cert.KernelIdeal.nD Cert.KernelIdeal.τ).loc Cert.KernelIdeal.main_arg2)) (m ((c.tc : Thread Cert.KernelIdeal.nD Cert.KernelIdeal.τ).loc Cert.KernelIdeal.main_arg4))) (m ((c.tc : Thread Cert.KernelIdeal.nD Cert.KernelIdeal.τ).loc Cert.KernelIdeal.main_arg3)),
    Cert.Proof.KI.kernel_run_G (hP := Cert.Pre_finite_inputs.Gen.facts) m ρ hpre, ?_⟩
  refine (θ_run Cert.ReferenceIdeal.defs _ _).mono (fun _ h c => ⟨(h c).1.trans ?_, (h c).2⟩) (Cert.Proof.Ref.run_G m' ρ')
  rw [(hagree c).1, (hagree c).2.1, (hagree c).2.2.1, (hagree c).2.2.2.1, (hagree c).2.2.2.2, codes_eq, bias_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
